-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) →
    ∃ (v0 : (c : Dev Cert.KernelIdeal.nD) → Buf (Elt Ideal) ((c.tc : Thread Cert.KernelIdeal.nD Cert.KernelIdeal.τ).loc Cert.KernelIdeal.main_v44)) (v1 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_v45) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_v74) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x1024 : Shape := ⟨2, ![131072, 1024]⟩
abbrev S131072x4 : Shape := ⟨2, ![131072, 4]⟩
abbrev S1032x64 : Shape := ⟨2, ![1032, 64]⟩
abbrev S64 : Shape := ⟨1, ![64]⟩
abbrev S64x4 : Shape := ⟨2, ![64, 4]⟩
abbrev S4 : Shape := ⟨1, ![4]⟩
abbrev S_ : Shape := ⟨0, ![]⟩

class Facts : Prop where
  bcast_S_S131072x1024 : S_.BroadcastsInDim S131072x1024 (![] : Fin 0 → Fin S131072x1024.rank)
  reducesTo_S131072x1024_S_d0_1 : S131072x1024.ReducesTo [0, 1] S_
  h_S_ : 0 < S_.numel
  bcast_S_S131072x4 : S_.BroadcastsInDim S131072x4 (![] : Fin 0 → Fin S131072x4.rank)
  reducesTo_S131072x4_S_d0_1 : S131072x4.ReducesTo [0, 1] S_
  bcast_S_S1032x64 : S_.BroadcastsInDim S1032x64 (![] : Fin 0 → Fin S1032x64.rank)
  reducesTo_S1032x64_S_d0_1 : S1032x64.ReducesTo [0, 1] S_
  bcast_S_S64 : S_.BroadcastsInDim S64 (![] : Fin 0 → Fin S64.rank)
  reducesTo_S64_S_d0 : S64.ReducesTo [0] S_
  bcast_S_S64x4 : S_.BroadcastsInDim S64x4 (![] : Fin 0 → Fin S64x4.rank)
  reducesTo_S64x4_S_d0_1 : S64x4.ReducesTo [0, 1] S_
  bcast_S_S4 : S_.BroadcastsInDim S4 (![] : Fin 0 → Fin S4.rank)
  reducesTo_S4_S_d0 : S4.ReducesTo [0] S_

variable [Facts]

def fn_part6 {F : FTy → Type} [FloatOps F] (main_arg21 : FVec F S4 .f32) (main_v98 : IVec S_ 1) (main_v101 : IVec S4 1) (main_c_39 : IVec S_ 1) : IVec S_ 1 :=
  let main_v102 : IVec S_ 1 := (fun x v => Host.reduce IntOp.andi x v reducesTo_S4_S_d0 h_S_) main_v101 main_c_39
  let main_v103 : IVec S_ 1 := andi main_v98 main_v102
  let main_v104 : FVec F S4 .f32 := Host.absf main_arg21
  let main_cst_40 : FVec F S_ .f32 := constant S_ .f32 0x7F800000#32
  let main_v105 : FVec F S4 .f32 := broadcastInDim S4 ![] bcast_S_S4 main_cst_40
  let main_v106 : IVec S4 1 := cmpf .olt main_v104 main_v105
  let main_c_41 : IVec S_ 1 := constantI S_ 1 1#1
  let main_v107 : IVec S_ 1 := (fun x v => Host.reduce IntOp.andi x v reducesTo_S4_S_d0 h_S_) main_v106 main_c_41
  let main_v108 : IVec S_ 1 := andi main_v103 main_v107
  main_v108

def fn_part5 {F : FTy → Type} [FloatOps F] (main_arg18 : FVec F S4 .f32) (main_arg19 : FVec F S4 .f32) (main_arg20 : FVec F S4 .f32) (main_arg21 : FVec F S4 .f32) (main_v83 : IVec S_ 1) (main_v84 : FVec F S64x4 .f32) (main_cst_32 : FVec F S_ .f32) : IVec S_ 1 :=
  let main_v85 : FVec F S64x4 .f32 := broadcastInDim S64x4 ![] bcast_S_S64x4 main_cst_32
  let main_v86 : IVec S64x4 1 := cmpf .olt main_v84 main_v85
  let main_c_33 : IVec S_ 1 := constantI S_ 1 1#1
  let main_v87 : IVec S_ 1 := (fun x v => Host.reduce IntOp.andi x v reducesTo_S64x4_S_d0_1 h_S_) main_v86 main_c_33
  let main_v88 : IVec S_ 1 := andi main_v83 main_v87
  let main_v89 : FVec F S4 .f32 := Host.absf main_arg18
  let main_cst_34 : FVec F S_ .f32 := constant S_ .f32 0x7F800000#32
  let main_v90 : FVec F S4 .f32 := broadcastInDim S4 ![] bcast_S_S4 main_cst_34
  let main_v91 : IVec S4 1 := cmpf .olt main_v89 main_v90
  let main_c_35 : IVec S_ 1 := constantI S_ 1 1#1
  let main_v92 : IVec S_ 1 := (fun x v => Host.reduce IntOp.andi x v reducesTo_S4_S_d0 h_S_) main_v91 main_c_35
  let main_v93 : IVec S_ 1 := andi main_v88 main_v92
  let main_v94 : FVec F S4 .f32 := Host.absf main_arg19
  let main_cst_36 : FVec F S_ .f32 := constant S_ .f32 0x7F800000#32
  let main_v95 : FVec F S4 .f32 := broadcastInDim S4 ![] bcast_S_S4 main_cst_36
  let main_v96 : IVec S4 1 := cmpf .olt main_v94 main_v95
  let main_c_37 : IVec S_ 1 := constantI S_ 1 1#1
  let main_v97 : IVec S_ 1 := (fun x v => Host.reduce IntOp.andi x v reducesTo_S4_S_d0 h_S_) main_v96 main_c_37
  let main_v98 : IVec S_ 1 := andi main_v93 main_v97
  let main_v99 : FVec F S4 .f32 := Host.absf main_arg20
  let main_cst_38 : FVec F S_ .f32 := constant S_ .f32 0x7F800000#32
  let main_v100 : FVec F S4 .f32 := broadcastInDim S4 ![] bcast_S_S4 main_cst_38
  let main_v101 : IVec S4 1 := cmpf .olt main_v99 main_v100
  let main_c_39 : IVec S_ 1 := constantI S_ 1 1#1
  fn_part6 (F := F) main_arg21 main_v98 main_v101 main_c_39

def fn_part4 {F : FTy → Type} [FloatOps F] (main_arg14 : FVec F S4 .f32) (main_arg15 : FVec F S1032x64 .f32) (main_arg16 : FVec F S64 .f32) (main_arg17 : FVec F S64x4 .f32) (main_arg18 : FVec F S4 .f32) (main_arg19 : FVec F S4 .f32) (main_arg20 : FVec F S4 .f32) (main_arg21 : FVec F S4 .f32) (main_v63 : IVec S_ 1) (main_v67 : IVec S_ 1) : IVec S_ 1 :=
  let main_v68 : IVec S_ 1 := andi main_v63 main_v67
  let main_v69 : FVec F S4 .f32 := Host.absf main_arg14
  let main_cst_26 : FVec F S_ .f32 := constant S_ .f32 0x7F800000#32
  let main_v70 : FVec F S4 .f32 := broadcastInDim S4 ![] bcast_S_S4 main_cst_26
  let main_v71 : IVec S4 1 := cmpf .olt main_v69 main_v70
  let main_c_27 : IVec S_ 1 := constantI S_ 1 1#1
  let main_v72 : IVec S_ 1 := (fun x v => Host.reduce IntOp.andi x v reducesTo_S4_S_d0 h_S_) main_v71 main_c_27
  let main_v73 : IVec S_ 1 := andi main_v68 main_v72
  let main_v74 : FVec F S1032x64 .f32 := Host.absf main_arg15
  let main_cst_28 : FVec F S_ .f32 := constant S_ .f32 0x7F800000#32
  let main_v75 : FVec F S1032x64 .f32 := broadcastInDim S1032x64 ![] bcast_S_S1032x64 main_cst_28
  let main_v76 : IVec S1032x64 1 := cmpf .olt main_v74 main_v75
  let main_c_29 : IVec S_ 1 := constantI S_ 1 1#1
  let main_v77 : IVec S_ 1 := (fun x v => Host.reduce IntOp.andi x v reducesTo_S1032x64_S_d0_1 h_S_) main_v76 main_c_29
  let main_v78 : IVec S_ 1 := andi main_v73 main_v77
  let main_v79 : FVec F S64 .f32 := Host.absf main_arg16
  let main_cst_30 : FVec F S_ .f32 := constant S_ .f32 0x7F800000#32
  let main_v80 : FVec F S64 .f32 := broadcastInDim S64 ![] bcast_S_S64 main_cst_30
  let main_v81 : IVec S64 1 := cmpf .olt main_v79 main_v80
  let main_c_31 : IVec S_ 1 := constantI S_ 1 1#1
  let main_v82 : IVec S_ 1 := (fun x v => Host.reduce IntOp.andi x v reducesTo_S64_S_d0 h_S_) main_v81 main_c_31
  let main_v83 : IVec S_ 1 := andi main_v78 main_v82
  let main_v84 : FVec F S64x4 .f32 := Host.absf main_arg17
  let main_cst_32 : FVec F S_ .f32 := constant S_ .f32 0x7F800000#32
  fn_part5 (F := F) main_arg18 main_arg19 main_arg20 main_arg21 main_v83 main_v84 main_cst_32

def fn_part3 {F : FTy → Type} [FloatOps F] (main_arg11 : FVec F S1032x64 .f32) (main_arg12 : FVec F S64 .f32) (main_arg13 : FVec F S64x4 .f32) (main_arg14 : FVec F S4 .f32) (main_arg15 : FVec F S1032x64 .f32) (main_arg16 : FVec F S64 .f32) (main_arg17 : FVec F S64x4 .f32) (main_arg18 : FVec F S4 .f32) (main_arg19 : FVec F S4 .f32) (main_arg20 : FVec F S4 .f32) (main_arg21 : FVec F S4 .f32) (main_v48 : IVec S_ 1) (main_v49 : FVec F S4 .f32) (main_v50 : FVec F S4 .f32) : IVec S_ 1 :=
  let main_v51 : IVec S4 1 := cmpf .olt main_v49 main_v50
  let main_c_19 : IVec S_ 1 := constantI S_ 1 1#1
  let main_v52 : IVec S_ 1 := (fun x v => Host.reduce IntOp.andi x v reducesTo_S4_S_d0 h_S_) main_v51 main_c_19
  let main_v53 : IVec S_ 1 := andi main_v48 main_v52
  let main_v54 : FVec F S1032x64 .f32 := Host.absf main_arg11
  let main_cst_20 : FVec F S_ .f32 := constant S_ .f32 0x7F800000#32
  let main_v55 : FVec F S1032x64 .f32 := broadcastInDim S1032x64 ![] bcast_S_S1032x64 main_cst_20
  let main_v56 : IVec S1032x64 1 := cmpf .olt main_v54 main_v55
  let main_c_21 : IVec S_ 1 := constantI S_ 1 1#1
  let main_v57 : IVec S_ 1 := (fun x v => Host.reduce IntOp.andi x v reducesTo_S1032x64_S_d0_1 h_S_) main_v56 main_c_21
  let main_v58 : IVec S_ 1 := andi main_v53 main_v57
  let main_v59 : FVec F S64 .f32 := Host.absf main_arg12
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64x4 .f32 := Host.absf main_arg13
  let main_cst_24 : FVec F S_ .f32 := constant S_ .f32 0x7F800000#32
  let main_v65 : FVec F S64x4 .f32 := broadcastInDim S64x4 ![] bcast_S_S64x4 main_cst_24
  let main_v66 : IVec S64x4 1 := cmpf .olt main_v64 main_v65
  let main_c_25 : IVec S_ 1 := constantI S_ 1 1#1
  let main_v67 : IVec S_ 1 := (fun x v => Host.reduce IntOp.andi x v reducesTo_S64x4_S_d0_1 h_S_) main_v66 main_c_25
  fn_part4 (F := F) main_arg14 main_arg15 main_arg16 main_arg17 main_arg18 main_arg19 main_arg20 main_arg21 main_v63 main_v67

def fn_part2 {F : FTy → Type} [FloatOps F] (main_arg7 : FVec F S1032x64 .f32) (main_arg8 : FVec F S64 .f32) (main_arg9 : FVec F S64x4 .f32) (main_arg10 : FVec F S4 .f32) (main_arg11 : FVec F S1032x64 .f32) (main_arg12 : FVec F S64 .f32) (main_arg13 : FVec F S64x4 .f32) (main_arg14 : FVec F S4 .f32) (main_arg15 : FVec F S1032x64 .f32) (main_arg16 : FVec F S64 .f32) (main_arg17 : FVec F S64x4 .f32) (main_arg18 : FVec F S4 .f32) (main_arg19 : FVec F S4 .f32) (main_arg20 : FVec F S4 .f32) (main_arg21 : FVec F S4 .f32) (main_v33 : IVec S_ 1) : IVec S_ 1 :=
  let main_v34 : FVec F S1032x64 .f32 := Host.absf main_arg7
  let main_cst_12 : FVec F S_ .f32 := constant S_ .f32 0x7F800000#32
  let main_v35 : FVec F S1032x64 .f32 := broadcastInDim S1032x64 ![] bcast_S_S1032x64 main_cst_12
  let main_v36 : IVec S1032x64 1 := cmpf .olt main_v34 main_v35
  let main_c_13 : IVec S_ 1 := constantI S_ 1 1#1
  let main_v37 : IVec S_ 1 := (fun x v => Host.reduce IntOp.andi x v reducesTo_S1032x64_S_d0_1 h_S_) main_v36 main_c_13
  let main_v38 : IVec S_ 1 := andi main_v33 main_v37
  let main_v39 : FVec F S64 .f32 := Host.absf main_arg8
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x4 .f32 := Host.absf main_arg9
  let main_cst_16 : FVec F S_ .f32 := constant S_ .f32 0x7F800000#32
  let main_v45 : FVec F S64x4 .f32 := broadcastInDim S64x4 ![] bcast_S_S64x4 main_cst_16
  let main_v46 : IVec S64x4 1 := cmpf .olt main_v44 main_v45
  let main_c_17 : IVec S_ 1 := constantI S_ 1 1#1
  let main_v47 : IVec S_ 1 := (fun x v => Host.reduce IntOp.andi x v reducesTo_S64x4_S_d0_1 h_S_) main_v46 main_c_17
  let main_v48 : IVec S_ 1 := andi main_v43 main_v47
  let main_v49 : FVec F S4 .f32 := Host.absf main_arg10
  let main_cst_18 : FVec F S_ .f32 := constant S_ .f32 0x7F800000#32
  let main_v50 : FVec F S4 .f32 := broadcastInDim S4 ![] bcast_S_S4 main_cst_18
  fn_part3 (F := F) main_arg11 main_arg12 main_arg13 main_arg14 main_arg15 main_arg16 main_arg17 main_arg18 main_arg19 main_arg20 main_arg21 main_v48 main_v49 main_v50

def fn_part1 {F : FTy → Type} [FloatOps F] (main_arg4 : FVec F S64 .f32) (main_arg5 : FVec F S64x4 .f32) (main_arg6 : FVec F S4 .f32) (main_arg7 : FVec F S1032x64 .f32) (main_arg8 : FVec F S64 .f32) (main_arg9 : FVec F S64x4 .f32) (main_arg10 : FVec F S4 .f32) (main_arg11 : FVec F S1032x64 .f32) (main_arg12 : FVec F S64 .f32) (main_arg13 : FVec F S64x4 .f32) (main_arg14 : FVec F S4 .f32) (main_arg15 : FVec F S1032x64 .f32) (main_arg16 : FVec F S64 .f32) (main_arg17 : FVec F S64x4 .f32) (main_arg18 : FVec F S4 .f32) (main_arg19 : FVec F S4 .f32) (main_arg20 : FVec F S4 .f32) (main_arg21 : FVec F S4 .f32) (main_v13 : IVec S_ 1) (main_v16 : IVec S1032x64 1) : IVec S_ 1 :=
  let main_c_5 : IVec S_ 1 := constantI S_ 1 1#1
  let main_v17 : IVec S_ 1 := (fun x v => Host.reduce IntOp.andi x v reducesTo_S1032x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x4 .f32 := Host.absf main_arg5
  let main_cst_8 : FVec F S_ .f32 := constant S_ .f32 0x7F800000#32
  let main_v25 : FVec F S64x4 .f32 := broadcastInDim S64x4 ![] bcast_S_S64x4 main_cst_8
  let main_v26 : IVec S64x4 1 := cmpf .olt main_v24 main_v25
  let main_c_9 : IVec S_ 1 := constantI S_ 1 1#1
  let main_v27 : IVec S_ 1 := (fun x v => Host.reduce IntOp.andi x v reducesTo_S64x4_S_d0_1 h_S_) main_v26 main_c_9
  let main_v28 : IVec S_ 1 := andi main_v23 main_v27
  let main_v29 : FVec F S4 .f32 := Host.absf main_arg6
  let main_cst_10 : FVec F S_ .f32 := constant S_ .f32 0x7F800000#32
  let main_v30 : FVec F S4 .f32 := broadcastInDim S4 ![] bcast_S_S4 main_cst_10
  let main_v31 : IVec S4 1 := cmpf .olt main_v29 main_v30
  let main_c_11 : IVec S_ 1 := constantI S_ 1 1#1
  let main_v32 : IVec S_ 1 := (fun x v => Host.reduce IntOp.andi x v reducesTo_S4_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_v33

def fn {F : FTy → Type} [FloatOps F] (main_arg0 : FVec F S131072x1024 .f32) (main_arg1 : FVec F S131072x4 .f32) (main_arg2 : FVec F S131072x4 .f32) (main_arg3 : FVec F S1032x64 .f32) (main_arg4 : FVec F S64 .f32) (main_arg5 : FVec F S64x4 .f32) (main_arg6 : FVec F S4 .f32) (main_arg7 : FVec F S1032x64 .f32) (main_arg8 : FVec F S64 .f32) (main_arg9 : FVec F S64x4 .f32) (main_arg10 : FVec F S4 .f32) (main_arg11 : FVec F S1032x64 .f32) (main_arg12 : FVec F S64 .f32) (main_arg13 : FVec F S64x4 .f32) (main_arg14 : FVec F S4 .f32) (main_arg15 : FVec F S1032x64 .f32) (main_arg16 : FVec F S64 .f32) (main_arg17 : FVec F S64x4 .f32) (main_arg18 : FVec F S4 .f32) (main_arg19 : FVec F S4 .f32) (main_arg20 : FVec F S4 .f32) (main_arg21 : FVec F S4 .f32) : IVec S_ 1 :=
  let main_v0 : FVec F S131072x1024 .f32 := Host.absf main_arg0
  let main_cst : FVec F S_ .f32 := constant S_ .f32 0x7F800000#32
  let main_v1 : FVec F S131072x1024 .f32 := broadcastInDim S131072x1024 ![] bcast_S_S131072x1024 main_cst
  let main_v2 : IVec S131072x1024 1 := cmpf .olt main_v0 main_v1
  let main_c : IVec S_ 1 := constantI S_ 1 1#1
  let main_v3 : IVec S_ 1 := (fun x v => Host.reduce IntOp.andi x v reducesTo_S131072x1024_S_d0_1 h_S_) main_v2 main_c
  let main_v4 : FVec F S131072x4 .f32 := Host.absf main_arg1
  let main_cst_0 : FVec F S_ .f32 := constant S_ .f32 0x7F800000#32
  let main_v5 : FVec F S131072x4 .f32 := broadcastInDim S131072x4 ![] bcast_S_S131072x4 main_cst_0
  let main_v6 : IVec S131072x4 1 := cmpf .olt main_v4 main_v5
  let main_c_1 : IVec S_ 1 := constantI S_ 1 1#1
  let main_v7 : IVec S_ 1 := (fun x v => Host.reduce IntOp.andi x v reducesTo_S131072x4_S_d0_1 h_S_) main_v6 main_c_1
  let main_v8 : IVec S_ 1 := andi main_v3 main_v7
  let main_v9 : FVec F S131072x4 .f32 := Host.absf main_arg2
  let main_cst_2 : FVec F S_ .f32 := constant S_ .f32 0x7F800000#32
  let main_v10 : FVec F S131072x4 .f32 := broadcastInDim S131072x4 ![] bcast_S_S131072x4 main_cst_2
  let main_v11 : IVec S131072x4 1 := cmpf .olt main_v9 main_v10
  let main_c_3 : IVec S_ 1 := constantI S_ 1 1#1
  let main_v12 : IVec S_ 1 := (fun x v => Host.reduce IntOp.andi x v reducesTo_S131072x4_S_d0_1 h_S_) main_v11 main_c_3
  let main_v13 : IVec S_ 1 := andi main_v8 main_v12
  let main_v14 : FVec F S1032x64 .f32 := Host.absf main_arg3
  let main_cst_4 : FVec F S_ .f32 := constant S_ .f32 0x7F800000#32
  let main_v15 : FVec F S1032x64 .f32 := broadcastInDim S1032x64 ![] bcast_S_S1032x64 main_cst_4
  let main_v16 : IVec S1032x64 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_v13 main_v16
-- ==== Kernel.lean ====
abbrev S131072x1024 : Shape := ⟨2, ![131072, 1024]⟩
abbrev S131072x4 : Shape := ⟨2, ![131072, 4]⟩
abbrev S1032x64 : Shape := ⟨2, ![1032, 64]⟩
abbrev S64 : Shape := ⟨1, ![64]⟩
abbrev S64x4 : Shape := ⟨2, ![64, 4]⟩
abbrev S4 : Shape := ⟨1, ![4]⟩
abbrev S1024x64 : Shape := ⟨2, ![1024, 64]⟩
abbrev S8x64 : Shape := ⟨2, ![8, 64]⟩
abbrev S1024x256 : Shape := ⟨2, ![1024, 256]⟩
abbrev S8x256 : Shape := ⟨2, ![8, 256]⟩
abbrev S256 : Shape := ⟨1, ![256]⟩
abbrev S1x256 : Shape := ⟨2, ![1, 256]⟩
abbrev S_ : Shape := ⟨0, ![]⟩
abbrev S256x16 : Shape := ⟨2, ![256, 16]⟩
abbrev S1 : Shape := ⟨1, ![1]⟩
abbrev S2 : Shape := ⟨1, ![2]⟩
abbrev S16 : Shape := ⟨1, ![16]⟩
abbrev S1x16 : Shape := ⟨2, ![1, 16]⟩
abbrev S131072x8 : Shape := ⟨2, ![131072, 8]⟩
abbrev S8 : Shape := ⟨1, ![8]⟩
abbrev S1x8 : Shape := ⟨2, ![1, 8]⟩
abbrev S2048x1024 : Shape := ⟨2, ![2048, 1024]⟩
abbrev S2048x8 : Shape := ⟨2, ![2048, 8]⟩
abbrev S2048x4 : Shape := ⟨2, ![2048, 4]⟩
abbrev S2048x256 : Shape := ⟨2, ![2048, 256]⟩
abbrev S2048x16 : Shape := ⟨2, ![2048, 16]⟩
abbrev S1x4 : Shape := ⟨2, ![1, 4]⟩
abbrev S2048 : Shape := ⟨1, ![2048]⟩
abbrev S2048x1 : Shape := ⟨2, ![2048, 1]⟩

abbrev nBuf : Space → Nat
  | .hbm => 79
  | .vmem => 12
  | .smem => 0
  | _ => 0

abbrev bufTy : (tb : Table) → Fin (tcTables nBuf tb) → BufTy
  | .hbm, ⟨0, _⟩ => ⟨S131072x1024, .f32⟩
  | .hbm, ⟨1, _⟩ => ⟨S131072x4, .f32⟩
  | .hbm, ⟨2, _⟩ => ⟨S131072x4, .f32⟩
  | .hbm, ⟨3, _⟩ => ⟨S1032x64, .f32⟩
  | .hbm, ⟨4, _⟩ => ⟨S64, .f32⟩
  | .hbm, ⟨5, _⟩ => ⟨S64x4, .f32⟩
  | .hbm, ⟨6, _⟩ => ⟨S4, .f32⟩
  | .hbm, ⟨7, _⟩ => ⟨S1032x64, .f32⟩
  | .hbm, ⟨8, _⟩ => ⟨S64, .f32⟩
  | .hbm, ⟨9, _⟩ => ⟨S64x4, .f32⟩
  | .hbm, ⟨10, _⟩ => ⟨S4, .f32⟩
  | .hbm, ⟨11, _⟩ => ⟨S1032x64, .f32⟩
  | .hbm, ⟨12, _⟩ => ⟨S64, .f32⟩
  | .hbm, ⟨13, _⟩ => ⟨S64x4, .f32⟩
  | .hbm, ⟨14, _⟩ => ⟨S4, .f32⟩
  | .hbm, ⟨15, _⟩ => ⟨S1032x64, .f32⟩
  | .hbm, ⟨16, _⟩ => ⟨S64, .f32⟩
  | .hbm, ⟨17, _⟩ => ⟨S64x4, .f32⟩
  | .hbm, ⟨18, _⟩ => ⟨S4, .f32⟩
  | .hbm, ⟨19, _⟩ => ⟨S4, .f32⟩
  | .hbm, ⟨20, _⟩ => ⟨S4, .f32⟩
  | .hbm, ⟨21, _⟩ => ⟨S4, .f32⟩
  | .hbm, ⟨22, _⟩ => ⟨S1024x64, .f32⟩
  | .hbm, ⟨23, _⟩ => ⟨S8x64, .f32⟩
  | .hbm, ⟨24, _⟩ => ⟨S1024x64, .f32⟩
  | .hbm, ⟨25, _⟩ => ⟨S8x64, .f32⟩
  | .hbm, ⟨26, _⟩ => ⟨S1024x64, .f32⟩
  | .hbm, ⟨27, _⟩ => ⟨S8x64, .f32⟩
  | .hbm, ⟨28, _⟩ => ⟨S1024x64, .f32⟩
  | .hbm, ⟨29, _⟩ => ⟨S8x64, .f32⟩
  | .hbm, ⟨30, _⟩ => ⟨S1024x256, .f32⟩
  | .hbm, ⟨31, _⟩ => ⟨S1024x256, .bf16⟩
  | .hbm, ⟨32, _⟩ => ⟨S8x256, .f32⟩
  | .hbm, ⟨33, _⟩ => ⟨S8x256, .bf16⟩
  | .hbm, ⟨34, _⟩ => ⟨S256, .f32⟩
  | .hbm, ⟨35, _⟩ => ⟨S1x256, .f32⟩
  | .hbm, ⟨36, _⟩ => ⟨S_, .f32⟩
  | .hbm, ⟨37, _⟩ => ⟨S256x16, .f32⟩
  | .hbm, ⟨38, _⟩ => ⟨S_, .i32⟩
  | .hbm, ⟨39, _⟩ => ⟨S1, .i32⟩
  | .hbm, ⟨40, _⟩ => ⟨S_, .i32⟩
  | .hbm, ⟨41, _⟩ => ⟨S1, .i32⟩
  | .hbm, ⟨42, _⟩ => ⟨S2, .i32⟩
  | .hbm, ⟨43, _⟩ => ⟨S256x16, .f32⟩
  | .hbm, ⟨44, _⟩ => ⟨S_, .i32⟩
  | .hbm, ⟨45, _⟩ => ⟨S1, .i32⟩
  | .hbm, ⟨46, _⟩ => ⟨S_, .i32⟩
  | .hbm, ⟨47, _⟩ => ⟨S1, .i32⟩
  | .hbm, ⟨48, _⟩ => ⟨S2, .i32⟩
  | .hbm, ⟨49, _⟩ => ⟨S256x16, .f32⟩
  | .hbm, ⟨50, _⟩ => ⟨S_, .i32⟩
  | .hbm, ⟨51, _⟩ => ⟨S1, .i32⟩
  | .hbm, ⟨52, _⟩ => ⟨S_, .i32⟩
  | .hbm, ⟨53, _⟩ => ⟨S1, .i32⟩
  | .hbm, ⟨54, _⟩ => ⟨S2, .i32⟩
  | .hbm, ⟨55, _⟩ => ⟨S256x16, .f32⟩
  | .hbm, ⟨56, _⟩ => ⟨S_, .i32⟩
  | .hbm, ⟨57, _⟩ => ⟨S1, .i32⟩
  | .hbm, ⟨58, _⟩ => ⟨S_, .i32⟩
  | .hbm, ⟨59, _⟩ => ⟨S1, .i32⟩
  | .hbm, ⟨60, _⟩ => ⟨S2, .i32⟩
  | .hbm, ⟨61, _⟩ => ⟨S256x16, .f32⟩
  | .hbm, ⟨62, _⟩ => ⟨S256x16, .bf16⟩
  | .hbm, ⟨63, _⟩ => ⟨S16, .f32⟩
  | .hbm, ⟨64, _⟩ => ⟨S1x16, .f32⟩
  | .hbm, ⟨65, _⟩ => ⟨S_, .f32⟩
  | .hbm, ⟨66, _⟩ => ⟨S4, .f32⟩
  | .hbm, ⟨67, _⟩ => ⟨S4, .f32⟩
  | .hbm, ⟨68, _⟩ => ⟨S4, .f32⟩
  | .hbm, ⟨69, _⟩ => ⟨S4, .f32⟩
  | .hbm, ⟨70, _⟩ => ⟨S_, .f32⟩
  | .hbm, ⟨71, _⟩ => ⟨S4, .f32⟩
  | .hbm, ⟨72, _⟩ => ⟨S4, .f32⟩
  | .hbm, ⟨73, _⟩ => ⟨S131072x8, .f32⟩
  | .hbm, ⟨74, _⟩ => ⟨S8, .f32⟩
  | .hbm, ⟨75, _⟩ => ⟨S1x8, .f32⟩
  | .hbm, ⟨76, _⟩ => ⟨S131072x8, .f32⟩
  | .hbm, ⟨77, _⟩ => ⟨S131072x4, .f32⟩
  | .hbm, ⟨78, _⟩ => ⟨S131072x4, .f32⟩
  | .local _ .vmem, ⟨0, _⟩ => ⟨S2048x1024, .f32⟩
  | .local _ .vmem, ⟨1, _⟩ => ⟨S2048x1024, .f32⟩
  | .local _ .vmem, ⟨2, _⟩ => ⟨S2048x8, .f32⟩
  | .local _ .vmem, ⟨3, _⟩ => ⟨S2048x8, .f32⟩
  | .local _ .vmem, ⟨4, _⟩ => ⟨S1024x256, .bf16⟩
  | .local _ .vmem, ⟨5, _⟩ => ⟨S8x256, .bf16⟩
  | .local _ .vmem, ⟨6, _⟩ => ⟨S1x256, .f32⟩
  | .local _ .vmem, ⟨7, _⟩ => ⟨S256x16, .bf16⟩
  | .local _ .vmem, ⟨8, _⟩ => ⟨S1x16, .f32⟩
  | .local _ .vmem, ⟨9, _⟩ => ⟨S1x8, .f32⟩
  | .local _ .vmem, ⟨10, _⟩ => ⟨S2048x8, .f32⟩
  | .local _ .vmem, ⟨11, _⟩ => ⟨S2048x8, .f32⟩
  | _, _ => ⟨S131072x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_cst : Ref sig .tc := ⟨.hbm, 36, rfl⟩
abbrev main_v14 : Ref sig .tc := ⟨.hbm, 37, rfl⟩
abbrev main_c : Ref sig .tc := ⟨.hbm, 38, rfl⟩
abbrev main_v15 : Ref sig .tc := ⟨.hbm, 39, rfl⟩
abbrev main_c_0 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_c_1 : Ref sig .tc := ⟨.hbm, 44, rfl⟩
abbrev main_v19 : Ref sig .tc := ⟨.hbm, 45, rfl⟩
abbrev main_c_2 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_c_3 : Ref sig .tc := ⟨.hbm, 50, rfl⟩
abbrev main_v23 : Ref sig .tc := ⟨.hbm, 51, rfl⟩
abbrev main_c_4 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_c_5 : Ref sig .tc := ⟨.hbm, 56, rfl⟩
abbrev main_v27 : Ref sig .tc := ⟨.hbm, 57, rfl⟩
abbrev main_c_6 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_cst_7 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_cst_8 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x8 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x16 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x8 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S2048x8 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  slices_S1032x64_S1024x64_0_0 : S1032x64.Slices ![0, 0] S1024x64
  slices_S1032x64_S8x64_1024_0 : S1032x64.Slices ![1024, 0] S8x64
  concatenates_S1024x64_S1024x64_S1024x64_S1024x64_S1024x256_d1 : Shape.Concatenates [S1024x64, S1024x64, S1024x64, S1024x64] S1024x256 1
  bitsLt_bf16_f32 : FTy.bits .bf16 < FTy.bits .f32
  concatenates_S8x64_S8x64_S8x64_S8x64_S8x256_d1 : Shape.Concatenates [S8x64, S8x64, S8x64, S8x64] S8x256 1
  concatenates_S64_S64_S64_S64_S256_d0 : Shape.Concatenates [S64, S64, S64, S64] S256 0
  shapeCasts_S256_S1x256 : S256.ShapeCasts S1x256
  bcast_S_S256x16 : S_.BroadcastsInDim S256x16 (![] : Fin 0 → Fin S256x16.rank)
  bcast_S_S1 : S_.BroadcastsInDim S1 (![] : Fin 0 → Fin S1.rank)
  concatenates_S1_S1_S2_d0 : Shape.Concatenates [S1, S1] S2 0
  concatenates_S4_S4_S4_S4_S16_d0 : Shape.Concatenates [S4, S4, S4, S4] S16 0
  shapeCasts_S16_S1x16 : S16.ShapeCasts S1x16
  bcast_S_S4 : S_.BroadcastsInDim S4 (![] : Fin 0 → Fin S4.rank)
  concatenates_S131072x4_S131072x4_S131072x8_d1 : Shape.Concatenates [S131072x4, S131072x4] S131072x8 1
  concatenates_S4_S4_S8_d0 : Shape.Concatenates [S4, S4] S8 0
  shapeCasts_S8_S1x8 : S8.ShapeCasts S1x8
  inb_S2048x8_S2048x8_0_0 : ∀ a, (![0, 0] : Fin 2 → Nat) a + S2048x8.size a ≤ S2048x8.size a
  h_S2048x8 : 0 < S2048x8.numel
  shapeCasts_S2048x8_S2048x8 : S2048x8.ShapeCasts S2048x8
  slices_S2048x8_o0_0_S2048x4 : S2048x8.Slices ![0, 0] S2048x4
  slices_S2048x8_o0_4_S2048x4 : S2048x8.Slices ![0, 4] S2048x4
  inb_S2048x1024_S2048x1024_0_0 : ∀ a, (![0, 0] : Fin 2 → Nat) a + S2048x1024.size a ≤ S2048x1024.size a
  h_S2048x1024 : 0 < S2048x1024.numel
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S8x256_S8x256_0_0 : ∀ a, (![0, 0] : Fin 2 → Nat) a + S8x256.size a ≤ S8x256.size a
  h_S8x256 : 0 < S8x256.numel
  shapeCasts_S8x256_S8x256 : S8x256.ShapeCasts S8x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  inb_S256x16_S256x16_0_0 : ∀ a, (![0, 0] : Fin 2 → Nat) a + S256x16.size a ≤ S256x16.size a
  h_S256x16 : 0 < S256x16.numel
  shapeCasts_S256x16_S256x16 : S256x16.ShapeCasts S256x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x256_S2048x256 : S1x256.Broadcasts S2048x256
  broadcasts_S1x16_S2048x16 : S1x16.Broadcasts S2048x16
  slices_S2048x16_o0_0_S2048x8 : S2048x16.Slices ![0, 0] S2048x8
  slices_S2048x16_o0_8_S2048x4 : S2048x16.Slices ![0, 8] S2048x4
  slices_S2048x16_o0_12_S2048x4 : S2048x16.Slices ![0, 12] S2048x4
  inb_S1x8_S1x8_0_0 : ∀ a, (![0, 0] : Fin 2 → Nat) a + S1x8.size a ≤ S1x8.size a
  h_S1x8 : 0 < S1x8.numel
  shapeCasts_S1x8_S1x8 : S1x8.ShapeCasts S1x8
  slices_S1x8_o0_0_S1x4 : S1x8.Slices ![0, 0] S1x4
  slices_S1x8_o0_4_S1x4 : S1x8.Slices ![0, 4] S1x4
  broadcasts_S1x4_S2048x4 : S1x4.Broadcasts S2048x4
  reduces_S2048x4_S2048 : S2048x4.Reduces [1] S2048
  shapeCasts_S2048_S2048x1 : S2048.ShapeCasts S2048x1
  broadcasts_S2048x1_S2048x4 : S2048x1.Broadcasts S2048x4
  inb_S2048x8_S2048x4_0_0 : ∀ a, (![0, 0] : Fin 2 → Nat) a + S2048x4.size a ≤ S2048x8.size a
  h_S2048x4 : 0 < S2048x4.numel
  inb_S2048x8_S2048x4_0_4 : ∀ a, (![0, 4] : Fin 2 → Nat) a + S2048x4.size a ≤ S2048x8.size a
  slices_S131072x8_S131072x4_0_0 : S131072x8.Slices ![0, 0] S131072x4
  slices_S131072x8_S131072x4_0_4 : S131072x8.Slices ![0, 4] S131072x4
  scatter_S256x16_S2_S64x4_01_n_01_0_wf : ScatterDims.WF S256x16 S2 S64x4 [0, 1] [] [0, 1] 0
  dot_S2048x1024_S1024x256_S2048x256_1_0_0_1_n_n_wf : DotDims.WF S2048x1024 S1024x256 S2048x256 [1] [0] [0] [1] [] []
  dot_S2048x8_S8x256_S2048x256_1_0_0_1_n_n_wf : DotDims.WF S2048x8 S8x256 S2048x256 [1] [0] [0] [1] [] []
  dot_S2048x256_S256x16_S2048x16_1_0_0_1_n_n_wf : DotDims.WF S2048x256 S256x16 S2048x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S131072x1024.size a
  hwx0_0 : ∀ i : grid0.Coords, EltTy.bits .f32 = 32 ∨ (Rect.block (s := S131072x1024) S2048x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x8.size a ≤ S131072x8.size a
  hwx0_1 : ∀ i : grid0.Coords, EltTy.bits .f32 = 32 ∨ (Rect.block (s := S131072x8) S2048x8.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x256.size a ≤ S1024x256.size a
  hwx0_2 : ∀ i : grid0.Coords, EltTy.bits .bf16 = 32 ∨ (Rect.block (s := S1024x256) S1024x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8x256.size a ≤ S8x256.size a
  hwx0_3 : ∀ i : grid0.Coords, EltTy.bits .bf16 = 32 ∨ (Rect.block (s := S8x256) S8x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x16.size a ≤ S256x16.size a
  hwx0_5 : ∀ i : grid0.Coords, EltTy.bits .bf16 = 32 ∨ (Rect.block (s := S256x16) S256x16.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x16.size a ≤ S1x16.size a
  hwx0_6 : ∀ i : grid0.Coords, EltTy.bits .f32 = 32 ∨ (Rect.block (s := S1x16) S1x16.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x8.size a ≤ S1x8.size a
  hwx0_7 : ∀ i : grid0.Coords, EltTy.bits .f32 = 32 ∨ (Rect.block (s := S1x8) S1x8.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2048x8.size a ≤ S131072x8.size a
  hwx0_8 : ∀ i : grid0.Coords, EltTy.bits .f32 = 32 ∨ (Rect.block (s := S131072x8) S2048x8.size (cc0_transform_8 i) (hinb0_8 i)).WholeWords (EltTy.packing .f32)

variable [Facts₀]

def scatter_S256x16_S2_S64x4_01_n_01_0 : ScatterDims S256x16 S2 S64x4 where
  updateWindowDims := [0, 1]
  insertedWindowDims := []
  scatterDimsToOperandDims := [0, 1]
  indexVectorDim := 0
  wf := scatter_S256x16_S2_S64x4_01_n_01_0_wf
def dot_S2048x1024_S1024x256_S2048x256_1_0_0_1_n_n : DotDims S2048x1024 S1024x256 S2048x256 where
  lhsContracting := [1]
  rhsContracting := [0]
  lhsNonContracting := [0]
  rhsNonContracting := [1]
  lhsBatch := []
  rhsBatch := []
  wf := dot_S2048x1024_S1024x256_S2048x256_1_0_0_1_n_n_wf
def dot_S2048x8_S8x256_S2048x256_1_0_0_1_n_n : DotDims S2048x8 S8x256 S2048x256 where
  lhsContracting := [1]
  rhsContracting := [0]
  lhsNonContracting := [0]
  rhsNonContracting := [1]
  lhsBatch := []
  rhsBatch := []
  wf := dot_S2048x8_S8x256_S2048x256_1_0_0_1_n_n_wf
def dot_S2048x256_S256x16_S2048x16_1_0_0_1_n_n : DotDims S2048x256 S256x16 S2048x16 where
  lhsContracting := [1]
  rhsContracting := [0]
  lhsNonContracting := [0]
  rhsNonContracting := [1]
  lhsBatch := []
  rhsBatch := []
  wf := dot_S2048x256_S256x16_S2048x16_1_0_0_1_n_n_wf

abbrev win0_0 : Pipeline.Window sig grid0 :=
  Pipeline.Window.ofSpec (Memref.whole main_arg0) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v40) S2048x8.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S1024x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S8x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v13) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v31) S256x16.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v33) S1x16.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v42) S1x8.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v43) S2048x8.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S131072x1024 : Shape := ⟨2, ![131072, 1024]⟩
abbrev S131072x4 : Shape := ⟨2, ![131072, 4]⟩
abbrev S1032x64 : Shape := ⟨2, ![1032, 64]⟩
abbrev S64 : Shape := ⟨1, ![64]⟩
abbrev S64x4 : Shape := ⟨2, ![64, 4]⟩
abbrev S4 : Shape := ⟨1, ![4]⟩
abbrev S131072x1032 : Shape := ⟨2, ![131072, 1032]⟩
abbrev S131072x64 : Shape := ⟨2, ![131072, 64]⟩
abbrev S1x64 : Shape := ⟨2, ![1, 64]⟩
abbrev S_ : Shape := ⟨0, ![]⟩
abbrev S1x4 : Shape := ⟨2, ![1, 4]⟩
abbrev S131072 : Shape := ⟨1, ![131072]⟩
abbrev S131072x1 : Shape := ⟨2, ![131072, 1]⟩

abbrev nBuf : Space → Nat
  | .hbm => 138
  | .vmem => 0
  | .smem => 0
  | _ => 0

abbrev hbmTy0_0 (i : Nat) : BufTy := match i % 128 with
  | 0 => ⟨S131072x1024, .f32⟩
  | 1 => ⟨S131072x4, .f32⟩
  | 2 => ⟨S131072x4, .f32⟩
  | 3 => ⟨S1032x64, .f32⟩
  | 4 => ⟨S64, .f32⟩
  | 5 => ⟨S64x4, .f32⟩
  | 6 => ⟨S4, .f32⟩
  | 7 => ⟨S1032x64, .f32⟩
  | 8 => ⟨S64, .f32⟩
  | 9 => ⟨S64x4, .f32⟩
  | 10 => ⟨S4, .f32⟩
  | 11 => ⟨S1032x64, .f32⟩
  | 12 => ⟨S64, .f32⟩
  | 13 => ⟨S64x4, .f32⟩
  | 14 => ⟨S4, .f32⟩
  | 15 => ⟨S1032x64, .f32⟩
  | 16 => ⟨S64, .f32⟩
  | 17 => ⟨S64x4, .f32⟩
  | 18 => ⟨S4, .f32⟩
  | 19 => ⟨S4, .f32⟩
  | 20 => ⟨S4, .f32⟩
  | 21 => ⟨S4, .f32⟩
  | 22 => ⟨S131072x1032, .f32⟩
  | 23 => ⟨S131072x64, .f32⟩
  | 24 => ⟨S1x64, .f32⟩
  | 25 => ⟨S131072x64, .f32⟩
  | 26 => ⟨S131072x64, .f32⟩
  | 27 => ⟨S_, .f32⟩
  | 28 => ⟨S131072x64, .f32⟩
  | 29 => ⟨S131072x64, .f32⟩
  | 30 => ⟨S131072x4, .f32⟩
  | 31 => ⟨S1x4, .f32⟩
  | 32 => ⟨S131072x4, .f32⟩
  | 33 => ⟨S131072x4, .f32⟩
  | 34 => ⟨S131072x4, .f32⟩
  | 35 => ⟨S131072x4, .f32⟩
  | 36 => ⟨S_, .f32⟩
  | 37 => ⟨S131072x4, .f32⟩
  | 38 => ⟨S131072x4, .f32⟩
  | 39 => ⟨S_, .f32⟩
  | 40 => ⟨S131072x4, .f32⟩
  | 41 => ⟨S131072x4, .f32⟩
  | 42 => ⟨S131072x64, .f32⟩
  | 43 => ⟨S1x64, .f32⟩
  | 44 => ⟨S131072x64, .f32⟩
  | 45 => ⟨S131072x64, .f32⟩
  | 46 => ⟨S_, .f32⟩
  | 47 => ⟨S131072x64, .f32⟩
  | 48 => ⟨S131072x64, .f32⟩
  | 49 => ⟨S131072x4, .f32⟩
  | 50 => ⟨S1x4, .f32⟩
  | 51 => ⟨S131072x4, .f32⟩
  | 52 => ⟨S131072x4, .f32⟩
  | 53 => ⟨S_, .f32⟩
  | 54 => ⟨S131072x4, .f32⟩
  | 55 => ⟨S131072x4, .f32⟩
  | 56 => ⟨S131072x4, .f32⟩
  | 57 => ⟨S131072x4, .f32⟩
  | 58 => ⟨S131072x4, .i1⟩
  | 59 => ⟨S131072x4, .f32⟩
  | 60 => ⟨S131072x4, .f32⟩
  | 61 => ⟨S131072x4, .f32⟩
  | 62 => ⟨S131072x4, .f32⟩
  | 63 => ⟨S131072x4, .f32⟩
  | 64 => ⟨S131072x4, .f32⟩
  | 65 => ⟨S131072x4, .f32⟩
  | 66 => ⟨S131072x4, .f32⟩
  | 67 => ⟨S131072x64, .f32⟩
  | 68 => ⟨S1x64, .f32⟩
  | 69 => ⟨S131072x64, .f32⟩
  | 70 => ⟨S131072x64, .f32⟩
  | 71 => ⟨S_, .f32⟩
  | 72 => ⟨S131072x64, .f32⟩
  | 73 => ⟨S131072x64, .f32⟩
  | 74 => ⟨S131072x4, .f32⟩
  | 75 => ⟨S1x4, .f32⟩
  | 76 => ⟨S131072x4, .f32⟩
  | 77 => ⟨S131072x4, .f32⟩
  | 78 => ⟨S131072x4, .f32⟩
  | 79 => ⟨S131072x4, .f32⟩
  | 80 => ⟨S_, .f32⟩
  | 81 => ⟨S131072x4, .f32⟩
  | 82 => ⟨S131072x4, .f32⟩
  | 83 => ⟨S_, .f32⟩
  | 84 => ⟨S131072x4, .f32⟩
  | 85 => ⟨S131072x4, .f32⟩
  | 86 => ⟨S131072x64, .f32⟩
  | 87 => ⟨S1x64, .f32⟩
  | 88 => ⟨S131072x64, .f32⟩
  | 89 => ⟨S131072x64, .f32⟩
  | 90 => ⟨S_, .f32⟩
  | 91 => ⟨S131072x64, .f32⟩
  | 92 => ⟨S131072x64, .f32⟩
  | 93 => ⟨S131072x4, .f32⟩
  | 94 => ⟨S1x4, .f32⟩
  | 95 => ⟨S131072x4, .f32⟩
  | 96 => ⟨S131072x4, .f32⟩
  | 97 => ⟨S1x4, .f32⟩
  | 98 => ⟨S131072x4, .f32⟩
  | 99 => ⟨S131072x4, .f32⟩
  | 100 => ⟨S131072x4, .f32⟩
  | 101 => ⟨S_, .f32⟩
  | 102 => ⟨S131072, .f32⟩
  | 103 => ⟨S131072x1, .f32⟩
  | 104 => ⟨S131072x1, .f32⟩
  | 105 => ⟨S_, .f32⟩
  | 106 => ⟨S131072x1, .f32⟩
  | 107 => ⟨S131072x1, .f32⟩
  | 108 => ⟨S131072x1, .f32⟩
  | 109 => ⟨S131072x4, .f32⟩
  | 110 => ⟨S131072x4, .f32⟩
  | 111 => ⟨S131072x4, .f32⟩
  | 112 => ⟨S_, .f32⟩
  | 113 => ⟨S131072x4, .f32⟩
  | 114 => ⟨S131072x4, .f32⟩
  | 115 => ⟨S131072x4, .f32⟩
  | 116 => ⟨S131072x4, .f32⟩
  | 117 => ⟨S131072x4, .f32⟩
  | 118 => ⟨S131072x4, .f32⟩
  | 119 => ⟨S_, .f32⟩
  | 120 => ⟨S4, .f32⟩
  | 121 => ⟨S4, .f32⟩
  | 122 => ⟨S4, .f32⟩
  | 123 => ⟨S4, .f32⟩
  | 124 => ⟨S_, .f32⟩
  | 125 => ⟨S4, .f32⟩
  | 126 => ⟨S4, .f32⟩
  | 127 => ⟨S1x4, .f32⟩
  | _ => ⟨S131072x1024, .f32⟩

abbrev hbmTy0_1 (i : Nat) : BufTy := match i % 128 with
  | 0 => ⟨S131072x4, .f32⟩
  | 1 => ⟨S131072x4, .f32⟩
  | 2 => ⟨S_, .f32⟩
  | 3 => ⟨S131072x4, .f32⟩
  | 4 => ⟨S131072x4, .f32⟩
  | 5 => ⟨S_, .f32⟩
  | 6 => ⟨S131072x4, .f32⟩
  | 7 => ⟨S131072x4, .f32⟩
  | 8 => ⟨S131072x4, .f32⟩
  | 9 => ⟨S131072x4, .f32⟩
  | _ => ⟨S131072x1024, .f32⟩

abbrev hbmTy (i : Nat) : BufTy := match i / 128 with
  | 0 => hbmTy0_0 i
  | 1 => hbmTy0_1 i
  | _ => ⟨S131072x1024, .f32⟩

abbrev bufTy : (tb : Table) → Fin (tcTables nBuf tb) → BufTy
  | .hbm, ⟨i, _⟩ => hbmTy i
  | _, _ => ⟨S131072x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_call0_cst : Ref sig .tc := ⟨.hbm, 27, rfl⟩
abbrev main_call0_v0 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_cst : Ref sig .tc := ⟨.hbm, 36, rfl⟩
abbrev main_v12 : Ref sig .tc := ⟨.hbm, 37, rfl⟩
abbrev main_v13 : Ref sig .tc := ⟨.hbm, 38, rfl⟩
abbrev main_cst_0 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_call1_cst : Ref sig .tc := ⟨.hbm, 46, rfl⟩
abbrev main_call1_v0 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_call2_cst : Ref sig .tc := ⟨.hbm, 53, rfl⟩
abbrev main_call2_v0 : Ref sig .tc := ⟨.hbm, 54, rfl⟩
abbrev main_call2_v1 : Ref sig .tc := ⟨.hbm, 55, rfl⟩
abbrev main_call2_v2 : Ref sig .tc := ⟨.hbm, 56, rfl⟩
abbrev main_call2_v3 : Ref sig .tc := ⟨.hbm, 57, rfl⟩
abbrev main_call2_v4 : Ref sig .tc := ⟨.hbm, 58, rfl⟩
abbrev main_call2_v5 : Ref sig .tc := ⟨.hbm, 59, rfl⟩
abbrev main_call2_v6 : Ref sig .tc := ⟨.hbm, 60, rfl⟩
abbrev main_call2_v7 : Ref sig .tc := ⟨.hbm, 61, rfl⟩
abbrev main_call2_v8 : Ref sig .tc := ⟨.hbm, 62, rfl⟩
abbrev main_call2_v9 : Ref sig .tc := ⟨.hbm, 63, rfl⟩
abbrev main_call2_v10 : Ref sig .tc := ⟨.hbm, 64, rfl⟩
abbrev main_call2_v11 : Ref sig .tc := ⟨.hbm, 65, rfl⟩
abbrev main_v25 : Ref sig .tc := ⟨.hbm, 66, rfl⟩
abbrev main_v26 : Ref sig .tc := ⟨.hbm, 67, rfl⟩
abbrev main_v27 : Ref sig .tc := ⟨.hbm, 68, rfl⟩
abbrev main_v28 : Ref sig .tc := ⟨.hbm, 69, rfl⟩
abbrev main_v29 : Ref sig .tc := ⟨.hbm, 70, rfl⟩
abbrev main_call3_cst : Ref sig .tc := ⟨.hbm, 71, rfl⟩
abbrev main_call3_v0 : Ref sig .tc := ⟨.hbm, 72, rfl⟩
abbrev main_v30 : Ref sig .tc := ⟨.hbm, 73, rfl⟩
abbrev main_v31 : Ref sig .tc := ⟨.hbm, 74, rfl⟩
abbrev main_v32 : Ref sig .tc := ⟨.hbm, 75, rfl⟩
abbrev main_v33 : Ref sig .tc := ⟨.hbm, 76, rfl⟩
abbrev main_v34 : Ref sig .tc := ⟨.hbm, 77, rfl⟩
abbrev main_v35 : Ref sig .tc := ⟨.hbm, 78, rfl⟩
abbrev main_v36 : Ref sig .tc := ⟨.hbm, 79, rfl⟩
abbrev main_cst_1 : Ref sig .tc := ⟨.hbm, 80, rfl⟩
abbrev main_v37 : Ref sig .tc := ⟨.hbm, 81, rfl⟩
abbrev main_v38 : Ref sig .tc := ⟨.hbm, 82, rfl⟩
abbrev main_cst_2 : Ref sig .tc := ⟨.hbm, 83, rfl⟩
abbrev main_v39 : Ref sig .tc := ⟨.hbm, 84, rfl⟩
abbrev main_v40 : Ref sig .tc := ⟨.hbm, 85, rfl⟩
abbrev main_v41 : Ref sig .tc := ⟨.hbm, 86, rfl⟩
abbrev main_v42 : Ref sig .tc := ⟨.hbm, 87, rfl⟩
abbrev main_v43 : Ref sig .tc := ⟨.hbm, 88, rfl⟩
abbrev main_v44 : Ref sig .tc := ⟨.hbm, 89, rfl⟩
abbrev main_call4_cst : Ref sig .tc := ⟨.hbm, 90, rfl⟩
abbrev main_call4_v0 : Ref sig .tc := ⟨.hbm, 91, rfl⟩
abbrev main_v45 : Ref sig .tc := ⟨.hbm, 92, rfl⟩
abbrev main_v46 : Ref sig .tc := ⟨.hbm, 93, rfl⟩
abbrev main_v47 : Ref sig .tc := ⟨.hbm, 94, rfl⟩
abbrev main_v48 : Ref sig .tc := ⟨.hbm, 95, rfl⟩
abbrev main_v49 : Ref sig .tc := ⟨.hbm, 96, rfl⟩
abbrev main_v50 : Ref sig .tc := ⟨.hbm, 97, rfl⟩
abbrev main_v51 : Ref sig .tc := ⟨.hbm, 98, rfl⟩
abbrev main_v52 : Ref sig .tc := ⟨.hbm, 99, rfl⟩
abbrev main_call5_v0 : Ref sig .tc := ⟨.hbm, 100, rfl⟩
abbrev main_call5_cst : Ref sig .tc := ⟨.hbm, 101, rfl⟩
abbrev main_call5_v1 : Ref sig .tc := ⟨.hbm, 102, rfl⟩
abbrev main_call5_v2 : Ref sig .tc := ⟨.hbm, 103, rfl⟩
abbrev main_v53 : Ref sig .tc := ⟨.hbm, 104, rfl⟩
abbrev main_cst_3 : Ref sig .tc := ⟨.hbm, 105, rfl⟩
abbrev main_v54 : Ref sig .tc := ⟨.hbm, 106, rfl⟩
abbrev main_v55 : Ref sig .tc := ⟨.hbm, 107, rfl⟩
abbrev main_v56 : Ref sig .tc := ⟨.hbm, 108, rfl⟩
abbrev main_v57 : Ref sig .tc := ⟨.hbm, 109, rfl⟩
abbrev main_v58 : Ref sig .tc := ⟨.hbm, 110, rfl⟩
abbrev main_v59 : Ref sig .tc := ⟨.hbm, 111, rfl⟩
abbrev main_cst_4 : Ref sig .tc := ⟨.hbm, 112, rfl⟩
abbrev main_v60 : Ref sig .tc := ⟨.hbm, 113, rfl⟩
abbrev main_v61 : Ref sig .tc := ⟨.hbm, 114, rfl⟩
abbrev main_v62 : Ref sig .tc := ⟨.hbm, 115, rfl⟩
abbrev main_v63 : Ref sig .tc := ⟨.hbm, 116, rfl⟩
abbrev main_v64 : Ref sig .tc := ⟨.hbm, 117, rfl⟩
abbrev main_v65 : Ref sig .tc := ⟨.hbm, 118, rfl⟩
abbrev main_cst_5 : Ref sig .tc := ⟨.hbm, 119, rfl⟩
abbrev main_v66 : Ref sig .tc := ⟨.hbm, 120, rfl⟩
abbrev main_v67 : Ref sig .tc := ⟨.hbm, 121, rfl⟩
abbrev main_v68 : Ref sig .tc := ⟨.hbm, 122, rfl⟩
abbrev main_v69 : Ref sig .tc := ⟨.hbm, 123, rfl⟩
abbrev main_cst_6 : Ref sig .tc := ⟨.hbm, 124, rfl⟩
abbrev main_v70 : Ref sig .tc := ⟨.hbm, 125, rfl⟩
abbrev main_v71 : Ref sig .tc := ⟨.hbm, 126, rfl⟩
abbrev main_v72 : Ref sig .tc := ⟨.hbm, 127, rfl⟩
abbrev main_v73 : Ref sig .tc := ⟨.hbm, 128, rfl⟩
abbrev main_v74 : Ref sig .tc := ⟨.hbm, 129, rfl⟩
abbrev main_cst_7 : Ref sig .tc := ⟨.hbm, 130, rfl⟩
abbrev main_v75 : Ref sig .tc := ⟨.hbm, 131, rfl⟩
abbrev main_v76 : Ref sig .tc := ⟨.hbm, 132, rfl⟩
abbrev main_cst_8 : Ref sig .tc := ⟨.hbm, 133, rfl⟩
abbrev main_v77 : Ref sig .tc := ⟨.hbm, 134, rfl⟩
abbrev main_v78 : Ref sig .tc := ⟨.hbm, 135, rfl⟩
abbrev main_v79 : Ref sig .tc := ⟨.hbm, 136, rfl⟩
abbrev main_v80 : Ref sig .tc := ⟨.hbm, 137, rfl⟩

abbrev nD : Nat := 1
abbrev τ : Topo := Topo.v7x

variable {F : FTy → Type} [FloatOps F]

class Facts₀ : Prop where
  concatenates_S131072x1024_S131072x4_S131072x4_S131072x1032_d1 : Shape.Concatenates [S131072x1024, S131072x4, S131072x4] S131072x1032 1
  bcast_S64_S1x64_1 : S64.BroadcastsInDim S1x64 (![1] : Fin 1 → Fin S1x64.rank)
  bcast_S1x64_S131072x64_0_1 : S1x64.BroadcastsInDim S131072x64 (![0, 1] : Fin 2 → Fin S131072x64.rank)
  bcast_S_S131072x64 : S_.BroadcastsInDim S131072x64 (![] : Fin 0 → Fin S131072x64.rank)
  bcast_S4_S1x4_1 : S4.BroadcastsInDim S1x4 (![1] : Fin 1 → Fin S1x4.rank)
  bcast_S1x4_S131072x4_0_1 : S1x4.BroadcastsInDim S131072x4 (![0, 1] : Fin 2 → Fin S131072x4.rank)
  bcast_S_S131072x4 : S_.BroadcastsInDim S131072x4 (![] : Fin 0 → Fin S131072x4.rank)
  reducesTo_S131072x4_S131072_d1 : S131072x4.ReducesTo [1] S131072
  h_S_ : 0 < S_.numel
  bcast_S131072_S131072x1_0 : S131072.BroadcastsInDim S131072x1 (![0] : Fin 1 → Fin S131072x1.rank)
  bcast_S_S131072x1 : S_.BroadcastsInDim S131072x1 (![] : Fin 0 → Fin S131072x1.rank)
  bcast_S131072x1_S131072x4_0_1 : S131072x1.BroadcastsInDim S131072x4 (![0, 1] : Fin 2 → Fin S131072x4.rank)
  bcast_S_S4 : S_.BroadcastsInDim S4 (![] : Fin 0 → Fin S4.rank)
  dot_S131072x1032_S1032x64_S131072x64_1_0_0_1_n_n_wf : DotDims.WF S131072x1032 S1032x64 S131072x64 [1] [0] [0] [1] [] []
  dot_S131072x64_S64x4_S131072x4_1_0_0_1_n_n_wf : DotDims.WF S131072x64 S64x4 S131072x4 [1] [0] [0] [1] [] []

variable [Facts₀]

def dot_S131072x1032_S1032x64_S131072x64_1_0_0_1_n_n : DotDims S131072x1032 S1032x64 S131072x64 where
  lhsContracting := [1]
  rhsContracting := [0]
  lhsNonContracting := [0]
  rhsNonContracting := [1]
  lhsBatch := []
  rhsBatch := []
  wf := dot_S131072x1032_S1032x64_S131072x64_1_0_0_1_n_n_wf
def dot_S131072x64_S64x4_S131072x4_1_0_0_1_n_n : DotDims S131072x64 S64x4 S131072x4 where
  lhsContracting := [1]
  rhsContracting := [0]
  lhsNonContracting := [0]
  rhsNonContracting := [1]
  lhsBatch := []
  rhsBatch := []
  wf := dot_S131072x64_S64x4_S131072x4_1_0_0_1_n_n_wf

class Facts : Prop extends Facts₀ where

variable [Facts]
-- ==== Proof.KernelEntry.lean ====
/-
  What the one region of the idealized kernel's @main finds when it is entered.

  Before the region @main runs 54 host operations (slices, concatenations, format changes, four set-scatters, the
  harmonic term); each writes a buffer of its own. `V0 m c` is core c's buffer contents after them, started from
  the memory `m`; `V m c b` reads it at a TensorCore reference. `iblk m c w t` is window w's block at grid point t,
  read off the window's array as the region finds it.
-/
import proofs.«400346_j70085276336407_3_alg».proof.Proof.Gen.Kernel.Launch
import Idealize.ShloMosaic.Lib.Pipeline.FrameBody

noncomputable section

namespace Cert.Kernel.Fr

open Idealize.ShloMosaic Idealize.ShloMosaic.TcCoe
open Idealize.SL Idealize.SL.Sem
open Cert.Kernel Cert.Kernel.Gen

variable {F : FTy → Type} [FloatOps F]
variable (m : (ℓ : Loc nD τ sig) → Buf (Elt F) ℓ)

/-- Core c's TensorCore buffer contents when the region is entered: the host operations before it, run from m. -/
abbrev V0 (c : Dev nD) : Valuation τ sig (Elt F) := StableHlo.after (List.flatten [hostOps0]) (fun b => m (c, b))

/-- The same, read at a TensorCore reference. -/
abbrev V (c : Dev nD) (b : Ref sig .tc) : Buf (Elt F) ((c : Thread nD τ).loc b) := V0 m c (Proc.devRef .tc b)

/-- Window w's block at point t, read off its array as the region finds it. -/
def iblk (c : Dev nD) (w : Fin cfg0.W) (t : Fin cfg0.N) :
    ((cfg0.win w).xblock (cfg0.grid.coords t)).Idx → Elt F (cfg0.win w).elt :=
  ((cfg0.win w).blk t).view.read (Elt F) (V m c (Pipeline.arrRef spec0 w))

end Cert.Kernel.Fr

end
-- ==== Proof.KernelFrame.lean ====
/-
  The frame of the kernel program's @main, at any float instance: every fair run terminates without a fault and
  leaves the twenty-two argument arrays as it found them.

  @main is 54 host lines, one region over a grid of 64 points, and 2 host lines. Every host line writes a result
  buffer of its own and no argument array. At each point the region's body loads its eight input blocks whole
  (2048 rows of h, the same rows of x‖v, the packed first-layer weights for h and for x‖v, the packed first-layer
  biases, the block-diagonal second layer and its biases, and the row mu‖harmonic) and fills its one output block,
  2048 rows by 8 columns, through two stores: columns 0–3 take the next positions, columns 4–7 the next velocities.
  Just before each store it also loads the rectangle it is about to overwrite and drops what it read. The two
  stores tile the block, so what the block holds afterwards is a function of the eight input blocks alone.
-/
import proofs.«400346_j70085276336407_3_alg».proof.Proof.KernelEntry
import proofs.«400346_j70085276336407_3_alg».proof.Proof.Gen.Kernel.Launch
import proofs.«400346_j70085276336407_3_alg».proof.Proof.Gen.Kernel.Skeleton
import proofs.«400346_j70085276336407_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines around the region -/

/-- The buffers the 54 lines before the region write: each line its own result, in the lines' order. -/
def entryWrites : List (Ref sig .tc) :=
  [main_v0, main_v1, main_v2, main_v3, main_v4, main_v5, main_v6, main_v7, main_v8, main_v9, main_v10, main_v11, main_v12, main_v13, main_v14, main_v15, main_v16, main_v17, main_v18, main_v19, main_v20, main_v21, main_v22, main_v23, main_v24, main_v25, main_v26, main_v27, main_v28, main_v29, main_v30, main_v31, main_v32, main_v33, main_v34, main_v35, main_v36, main_v37, main_v38, main_v39, main_v40, main_v41, main_v42, main_cst, main_c, main_c_0, main_c_1, main_c_2, main_c_3, main_c_4, main_c_5, main_c_6, main_cst_7, main_cst_8]

/-- The buffers the 2 lines after the region write: the two column halves sliced off the region's result. -/
def exitWrites : List (Ref sig .tc) := [main_v44, main_v45]

/-- A line before the region writes nothing outside `entryWrites`. -/
theorem hostOps0_writes : (hostOps0 : List (HloOp τ sig (Elt F))).Forall fun op =>
    op.writes ⊆ (entryWrites.map (Proc.devRef (τ := τ) .tc)).toFinset := by
  simp only [hostOps0, List.Forall, StableHlo.nullary_writes, StableHlo.unary_writes, StableHlo.binary_writes,
    StableHlo.ternary_writes, StableHlo.reshape_writes, StableHlo.nary_writes, Finset.singleton_subset_iff, List.mem_toFinset]
  repeat' apply And.intro
  all_goals exact List.mem_map_of_mem (by decide)

/-- A line after the region writes nothing outside `exitWrites`. -/
theorem hostOps1_writes : (hostOps1 : List (HloOp τ sig (Elt F))).Forall fun op =>
    op.writes ⊆ (exitWrites.map (Proc.devRef (τ := τ) .tc)).toFinset := by
  simp only [hostOps1, List.Forall, StableHlo.unary_writes, Finset.singleton_subset_iff, List.mem_toFinset]
  repeat' apply And.intro
  all_goals exact List.mem_map_of_mem (by decide)

/-- No host line allocates a buffer. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main reaches its region with the buffers at `V m` and continues after it with the two slicing lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The two lines after the region touch only the region's arrays and buffers the region passes by: all their
    buffers are unscoped TensorCore references, and nothing is prefetched. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  subst hops
  exact Pipeline.sub_ucRefs op ((List.forall_iff_forall_mem.mp hostOps1_sub) op hop)

/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  subst hops
  exact (List.forall_iff_forall_mem.mp hostOps1_fresh) op hop

/-- They write none of the nine arrays the region's windows read or fill: the two slices are no such array. -/
theorem sfx_keeps : ∀ ops ∈ ([hostOps1] : List (List (HloOp τ sig (Elt F)))), ∀ op ∈ ops,
    ∀ w, Proc.devRef .tc (Pipeline.arrRef spec0 w) ∉ op.writes := by
  intro ops hops op hop w hw
  simp only [List.mem_cons, List.mem_nil_iff, or_false] at hops
  subst hops
  obtain ⟨y, hy, he⟩ := List.mem_map.mp (List.mem_toFinset.mp ((List.forall_iff_forall_mem.mp hostOps1_writes) op hop hw))
  obtain rfl : y = Pipeline.arrRef spec0 w := Proc.devRef_injective _ he
  exact (by decide : ∀ w, Pipeline.arrRef spec0 w ∉ exitWrites) w hy

/-- A buffer no line before the region writes is found by the region as @main was launched with it. -/
theorem entry_keeps (c : Dev nD) (b : Ref sig .tc) (hb : b ∉ entryWrites) : V m c b = m ((c : Thread nD τ).loc b) :=
  StableHlo.after_of_writes_sub _ _
    (by simpa only [List.flatten_cons, List.flatten_nil, List.append_nil] using hostOps0_writes) hb

/-- A buffer that is none of the region's arrays and that no line after the region writes ends as the region found it. -/
theorem tail_keeps (dats : (p : Fin 1) → (c : Dev nD) → Dat τ (Elt F) Unit ℕ (UR sig nD τ) ℕ (cfgs p) c) (c : Dev nD) (b : Ref sig .tc)
    (hb : b ∉ exitWrites) (ha : ∀ w, Pipeline.arrRef spec0 w ≠ b) :
    Pipeline.afterTail₀ cfgs dats 0 (V0 m) [hostOps1] c b = V m c b := by
  unfold Pipeline.afterTail₀
  rw [StableHlo.after_of_writes_sub _ _
      (by simpa only [List.flatten_cons, List.flatten_nil, List.append_nil] using hostOps1_writes) hb,
    Pipeline.withArrays_of_ne _ c (V0 m c) _ b ha]

/-! ## The argument arrays: written by no host line -/

theorem V_main_arg0 (c : Dev nD) : V m c main_arg0 = m ((c : Thread nD τ).loc main_arg0) := entry_keeps m c main_arg0 (by decide)
theorem V_main_arg1 (c : Dev nD) : V m c main_arg1 = m ((c : Thread nD τ).loc main_arg1) := entry_keeps m c main_arg1 (by decide)
theorem V_main_arg2 (c : Dev nD) : V m c main_arg2 = m ((c : Thread nD τ).loc main_arg2) := entry_keeps m c main_arg2 (by decide)
theorem V_main_arg3 (c : Dev nD) : V m c main_arg3 = m ((c : Thread nD τ).loc main_arg3) := entry_keeps m c main_arg3 (by decide)
theorem V_main_arg4 (c : Dev nD) : V m c main_arg4 = m ((c : Thread nD τ).loc main_arg4) := entry_keeps m c main_arg4 (by decide)
theorem V_main_arg5 (c : Dev nD) : V m c main_arg5 = m ((c : Thread nD τ).loc main_arg5) := entry_keeps m c main_arg5 (by decide)
theorem V_main_arg6 (c : Dev nD) : V m c main_arg6 = m ((c : Thread nD τ).loc main_arg6) := entry_keeps m c main_arg6 (by decide)
theorem V_main_arg7 (c : Dev nD) : V m c main_arg7 = m ((c : Thread nD τ).loc main_arg7) := entry_keeps m c main_arg7 (by decide)
theorem V_main_arg8 (c : Dev nD) : V m c main_arg8 = m ((c : Thread nD τ).loc main_arg8) := entry_keeps m c main_arg8 (by decide)
theorem V_main_arg9 (c : Dev nD) : V m c main_arg9 = m ((c : Thread nD τ).loc main_arg9) := entry_keeps m c main_arg9 (by decide)
theorem V_main_arg10 (c : Dev nD) : V m c main_arg10 = m ((c : Thread nD τ).loc main_arg10) := entry_keeps m c main_arg10 (by decide)
theorem V_main_arg11 (c : Dev nD) : V m c main_arg11 = m ((c : Thread nD τ).loc main_arg11) := entry_keeps m c main_arg11 (by decide)
theorem V_main_arg12 (c : Dev nD) : V m c main_arg12 = m ((c : Thread nD τ).loc main_arg12) := entry_keeps m c main_arg12 (by decide)
theorem V_main_arg13 (c : Dev nD) : V m c main_arg13 = m ((c : Thread nD τ).loc main_arg13) := entry_keeps m c main_arg13 (by decide)
theorem V_main_arg14 (c : Dev nD) : V m c main_arg14 = m ((c : Thread nD τ).loc main_arg14) := entry_keeps m c main_arg14 (by decide)
theorem V_main_arg15 (c : Dev nD) : V m c main_arg15 = m ((c : Thread nD τ).loc main_arg15) := entry_keeps m c main_arg15 (by decide)
theorem V_main_arg16 (c : Dev nD) : V m c main_arg16 = m ((c : Thread nD τ).loc main_arg16) := entry_keeps m c main_arg16 (by decide)
theorem V_main_arg17 (c : Dev nD) : V m c main_arg17 = m ((c : Thread nD τ).loc main_arg17) := entry_keeps m c main_arg17 (by decide)
theorem V_main_arg18 (c : Dev nD) : V m c main_arg18 = m ((c : Thread nD τ).loc main_arg18) := entry_keeps m c main_arg18 (by decide)
theorem V_main_arg19 (c : Dev nD) : V m c main_arg19 = m ((c : Thread nD τ).loc main_arg19) := entry_keeps m c main_arg19 (by decide)
theorem V_main_arg20 (c : Dev nD) : V m c main_arg20 = m ((c : Thread nD τ).loc main_arg20) := entry_keeps m c main_arg20 (by decide)
theorem V_main_arg21 (c : Dev nD) : V m c main_arg21 = m ((c : Thread nD τ).loc main_arg21) := entry_keeps m c main_arg21 (by decide)

theorem W_main_arg1 (dats : (p : Fin 1) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) :=
  (tail_keeps m dats c main_arg1 (by decide) (by decide)).trans (V_main_arg1 m c)
theorem W_main_arg2 (dats : (p : Fin 1) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) :=
  (tail_keeps m dats c main_arg2 (by decide) (by decide)).trans (V_main_arg2 m c)
theorem W_main_arg3 (dats : (p : Fin 1) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) :=
  (tail_keeps m dats c main_arg3 (by decide) (by decide)).trans (V_main_arg3 m c)
theorem W_main_arg4 (dats : (p : Fin 1) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) :=
  (tail_keeps m dats c main_arg4 (by decide) (by decide)).trans (V_main_arg4 m c)
theorem W_main_arg5 (dats : (p : Fin 1) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) :=
  (tail_keeps m dats c main_arg5 (by decide) (by decide)).trans (V_main_arg5 m c)
theorem W_main_arg6 (dats : (p : Fin 1) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) :=
  (tail_keeps m dats c main_arg6 (by decide) (by decide)).trans (V_main_arg6 m c)
theorem W_main_arg7 (dats : (p : Fin 1) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) :=
  (tail_keeps m dats c main_arg7 (by decide) (by decide)).trans (V_main_arg7 m c)
theorem W_main_arg8 (dats : (p : Fin 1) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) :=
  (tail_keeps m dats c main_arg8 (by decide) (by decide)).trans (V_main_arg8 m c)
theorem W_main_arg9 (dats : (p : Fin 1) → (c : Dev nD) → Dat τ (Elt F) Unit ℕ (UR sig nD τ) ℕ (cfgs p) c) (c : Dev nD) :
    Pipeline.afterTail₀ cfgs dats 0 (V0 m) [hostOps1] c main_arg9 = m ((c : Thread nD τ).loc main_arg9) :=
  (tail_keeps m dats c main_arg9 (by decide) (by decide)).trans (V_main_arg9 m c)
theorem W_main_arg10 (dats : (p : Fin 1) → (c : Dev nD) → Dat τ (Elt F) Unit ℕ (UR sig nD τ) ℕ (cfgs p) c) (c : Dev nD) :
    Pipeline.afterTail₀ cfgs dats 0 (V0 m) [hostOps1] c main_arg10 = m ((c : Thread nD τ).loc main_arg10) :=
  (tail_keeps m dats c main_arg10 (by decide) (by decide)).trans (V_main_arg10 m c)
theorem W_main_arg11 (dats : (p : Fin 1) → (c : Dev nD) → Dat τ (Elt F) Unit ℕ (UR sig nD τ) ℕ (cfgs p) c) (c : Dev nD) :
    Pipeline.afterTail₀ cfgs dats 0 (V0 m) [hostOps1] c main_arg11 = m ((c : Thread nD τ).loc main_arg11) :=
  (tail_keeps m dats c main_arg11 (by decide) (by decide)).trans (V_main_arg11 m c)
theorem W_main_arg12 (dats : (p : Fin 1) → (c : Dev nD) → Dat τ (Elt F) Unit ℕ (UR sig nD τ) ℕ (cfgs p) c) (c : Dev nD) :
    Pipeline.afterTail₀ cfgs dats 0 (V0 m) [hostOps1] c main_arg12 = m ((c : Thread nD τ).loc main_arg12) :=
  (tail_keeps m dats c main_arg12 (by decide) (by decide)).trans (V_main_arg12 m c)
theorem W_main_arg13 (dats : (p : Fin 1) → (c : Dev nD) → Dat τ (Elt F) Unit ℕ (UR sig nD τ) ℕ (cfgs p) c) (c : Dev nD) :
    Pipeline.afterTail₀ cfgs dats 0 (V0 m) [hostOps1] c main_arg13 = m ((c : Thread nD τ).loc main_arg13) :=
  (tail_keeps m dats c main_arg13 (by decide) (by decide)).trans (V_main_arg13 m c)
theorem W_main_arg14 (dats : (p : Fin 1) → (c : Dev nD) → Dat τ (Elt F) Unit ℕ (UR sig nD τ) ℕ (cfgs p) c) (c : Dev nD) :
    Pipeline.afterTail₀ cfgs dats 0 (V0 m) [hostOps1] c main_arg14 = m ((c : Thread nD τ).loc main_arg14) :=
  (tail_keeps m dats c main_arg14 (by decide) (by decide)).trans (V_main_arg14 m c)
theorem W_main_arg15 (dats : (p : Fin 1) → (c : Dev nD) → Dat τ (Elt F) Unit ℕ (UR sig nD τ) ℕ (cfgs p) c) (c : Dev nD) :
    Pipeline.afterTail₀ cfgs dats 0 (V0 m) [hostOps1] c main_arg15 = m ((c : Thread nD τ).loc main_arg15) :=
  (tail_keeps m dats c main_arg15 (by decide) (by decide)).trans (V_main_arg15 m c)
theorem W_main_arg16 (dats : (p : Fin 1) → (c : Dev nD) → Dat τ (Elt F) Unit ℕ (UR sig nD τ) ℕ (cfgs p) c) (c : Dev nD) :
    Pipeline.afterTail₀ cfgs dats 0 (V0 m) [hostOps1] c main_arg16 = m ((c : Thread nD τ).loc main_arg16) :=
  (tail_keeps m dats c main_arg16 (by decide) (by decide)).trans (V_main_arg16 m c)
theorem W_main_arg17 (dats : (p : Fin 1) → (c : Dev nD) → Dat τ (Elt F) Unit ℕ (UR sig nD τ) ℕ (cfgs p) c) (c : Dev nD) :
    Pipeline.afterTail₀ cfgs dats 0 (V0 m) [hostOps1] c main_arg17 = m ((c : Thread nD τ).loc main_arg17) :=
  (tail_keeps m dats c main_arg17 (by decide) (by decide)).trans (V_main_arg17 m c)
theorem W_main_arg18 (dats : (p : Fin 1) → (c : Dev nD) → Dat τ (Elt F) Unit ℕ (UR sig nD τ) ℕ (cfgs p) c) (c : Dev nD) :
    Pipeline.afterTail₀ cfgs dats 0 (V0 m) [hostOps1] c main_arg18 = m ((c : Thread nD τ).loc main_arg18) :=
  (tail_keeps m dats c main_arg18 (by decide) (by decide)).trans (V_main_arg18 m c)
theorem W_main_arg19 (dats : (p : Fin 1) → (c : Dev nD) → Dat τ (Elt F) Unit ℕ (UR sig nD τ) ℕ (cfgs p) c) (c : Dev nD) :
    Pipeline.afterTail₀ cfgs dats 0 (V0 m) [hostOps1] c main_arg19 = m ((c : Thread nD τ).loc main_arg19) :=
  (tail_keeps m dats c main_arg19 (by decide) (by decide)).trans (V_main_arg19 m c)
theorem W_main_arg20 (dats : (p : Fin 1) → (c : Dev nD) → Dat τ (Elt F) Unit ℕ (UR sig nD τ) ℕ (cfgs p) c) (c : Dev nD) :
    Pipeline.afterTail₀ cfgs dats 0 (V0 m) [hostOps1] c main_arg20 = m ((c : Thread nD τ).loc main_arg20) :=
  (tail_keeps m dats c main_arg20 (by decide) (by decide)).trans (V_main_arg20 m c)
theorem W_main_arg21 (dats : (p : Fin 1) → (c : Dev nD) → Dat τ (Elt F) Unit ℕ (UR sig nD τ) ℕ (cfgs p) c) (c : Dev nD) :
    Pipeline.afterTail₀ cfgs dats 0 (V0 m) [hostOps1] c main_arg21 = m ((c : Thread nD τ).loc main_arg21) :=
  (tail_keeps m dats c main_arg21 (by decide) (by decide)).trans (V_main_arg21 m c)

/-! ## From the pipeline's final state to the argument arrays -/

/-- The twenty-two argument arrays read off a final state in which every array of the pipeline is at what the proof
    data compute and every other unscoped buffer is as the two last lines leave it: the h array is window 0's own
    array, an input, so it ends at its entry contents; each of the other twenty-one is no window's array and is
    written by no host line. -/
theorem args_kept (dats : (p : Fin 1) → (c : Dev nD) → Dat τ (Elt F) Unit ℕ (UR sig nD τ) ℕ (cfgs p) c)
    (hA : ∀ c w, (dats 0 c).A w = V m c (Pipeline.arrRef spec0 w)) (r : PUnit × MemSt nD τ sig (Elt F))
    (h : Pipeline.FramePost cfgs dats 0 (Pipeline.afterTail₀ cfgs dats 0 (V0 m) [hostOps1]) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10)
    ∧ r.2.mem ((c.tc : Thread nD τ).loc main_arg11) = m ((c.tc : Thread nD τ).loc main_arg11)
    ∧ r.2.mem ((c.tc : Thread nD τ).loc main_arg12) = m ((c.tc : Thread nD τ).loc main_arg12)
    ∧ r.2.mem ((c.tc : Thread nD τ).loc main_arg13) = m ((c.tc : Thread nD τ).loc main_arg13)
    ∧ r.2.mem ((c.tc : Thread nD τ).loc main_arg14) = m ((c.tc : Thread nD τ).loc main_arg14)
    ∧ r.2.mem ((c.tc : Thread nD τ).loc main_arg15) = m ((c.tc : Thread nD τ).loc main_arg15)
    ∧ r.2.mem ((c.tc : Thread nD τ).loc main_arg16) = m ((c.tc : Thread nD τ).loc main_arg16)
    ∧ r.2.mem ((c.tc : Thread nD τ).loc main_arg17) = m ((c.tc : Thread nD τ).loc main_arg17)
    ∧ r.2.mem ((c.tc : Thread nD τ).loc main_arg18) = m ((c.tc : Thread nD τ).loc main_arg18)
    ∧ r.2.mem ((c.tc : Thread nD τ).loc main_arg19) = m ((c.tc : Thread nD τ).loc main_arg19)
    ∧ r.2.mem ((c.tc : Thread nD τ).loc main_arg20) = m ((c.tc : Thread nD τ).loc main_arg20)
    ∧ r.2.mem ((c.tc : Thread nD τ).loc main_arg21) = m ((c.tc : Thread nD τ).loc main_arg21) :=
  ⟨
    ((h c).1 0).trans (((dats 0 c).arrAt_in 0 rfl _).trans ((hA c 0).trans (V_main_arg0 m c))),
    ((h c).2 main_arg1 (Pipeline.mem_restRefs_of main_arg1 (by decide) (by decide))).trans (W_main_arg1 m dats c),
    ((h c).2 main_arg2 (Pipeline.mem_restRefs_of main_arg2 (by decide) (by decide))).trans (W_main_arg2 m dats c),
    ((h c).2 main_arg3 (Pipeline.mem_restRefs_of main_arg3 (by decide) (by decide))).trans (W_main_arg3 m dats c),
    ((h c).2 main_arg4 (Pipeline.mem_restRefs_of main_arg4 (by decide) (by decide))).trans (W_main_arg4 m dats c),
    ((h c).2 main_arg5 (Pipeline.mem_restRefs_of main_arg5 (by decide) (by decide))).trans (W_main_arg5 m dats c),
    ((h c).2 main_arg6 (Pipeline.mem_restRefs_of main_arg6 (by decide) (by decide))).trans (W_main_arg6 m dats c),
    ((h c).2 main_arg7 (Pipeline.mem_restRefs_of main_arg7 (by decide) (by decide))).trans (W_main_arg7 m dats c),
    ((h c).2 main_arg8 (Pipeline.mem_restRefs_of main_arg8 (by decide) (by decide))).trans (W_main_arg8 m dats c),
    ((h c).2 main_arg9 (Pipeline.mem_restRefs_of main_arg9 (by decide) (by decide))).trans (W_main_arg9 m dats c),
    ((h c).2 main_arg10 (Pipeline.mem_restRefs_of main_arg10 (by decide) (by decide))).trans (W_main_arg10 m dats c),
    ((h c).2 main_arg11 (Pipeline.mem_restRefs_of main_arg11 (by decide) (by decide))).trans (W_main_arg11 m dats c),
    ((h c).2 main_arg12 (Pipeline.mem_restRefs_of main_arg12 (by decide) (by decide))).trans (W_main_arg12 m dats c),
    ((h c).2 main_arg13 (Pipeline.mem_restRefs_of main_arg13 (by decide) (by decide))).trans (W_main_arg13 m dats c),
    ((h c).2 main_arg14 (Pipeline.mem_restRefs_of main_arg14 (by decide) (by decide))).trans (W_main_arg14 m dats c),
    ((h c).2 main_arg15 (Pipeline.mem_restRefs_of main_arg15 (by decide) (by decide))).trans (W_main_arg15 m dats c),
    ((h c).2 main_arg16 (Pipeline.mem_restRefs_of main_arg16 (by decide) (by decide))).trans (W_main_arg16 m dats c),
    ((h c).2 main_arg17 (Pipeline.mem_restRefs_of main_arg17 (by decide) (by decide))).trans (W_main_arg17 m dats c),
    ((h c).2 main_arg18 (Pipeline.mem_restRefs_of main_arg18 (by decide) (by decide))).trans (W_main_arg18 m dats c),
    ((h c).2 main_arg19 (Pipeline.mem_restRefs_of main_arg19 (by decide) (by decide))).trans (W_main_arg19 m dats c),
    ((h c).2 main_arg20 (Pipeline.mem_restRefs_of main_arg20 (by decide) (by decide))).trans (W_main_arg20 m dats c),
    ((h c).2 main_arg21 (Pipeline.mem_restRefs_of main_arg21 (by decide) (by decide))).trans (W_main_arg21 m dats c)⟩

/-- For any proof data whose arrays are the region-entry contents: a run ending in such a state ends with the
    twenty-two argument arrays unchanged. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  (θ_run defs _ _).mono (fun r h c => args_kept m dats hA r h c) h

/-! ## The body's rectangles -/

/-- Each input block whole: the rectangle through which the body's one load of it reads. -/
abbrev inAll0 : Rect S2048x1024 := Rect.unit (s := S2048x1024) ![0, 0] S2048x1024.size inb_S2048x1024_S2048x1024_0_0
abbrev inAll1 : Rect S2048x8 := Rect.unit (s := S2048x8) ![0, 0] S2048x8.size inb_S2048x8_S2048x8_0_0
abbrev inAll2 : Rect S1024x256 := Rect.unit (s := S1024x256) ![0, 0] S1024x256.size inb_S1024x256_S1024x256_0_0
abbrev inAll3 : Rect S8x256 := Rect.unit (s := S8x256) ![0, 0] S8x256.size inb_S8x256_S8x256_0_0
abbrev inAll4 : Rect S1x256 := Rect.unit (s := S1x256) ![0, 0] S1x256.size inb_S1x256_S1x256_0_0
abbrev inAll5 : Rect S256x16 := Rect.unit (s := S256x16) ![0, 0] S256x16.size inb_S256x16_S256x16_0_0
abbrev inAll6 : Rect S1x16 := Rect.unit (s := S1x16) ![0, 0] S1x16.size inb_S1x16_S1x16_0_0
abbrev inAll7 : Rect S1x8 := Rect.unit (s := S1x8) ![0, 0] S1x8.size inb_S1x8_S1x8_0_0

/-- Columns 0–3 of the output block: where the next positions are stored. -/
abbrev rLo : Rect S2048x8 := Rect.unit (s := S2048x8) ![0, 0] S2048x4.size inb_S2048x8_S2048x4_0_0
/-- Columns 4–7 of the output block: where the next velocities are stored. -/
abbrev rHi : Rect S2048x8 := Rect.unit (s := S2048x8) ![0, 4] S2048x4.size inb_S2048x8_S2048x4_0_4

/-! ## What the body leaves in the output block -/

/-- The output block after the body, from the eight input blocks: the velocity store (the later one) over the
    position store. `x0` is the block of h rows, `x1` the same rows of x‖v, `x2` and `x3` the packed first-layer
    weights for h and for x‖v, `x4` the packed first-layer biases, `x5` the block-diagonal second layer, `x6` its
    biases, `x7` the row mu‖harmonic. -/
def outBuf (x0 : Vec F S2048x1024 .f32) (x1 : Vec F S2048x8 .f32) (x2 : Vec F S1024x256 .bf16) (x3 : Vec F S8x256 .bf16) (x4 : Vec F S1x256 .f32) (x5 : Vec F S256x16 .bf16) (x6 : Vec F S1x16 .f32) (x7 : Vec F S1x8 .f32) : Vec F S2048x8 .f32 :=
  View.canon [⟨rHi, k0_pay1 (k0_pay4 (View.ld x1 inAll1)) (k0_pay5 (View.ld x1 inAll1)) (k0_pay7 (View.ld x1 inAll1) (View.ld x0 inAll0) (View.ld x2 inAll2) (View.ld x3 inAll3) (View.ld x4 inAll4) (View.ld x5 inAll5) (View.ld x6 inAll6)) (k0_pay8 (View.ld x1 inAll1) (View.ld x0 inAll0) (View.ld x2 inAll2) (View.ld x3 inAll3) (View.ld x4 inAll4) (View.ld x5 inAll5) (View.ld x6 inAll6))
      (k0_pay10 (View.ld x1 inAll1) (View.ld x0 inAll0) (View.ld x2 inAll2) (View.ld x3 inAll3) (View.ld x4 inAll4) (View.ld x5 inAll5) (View.ld x6 inAll6))
      (k0_pay12 (View.ld x1 inAll1) (View.ld x0 inAll0) (View.ld x2 inAll2) (View.ld x3 inAll3) (View.ld x4 inAll4) (View.ld x5 inAll5) (View.ld x6 inAll6)) (k0_pay13 (View.ld x1 inAll1) (View.ld x0 inAll0) (View.ld x2 inAll2) (View.ld x3 inAll3) (View.ld x4 inAll4) (View.ld x5 inAll5) (View.ld x6 inAll6))
      (k0_pay14 (View.ld x1 inAll1) (View.ld x0 inAll0) (View.ld x2 inAll2) (View.ld x3 inAll3) (View.ld x4 inAll4) (View.ld x5 inAll5) (View.ld x6 inAll6)) (k0_pay15 (F := F)) (View.ld x7 inAll7)⟩,
    ⟨rLo, k0_pay2 (k0_pay4 (View.ld x1 inAll1)) (k0_pay5 (View.ld x1 inAll1)) (k0_pay7 (View.ld x1 inAll1) (View.ld x0 inAll0) (View.ld x2 inAll2) (View.ld x3 inAll3) (View.ld x4 inAll4) (View.ld x5 inAll5) (View.ld x6 inAll6)) (k0_pay8 (View.ld x1 inAll1) (View.ld x0 inAll0) (View.ld x2 inAll2) (View.ld x3 inAll3) (View.ld x4 inAll4) (View.ld x5 inAll5) (View.ld x6 inAll6))
      (k0_pay10 (View.ld x1 inAll1) (View.ld x0 inAll0) (View.ld x2 inAll2) (View.ld x3 inAll3) (View.ld x4 inAll4) (View.ld x5 inAll5) (View.ld x6 inAll6)) (k0_pay11 (View.ld x1 inAll1) (View.ld x0 inAll0) (View.ld x2 inAll2) (View.ld x3 inAll3) (View.ld x4 inAll4) (View.ld x5 inAll5) (View.ld x6 inAll6))
      (k0_pay12 (View.ld x1 inAll1) (View.ld x0 inAll0) (View.ld x2 inAll2) (View.ld x3 inAll3) (View.ld x4 inAll4) (View.ld x5 inAll5) (View.ld x6 inAll6)) (k0_pay13 (View.ld x1 inAll1) (View.ld x0 inAll0) (View.ld x2 inAll2) (View.ld x3 inAll3) (View.ld x4 inAll4) (View.ld x5 inAll5) (View.ld x6 inAll6))
      (k0_pay14 (View.ld x1 inAll1) (View.ld x0 inAll0) (View.ld x2 inAll2) (View.ld x3 inAll3) (View.ld x4 inAll4) (View.ld x5 inAll5) (View.ld x6 inAll6)) (k0_pay15 (F := F)) (View.ld x7 inAll7)⟩]

/-- The two stores tile the output block, column half by column half, so they cover it. -/
theorem cover_out (p0 : Vec F S2048x4 .f32) (p1 : Vec F S2048x4 .f32) (y : S2048x8.Idx) :
    ∃ pc ∈ ([⟨rHi, p0⟩, ⟨rLo, p1⟩] : List (View.Piece (Elt F) S2048x8 .f32)), y ∈ pc.1.set :=
  View.cover_of_tiled [⟨rHi, p0⟩, ⟨rLo, p1⟩] S2048x4.size (by rfl) y

/-! ## The body's triple -/

set_option maxHeartbeats 4000000 in
/-- The body on nine whole staging buffers, the eight inputs' holding `x0 … x7` and the output's holding anything,
    runs to the continuation with the inputs' as they were and the output's at `outBuf x0 … x7`. The two loads of
    the output's halves read whatever is there and their values are dropped. -/
theorem sound_kernel (c : Dev nD) (E : Set ℕ) (i : grid0.Coords) (a0 : Memref sig .tc .vmem S2048x1024 .f32) (h0 : a0.IsWhole) (a1 : Memref sig .tc .vmem S2048x8 .f32) (h1 : a1.IsWhole) (a2 : Memref sig .tc .vmem S1024x256 .bf16) (h2 : a2.IsWhole) (a3 : Memref sig .tc .vmem S8x256 .bf16) (h3 : a3.IsWhole) (a4 : Memref sig .tc .vmem S1x256 .f32) (h4 : a4.IsWhole) (a5 : Memref sig .tc .vmem S256x16 .bf16) (h5 : a5.IsWhole) (a6 : Memref sig .tc .vmem S1x16 .f32) (h6 : a6.IsWhole) (a7 : Memref sig .tc .vmem S1x8 .f32) (h7 : a7.IsWhole) (a8 : Memref sig .tc .vmem S2048x8 .f32) (h8 : a8.IsWhole)
    (x0 : Vec F S2048x1024 .f32) (x1 : Vec F S2048x8 .f32) (x2 : Vec F S1024x256 .bf16) (x3 : Vec F S8x256 .bf16) (x4 : Vec F S1x256 .f32) (x5 : Vec F S256x16 .bf16) (x6 : Vec F S1x16 .f32) (x7 : Vec F S1x8 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ (∃ d, owns (c : Thread nD τ) a8 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare (outBuf x0 x1 x2 x3 x4 x5 x6 x7)) -∗ K ⟨⟩))
      ⊢ wp frame (wpE (defs₀ (F := F)) Variants.none c none) E (cc0__integrator_kernel i a0 h0 a1 h1 a2 h2 a3 h3 a4 h4 a5 h5 a6 h6 a7 h7 a8 h8) K := by
  simp only [cc0__integrator_kernel_eq_skeleton]; unfold cc0__integrator_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  try dsimp only
  exact View.read_writes_eq_canon _ _ _ (cover_out _ _)

/-! ## The pipeline's proof data -/

/-- On core `c`: the nine arrays as the region finds them; after the body at point `t` each input's staging
    buffer still at its block and the output's at `outBuf` of the eight input blocks; the region's invariant the
    untouched scoped rest and generator register; full shares; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outBuf (iblk m c 0 t) (iblk m c 1 t) (iblk m c 2 t) (iblk m c 3 t) (iblk m c 4 t) (iblk m c 5 t) (iblk m c 6 t) (iblk m c 7 t)
  Φ _ := Pipeline.ΦA spec0 c
  q _ := fullShare
  owed _ := 0

/-- The data's arrays are the region-entry contents. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t =
    outBuf (iblk m c 0 t) (iblk m c 1 t) (iblk m c 2 t) (iblk m c 3 t) (iblk m c 4 t) (iblk m c 5 t) (iblk m c 6 t) (iblk m c 7 t) := by dsimp only [dats]

/-- Each input's current staging buffer holds its block at every point, whether it was fetched there or is still
    there from an earlier point at the same block index. -/
theorem before0_0 (c : Dev nD) (t : Fin cfg0.N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl)
    (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl)
    (fun t => by rw [after0_3]; unfold Dat.blockOf iblk; rw [A_eq]; try rfl) t d).trans
    (by unfold Dat.fetched Dat.blockOf iblk; rw [A_eq]; try rfl)
theorem before0_4 (c : Dev nD) (t : Fin cfg0.N) (d) : (dats m 0 c).before 4 t d = iblk m c 4 t :=
  ((dats m 0 c).before_in_eq_fetched 4 rfl (fun _ => rfl) (fun _ _ _ => rfl)
    (fun t => by rw [after0_4]; unfold Dat.blockOf iblk; rw [A_eq]; try rfl) t d).trans
    (by unfold Dat.fetched Dat.blockOf iblk; rw [A_eq]; try rfl)
theorem before0_5 (c : Dev nD) (t : Fin cfg0.N) (d) : (dats m 0 c).before 5 t d = iblk m c 5 t :=
  ((dats m 0 c).before_in_eq_fetched 5 rfl (fun _ => rfl) (fun _ _ _ => rfl)
    (fun t => by rw [after0_5]; unfold Dat.blockOf iblk; rw [A_eq]; try rfl) t d).trans
    (by unfold Dat.fetched Dat.blockOf iblk; rw [A_eq]; try rfl)
theorem before0_6 (c : Dev nD) (t : Fin cfg0.N) (d) : (dats m 0 c).before 6 t d = iblk m c 6 t :=
  ((dats m 0 c).before_in_eq_fetched 6 rfl (fun _ => rfl) (fun _ _ _ => rfl)
    (fun t => by rw [after0_6]; unfold Dat.blockOf iblk; rw [A_eq]; try rfl) t d).trans
    (by unfold Dat.fetched Dat.blockOf iblk; rw [A_eq]; try rfl)
theorem before0_7 (c : Dev nD) (t : Fin cfg0.N) (d) : (dats m 0 c).before 7 t d = iblk m c 7 t :=
  ((dats m 0 c).before_in_eq_fetched 7 rfl (fun _ => rfl) (fun _ _ _ => rfl)
    (fun t => by rw [after0_7]; unfold Dat.blockOf iblk; rw [A_eq]; try rfl) t d).trans
    (by unfold Dat.fetched Dat.blockOf iblk; rw [A_eq]; try rfl)

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

/-- The body at any point: the inputs' buffers hold their blocks, so the triple above applies; the invariant and
    what is owed pass through untouched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel c Set.univ (grid0.coords t) _ _ _ _ _ _ _ _ _ _ _ _ _ _ _ _ _ _
    (iblk m c 0 t) (iblk m c 1 t) (iblk m c 2 t) (iblk m c 3 t) (iblk m c 4 t) (iblk m c 5 t) (iblk m c 6 t) (iblk m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters, every weakly fair run of @main on the TensorCores terminates, with every
    array of the pipeline at what the data compute and every other unscoped buffer as the two last lines leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the run terminates and the twenty-two argument arrays end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  frame_of m ρ (dats m) (A_eq m) (run_main m ρ)

end Cert.Kernel.Fr

end
-- ==== Proof.KernelIdealEntry.lean ====
/-
  What the one region of the idealized kernel's @main finds when it is entered.

  Before the region @main runs 54 host operations (slices, concatenations, format changes, four set-scatters, the
  harmonic term); each writes a buffer of its own. `V0 m c` is core c's buffer contents after them, started from
  the memory `m`; `V m c b` reads it at a TensorCore reference. `iblk m c w t` is window w's block at grid point t,
  read off the window's array as the region finds it.
-/
import proofs.«400346_j70085276336407_3_alg».proof.Proof.Gen.KernelIdeal.Launch
import Idealize.ShloMosaic.Lib.Pipeline.FrameBody

noncomputable section

namespace Cert.KernelIdeal.Fr

open Idealize.ShloMosaic Idealize.ShloMosaic.TcCoe
open Idealize.SL Idealize.SL.Sem
open Cert.KernelIdeal Cert.KernelIdeal.Gen

variable {F : FTy → Type} [FloatOps F]
variable (m : (ℓ : Loc nD τ sig) → Buf (Elt F) ℓ)

/-- Core c's TensorCore buffer contents when the region is entered: the host operations before it, run from m. -/
abbrev V0 (c : Dev nD) : Valuation τ sig (Elt F) := StableHlo.after (List.flatten [hostOps0]) (fun b => m (c, b))

/-- The same, read at a TensorCore reference. -/
abbrev V (c : Dev nD) (b : Ref sig .tc) : Buf (Elt F) ((c : Thread nD τ).loc b) := V0 m c (Proc.devRef .tc b)

/-- Window w's block at point t, read off its array as the region finds it. -/
def iblk (c : Dev nD) (w : Fin cfg0.W) (t : Fin cfg0.N) :
    ((cfg0.win w).xblock (cfg0.grid.coords t)).Idx → Elt F (cfg0.win w).elt :=
  ((cfg0.win w).blk t).view.read (Elt F) (V m c (Pipeline.arrRef spec0 w))

end Cert.KernelIdeal.Fr

end
-- ==== Proof.KernelIdealFrame.lean ====
/-
  The frame of the kernel program's @main, at any float instance: every fair run terminates without a fault and
  leaves the twenty-two argument arrays as it found them.

  @main is 54 host lines, one region over a grid of 64 points, and 2 host lines. Every host line writes a result
  buffer of its own and no argument array. At each point the region's body loads its eight input blocks whole
  (2048 rows of h, the same rows of x‖v, the packed first-layer weights for h and for x‖v, the packed first-layer
  biases, the block-diagonal second layer and its biases, and the row mu‖harmonic) and fills its one output block,
  2048 rows by 8 columns, through two stores: columns 0–3 take the next positions, columns 4–7 the next velocities.
  Just before each store it also loads the rectangle it is about to overwrite and drops what it read. The two
  stores tile the block, so what the block holds afterwards is a function of the eight input blocks alone.
-/
import proofs.«400346_j70085276336407_3_alg».proof.Proof.KernelIdealEntry
import proofs.«400346_j70085276336407_3_alg».proof.Proof.Gen.KernelIdeal.Launch
import proofs.«400346_j70085276336407_3_alg».proof.Proof.Gen.KernelIdeal.Skeleton
import proofs.«400346_j70085276336407_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines around the region -/

/-- The buffers the 54 lines before the region write: each line its own result, in the lines' order. -/
def entryWrites : List (Ref sig .tc) :=
  [main_v0, main_v1, main_v2, main_v3, main_v4, main_v5, main_v6, main_v7, main_v8, main_v9, main_v10, main_v11, main_v12, main_v13, main_v14, main_v15, main_v16, main_v17, main_v18, main_v19, main_v20, main_v21, main_v22, main_v23, main_v24, main_v25, main_v26, main_v27, main_v28, main_v29, main_v30, main_v31, main_v32, main_v33, main_v34, main_v35, main_v36, main_v37, main_v38, main_v39, main_v40, main_v41, main_v42, main_cst, main_c, main_c_0, main_c_1, main_c_2, main_c_3, main_c_4, main_c_5, main_c_6, main_cst_7, main_cst_8]

/-- The buffers the 2 lines after the region write: the two column halves sliced off the region's result. -/
def exitWrites : List (Ref sig .tc) := [main_v44, main_v45]

/-- A line before the region writes nothing outside `entryWrites`. -/
theorem hostOps0_writes : (hostOps0 : List (HloOp τ sig (Elt F))).Forall fun op =>
    op.writes ⊆ (entryWrites.map (Proc.devRef (τ := τ) .tc)).toFinset := by
  simp only [hostOps0, List.Forall, StableHlo.nullary_writes, StableHlo.unary_writes, StableHlo.binary_writes,
    StableHlo.ternary_writes, StableHlo.reshape_writes, StableHlo.nary_writes, Finset.singleton_subset_iff, List.mem_toFinset]
  repeat' apply And.intro
  all_goals exact List.mem_map_of_mem (by decide)

/-- A line after the region writes nothing outside `exitWrites`. -/
theorem hostOps1_writes : (hostOps1 : List (HloOp τ sig (Elt F))).Forall fun op =>
    op.writes ⊆ (exitWrites.map (Proc.devRef (τ := τ) .tc)).toFinset := by
  simp only [hostOps1, List.Forall, StableHlo.unary_writes, Finset.singleton_subset_iff, List.mem_toFinset]
  repeat' apply And.intro
  all_goals exact List.mem_map_of_mem (by decide)

/-- No host line allocates a buffer. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main reaches its region with the buffers at `V m` and continues after it with the two slicing lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The two lines after the region touch only the region's arrays and buffers the region passes by: all their
    buffers are unscoped TensorCore references, and nothing is prefetched. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  subst hops
  exact Pipeline.sub_ucRefs op ((List.forall_iff_forall_mem.mp hostOps1_sub) op hop)

/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  subst hops
  exact (List.forall_iff_forall_mem.mp hostOps1_fresh) op hop

/-- They write none of the nine arrays the region's windows read or fill: the two slices are no such array. -/
theorem sfx_keeps : ∀ ops ∈ ([hostOps1] : List (List (HloOp τ sig (Elt F)))), ∀ op ∈ ops,
    ∀ w, Proc.devRef .tc (Pipeline.arrRef spec0 w) ∉ op.writes := by
  intro ops hops op hop w hw
  simp only [List.mem_cons, List.mem_nil_iff, or_false] at hops
  subst hops
  obtain ⟨y, hy, he⟩ := List.mem_map.mp (List.mem_toFinset.mp ((List.forall_iff_forall_mem.mp hostOps1_writes) op hop hw))
  obtain rfl : y = Pipeline.arrRef spec0 w := Proc.devRef_injective _ he
  exact (by decide : ∀ w, Pipeline.arrRef spec0 w ∉ exitWrites) w hy

/-- A buffer no line before the region writes is found by the region as @main was launched with it. -/
theorem entry_keeps (c : Dev nD) (b : Ref sig .tc) (hb : b ∉ entryWrites) : V m c b = m ((c : Thread nD τ).loc b) :=
  StableHlo.after_of_writes_sub _ _
    (by simpa only [List.flatten_cons, List.flatten_nil, List.append_nil] using hostOps0_writes) hb

/-- A buffer that is none of the region's arrays and that no line after the region writes ends as the region found it. -/
theorem tail_keeps (dats : (p : Fin 1) → (c : Dev nD) → Dat τ (Elt F) Unit ℕ (UR sig nD τ) ℕ (cfgs p) c) (c : Dev nD) (b : Ref sig .tc)
    (hb : b ∉ exitWrites) (ha : ∀ w, Pipeline.arrRef spec0 w ≠ b) :
    Pipeline.afterTail₀ cfgs dats 0 (V0 m) [hostOps1] c b = V m c b := by
  unfold Pipeline.afterTail₀
  rw [StableHlo.after_of_writes_sub _ _
      (by simpa only [List.flatten_cons, List.flatten_nil, List.append_nil] using hostOps1_writes) hb,
    Pipeline.withArrays_of_ne _ c (V0 m c) _ b ha]

/-! ## The argument arrays: written by no host line -/

theorem V_main_arg0 (c : Dev nD) : V m c main_arg0 = m ((c : Thread nD τ).loc main_arg0) := entry_keeps m c main_arg0 (by decide)
theorem V_main_arg1 (c : Dev nD) : V m c main_arg1 = m ((c : Thread nD τ).loc main_arg1) := entry_keeps m c main_arg1 (by decide)
theorem V_main_arg2 (c : Dev nD) : V m c main_arg2 = m ((c : Thread nD τ).loc main_arg2) := entry_keeps m c main_arg2 (by decide)
theorem V_main_arg3 (c : Dev nD) : V m c main_arg3 = m ((c : Thread nD τ).loc main_arg3) := entry_keeps m c main_arg3 (by decide)
theorem V_main_arg4 (c : Dev nD) : V m c main_arg4 = m ((c : Thread nD τ).loc main_arg4) := entry_keeps m c main_arg4 (by decide)
theorem V_main_arg5 (c : Dev nD) : V m c main_arg5 = m ((c : Thread nD τ).loc main_arg5) := entry_keeps m c main_arg5 (by decide)
theorem V_main_arg6 (c : Dev nD) : V m c main_arg6 = m ((c : Thread nD τ).loc main_arg6) := entry_keeps m c main_arg6 (by decide)
theorem V_main_arg7 (c : Dev nD) : V m c main_arg7 = m ((c : Thread nD τ).loc main_arg7) := entry_keeps m c main_arg7 (by decide)
theorem V_main_arg8 (c : Dev nD) : V m c main_arg8 = m ((c : Thread nD τ).loc main_arg8) := entry_keeps m c main_arg8 (by decide)
theorem V_main_arg9 (c : Dev nD) : V m c main_arg9 = m ((c : Thread nD τ).loc main_arg9) := entry_keeps m c main_arg9 (by decide)
theorem V_main_arg10 (c : Dev nD) : V m c main_arg10 = m ((c : Thread nD τ).loc main_arg10) := entry_keeps m c main_arg10 (by decide)
theorem V_main_arg11 (c : Dev nD) : V m c main_arg11 = m ((c : Thread nD τ).loc main_arg11) := entry_keeps m c main_arg11 (by decide)
theorem V_main_arg12 (c : Dev nD) : V m c main_arg12 = m ((c : Thread nD τ).loc main_arg12) := entry_keeps m c main_arg12 (by decide)
theorem V_main_arg13 (c : Dev nD) : V m c main_arg13 = m ((c : Thread nD τ).loc main_arg13) := entry_keeps m c main_arg13 (by decide)
theorem V_main_arg14 (c : Dev nD) : V m c main_arg14 = m ((c : Thread nD τ).loc main_arg14) := entry_keeps m c main_arg14 (by decide)
theorem V_main_arg15 (c : Dev nD) : V m c main_arg15 = m ((c : Thread nD τ).loc main_arg15) := entry_keeps m c main_arg15 (by decide)
theorem V_main_arg16 (c : Dev nD) : V m c main_arg16 = m ((c : Thread nD τ).loc main_arg16) := entry_keeps m c main_arg16 (by decide)
theorem V_main_arg17 (c : Dev nD) : V m c main_arg17 = m ((c : Thread nD τ).loc main_arg17) := entry_keeps m c main_arg17 (by decide)
theorem V_main_arg18 (c : Dev nD) : V m c main_arg18 = m ((c : Thread nD τ).loc main_arg18) := entry_keeps m c main_arg18 (by decide)
theorem V_main_arg19 (c : Dev nD) : V m c main_arg19 = m ((c : Thread nD τ).loc main_arg19) := entry_keeps m c main_arg19 (by decide)
theorem V_main_arg20 (c : Dev nD) : V m c main_arg20 = m ((c : Thread nD τ).loc main_arg20) := entry_keeps m c main_arg20 (by decide)
theorem V_main_arg21 (c : Dev nD) : V m c main_arg21 = m ((c : Thread nD τ).loc main_arg21) := entry_keeps m c main_arg21 (by decide)

theorem W_main_arg1 (dats : (p : Fin 1) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) :=
  (tail_keeps m dats c main_arg1 (by decide) (by decide)).trans (V_main_arg1 m c)
theorem W_main_arg2 (dats : (p : Fin 1) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) :=
  (tail_keeps m dats c main_arg2 (by decide) (by decide)).trans (V_main_arg2 m c)
theorem W_main_arg3 (dats : (p : Fin 1) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) :=
  (tail_keeps m dats c main_arg3 (by decide) (by decide)).trans (V_main_arg3 m c)
theorem W_main_arg4 (dats : (p : Fin 1) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) :=
  (tail_keeps m dats c main_arg4 (by decide) (by decide)).trans (V_main_arg4 m c)
theorem W_main_arg5 (dats : (p : Fin 1) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) :=
  (tail_keeps m dats c main_arg5 (by decide) (by decide)).trans (V_main_arg5 m c)
theorem W_main_arg6 (dats : (p : Fin 1) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) :=
  (tail_keeps m dats c main_arg6 (by decide) (by decide)).trans (V_main_arg6 m c)
theorem W_main_arg7 (dats : (p : Fin 1) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) :=
  (tail_keeps m dats c main_arg7 (by decide) (by decide)).trans (V_main_arg7 m c)
theorem W_main_arg8 (dats : (p : Fin 1) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) :=
  (tail_keeps m dats c main_arg8 (by decide) (by decide)).trans (V_main_arg8 m c)
theorem W_main_arg9 (dats : (p : Fin 1) → (c : Dev nD) → Dat τ (Elt F) Unit ℕ (UR sig nD τ) ℕ (cfgs p) c) (c : Dev nD) :
    Pipeline.afterTail₀ cfgs dats 0 (V0 m) [hostOps1] c main_arg9 = m ((c : Thread nD τ).loc main_arg9) :=
  (tail_keeps m dats c main_arg9 (by decide) (by decide)).trans (V_main_arg9 m c)
theorem W_main_arg10 (dats : (p : Fin 1) → (c : Dev nD) → Dat τ (Elt F) Unit ℕ (UR sig nD τ) ℕ (cfgs p) c) (c : Dev nD) :
    Pipeline.afterTail₀ cfgs dats 0 (V0 m) [hostOps1] c main_arg10 = m ((c : Thread nD τ).loc main_arg10) :=
  (tail_keeps m dats c main_arg10 (by decide) (by decide)).trans (V_main_arg10 m c)
theorem W_main_arg11 (dats : (p : Fin 1) → (c : Dev nD) → Dat τ (Elt F) Unit ℕ (UR sig nD τ) ℕ (cfgs p) c) (c : Dev nD) :
    Pipeline.afterTail₀ cfgs dats 0 (V0 m) [hostOps1] c main_arg11 = m ((c : Thread nD τ).loc main_arg11) :=
  (tail_keeps m dats c main_arg11 (by decide) (by decide)).trans (V_main_arg11 m c)
theorem W_main_arg12 (dats : (p : Fin 1) → (c : Dev nD) → Dat τ (Elt F) Unit ℕ (UR sig nD τ) ℕ (cfgs p) c) (c : Dev nD) :
    Pipeline.afterTail₀ cfgs dats 0 (V0 m) [hostOps1] c main_arg12 = m ((c : Thread nD τ).loc main_arg12) :=
  (tail_keeps m dats c main_arg12 (by decide) (by decide)).trans (V_main_arg12 m c)
theorem W_main_arg13 (dats : (p : Fin 1) → (c : Dev nD) → Dat τ (Elt F) Unit ℕ (UR sig nD τ) ℕ (cfgs p) c) (c : Dev nD) :
    Pipeline.afterTail₀ cfgs dats 0 (V0 m) [hostOps1] c main_arg13 = m ((c : Thread nD τ).loc main_arg13) :=
  (tail_keeps m dats c main_arg13 (by decide) (by decide)).trans (V_main_arg13 m c)
theorem W_main_arg14 (dats : (p : Fin 1) → (c : Dev nD) → Dat τ (Elt F) Unit ℕ (UR sig nD τ) ℕ (cfgs p) c) (c : Dev nD) :
    Pipeline.afterTail₀ cfgs dats 0 (V0 m) [hostOps1] c main_arg14 = m ((c : Thread nD τ).loc main_arg14) :=
  (tail_keeps m dats c main_arg14 (by decide) (by decide)).trans (V_main_arg14 m c)
theorem W_main_arg15 (dats : (p : Fin 1) → (c : Dev nD) → Dat τ (Elt F) Unit ℕ (UR sig nD τ) ℕ (cfgs p) c) (c : Dev nD) :
    Pipeline.afterTail₀ cfgs dats 0 (V0 m) [hostOps1] c main_arg15 = m ((c : Thread nD τ).loc main_arg15) :=
  (tail_keeps m dats c main_arg15 (by decide) (by decide)).trans (V_main_arg15 m c)
theorem W_main_arg16 (dats : (p : Fin 1) → (c : Dev nD) → Dat τ (Elt F) Unit ℕ (UR sig nD τ) ℕ (cfgs p) c) (c : Dev nD) :
    Pipeline.afterTail₀ cfgs dats 0 (V0 m) [hostOps1] c main_arg16 = m ((c : Thread nD τ).loc main_arg16) :=
  (tail_keeps m dats c main_arg16 (by decide) (by decide)).trans (V_main_arg16 m c)
theorem W_main_arg17 (dats : (p : Fin 1) → (c : Dev nD) → Dat τ (Elt F) Unit ℕ (UR sig nD τ) ℕ (cfgs p) c) (c : Dev nD) :
    Pipeline.afterTail₀ cfgs dats 0 (V0 m) [hostOps1] c main_arg17 = m ((c : Thread nD τ).loc main_arg17) :=
  (tail_keeps m dats c main_arg17 (by decide) (by decide)).trans (V_main_arg17 m c)
theorem W_main_arg18 (dats : (p : Fin 1) → (c : Dev nD) → Dat τ (Elt F) Unit ℕ (UR sig nD τ) ℕ (cfgs p) c) (c : Dev nD) :
    Pipeline.afterTail₀ cfgs dats 0 (V0 m) [hostOps1] c main_arg18 = m ((c : Thread nD τ).loc main_arg18) :=
  (tail_keeps m dats c main_arg18 (by decide) (by decide)).trans (V_main_arg18 m c)
theorem W_main_arg19 (dats : (p : Fin 1) → (c : Dev nD) → Dat τ (Elt F) Unit ℕ (UR sig nD τ) ℕ (cfgs p) c) (c : Dev nD) :
    Pipeline.afterTail₀ cfgs dats 0 (V0 m) [hostOps1] c main_arg19 = m ((c : Thread nD τ).loc main_arg19) :=
  (tail_keeps m dats c main_arg19 (by decide) (by decide)).trans (V_main_arg19 m c)
theorem W_main_arg20 (dats : (p : Fin 1) → (c : Dev nD) → Dat τ (Elt F) Unit ℕ (UR sig nD τ) ℕ (cfgs p) c) (c : Dev nD) :
    Pipeline.afterTail₀ cfgs dats 0 (V0 m) [hostOps1] c main_arg20 = m ((c : Thread nD τ).loc main_arg20) :=
  (tail_keeps m dats c main_arg20 (by decide) (by decide)).trans (V_main_arg20 m c)
theorem W_main_arg21 (dats : (p : Fin 1) → (c : Dev nD) → Dat τ (Elt F) Unit ℕ (UR sig nD τ) ℕ (cfgs p) c) (c : Dev nD) :
    Pipeline.afterTail₀ cfgs dats 0 (V0 m) [hostOps1] c main_arg21 = m ((c : Thread nD τ).loc main_arg21) :=
  (tail_keeps m dats c main_arg21 (by decide) (by decide)).trans (V_main_arg21 m c)

/-! ## From the pipeline's final state to the argument arrays -/

/-- The twenty-two argument arrays read off a final state in which every array of the pipeline is at what the proof
    data compute and every other unscoped buffer is as the two last lines leave it: the h array is window 0's own
    array, an input, so it ends at its entry contents; each of the other twenty-one is no window's array and is
    written by no host line. -/
theorem args_kept (dats : (p : Fin 1) → (c : Dev nD) → Dat τ (Elt F) Unit ℕ (UR sig nD τ) ℕ (cfgs p) c)
    (hA : ∀ c w, (dats 0 c).A w = V m c (Pipeline.arrRef spec0 w)) (r : PUnit × MemSt nD τ sig (Elt F))
    (h : Pipeline.FramePost cfgs dats 0 (Pipeline.afterTail₀ cfgs dats 0 (V0 m) [hostOps1]) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10)
    ∧ r.2.mem ((c.tc : Thread nD τ).loc main_arg11) = m ((c.tc : Thread nD τ).loc main_arg11)
    ∧ r.2.mem ((c.tc : Thread nD τ).loc main_arg12) = m ((c.tc : Thread nD τ).loc main_arg12)
    ∧ r.2.mem ((c.tc : Thread nD τ).loc main_arg13) = m ((c.tc : Thread nD τ).loc main_arg13)
    ∧ r.2.mem ((c.tc : Thread nD τ).loc main_arg14) = m ((c.tc : Thread nD τ).loc main_arg14)
    ∧ r.2.mem ((c.tc : Thread nD τ).loc main_arg15) = m ((c.tc : Thread nD τ).loc main_arg15)
    ∧ r.2.mem ((c.tc : Thread nD τ).loc main_arg16) = m ((c.tc : Thread nD τ).loc main_arg16)
    ∧ r.2.mem ((c.tc : Thread nD τ).loc main_arg17) = m ((c.tc : Thread nD τ).loc main_arg17)
    ∧ r.2.mem ((c.tc : Thread nD τ).loc main_arg18) = m ((c.tc : Thread nD τ).loc main_arg18)
    ∧ r.2.mem ((c.tc : Thread nD τ).loc main_arg19) = m ((c.tc : Thread nD τ).loc main_arg19)
    ∧ r.2.mem ((c.tc : Thread nD τ).loc main_arg20) = m ((c.tc : Thread nD τ).loc main_arg20)
    ∧ r.2.mem ((c.tc : Thread nD τ).loc main_arg21) = m ((c.tc : Thread nD τ).loc main_arg21) :=
  ⟨
    ((h c).1 0).trans (((dats 0 c).arrAt_in 0 rfl _).trans ((hA c 0).trans (V_main_arg0 m c))),
    ((h c).2 main_arg1 (Pipeline.mem_restRefs_of main_arg1 (by decide) (by decide))).trans (W_main_arg1 m dats c),
    ((h c).2 main_arg2 (Pipeline.mem_restRefs_of main_arg2 (by decide) (by decide))).trans (W_main_arg2 m dats c),
    ((h c).2 main_arg3 (Pipeline.mem_restRefs_of main_arg3 (by decide) (by decide))).trans (W_main_arg3 m dats c),
    ((h c).2 main_arg4 (Pipeline.mem_restRefs_of main_arg4 (by decide) (by decide))).trans (W_main_arg4 m dats c),
    ((h c).2 main_arg5 (Pipeline.mem_restRefs_of main_arg5 (by decide) (by decide))).trans (W_main_arg5 m dats c),
    ((h c).2 main_arg6 (Pipeline.mem_restRefs_of main_arg6 (by decide) (by decide))).trans (W_main_arg6 m dats c),
    ((h c).2 main_arg7 (Pipeline.mem_restRefs_of main_arg7 (by decide) (by decide))).trans (W_main_arg7 m dats c),
    ((h c).2 main_arg8 (Pipeline.mem_restRefs_of main_arg8 (by decide) (by decide))).trans (W_main_arg8 m dats c),
    ((h c).2 main_arg9 (Pipeline.mem_restRefs_of main_arg9 (by decide) (by decide))).trans (W_main_arg9 m dats c),
    ((h c).2 main_arg10 (Pipeline.mem_restRefs_of main_arg10 (by decide) (by decide))).trans (W_main_arg10 m dats c),
    ((h c).2 main_arg11 (Pipeline.mem_restRefs_of main_arg11 (by decide) (by decide))).trans (W_main_arg11 m dats c),
    ((h c).2 main_arg12 (Pipeline.mem_restRefs_of main_arg12 (by decide) (by decide))).trans (W_main_arg12 m dats c),
    ((h c).2 main_arg13 (Pipeline.mem_restRefs_of main_arg13 (by decide) (by decide))).trans (W_main_arg13 m dats c),
    ((h c).2 main_arg14 (Pipeline.mem_restRefs_of main_arg14 (by decide) (by decide))).trans (W_main_arg14 m dats c),
    ((h c).2 main_arg15 (Pipeline.mem_restRefs_of main_arg15 (by decide) (by decide))).trans (W_main_arg15 m dats c),
    ((h c).2 main_arg16 (Pipeline.mem_restRefs_of main_arg16 (by decide) (by decide))).trans (W_main_arg16 m dats c),
    ((h c).2 main_arg17 (Pipeline.mem_restRefs_of main_arg17 (by decide) (by decide))).trans (W_main_arg17 m dats c),
    ((h c).2 main_arg18 (Pipeline.mem_restRefs_of main_arg18 (by decide) (by decide))).trans (W_main_arg18 m dats c),
    ((h c).2 main_arg19 (Pipeline.mem_restRefs_of main_arg19 (by decide) (by decide))).trans (W_main_arg19 m dats c),
    ((h c).2 main_arg20 (Pipeline.mem_restRefs_of main_arg20 (by decide) (by decide))).trans (W_main_arg20 m dats c),
    ((h c).2 main_arg21 (Pipeline.mem_restRefs_of main_arg21 (by decide) (by decide))).trans (W_main_arg21 m dats c)⟩

/-- For any proof data whose arrays are the region-entry contents: a run ending in such a state ends with the
    twenty-two argument arrays unchanged. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  (θ_run defs _ _).mono (fun r h c => args_kept m dats hA r h c) h

/-! ## The body's rectangles -/

/-- Each input block whole: the rectangle through which the body's one load of it reads. -/
abbrev inAll0 : Rect S2048x1024 := Rect.unit (s := S2048x1024) ![0, 0] S2048x1024.size inb_S2048x1024_S2048x1024_0_0
abbrev inAll1 : Rect S2048x8 := Rect.unit (s := S2048x8) ![0, 0] S2048x8.size inb_S2048x8_S2048x8_0_0
abbrev inAll2 : Rect S1024x256 := Rect.unit (s := S1024x256) ![0, 0] S1024x256.size inb_S1024x256_S1024x256_0_0
abbrev inAll3 : Rect S8x256 := Rect.unit (s := S8x256) ![0, 0] S8x256.size inb_S8x256_S8x256_0_0
abbrev inAll4 : Rect S1x256 := Rect.unit (s := S1x256) ![0, 0] S1x256.size inb_S1x256_S1x256_0_0
abbrev inAll5 : Rect S256x16 := Rect.unit (s := S256x16) ![0, 0] S256x16.size inb_S256x16_S256x16_0_0
abbrev inAll6 : Rect S1x16 := Rect.unit (s := S1x16) ![0, 0] S1x16.size inb_S1x16_S1x16_0_0
abbrev inAll7 : Rect S1x8 := Rect.unit (s := S1x8) ![0, 0] S1x8.size inb_S1x8_S1x8_0_0

/-- Columns 0–3 of the output block: where the next positions are stored. -/
abbrev rLo : Rect S2048x8 := Rect.unit (s := S2048x8) ![0, 0] S2048x4.size inb_S2048x8_S2048x4_0_0
/-- Columns 4–7 of the output block: where the next velocities are stored. -/
abbrev rHi : Rect S2048x8 := Rect.unit (s := S2048x8) ![0, 4] S2048x4.size inb_S2048x8_S2048x4_0_4

/-! ## What the body leaves in the output block -/

/-- The output block after the body, from the eight input blocks: the velocity store (the later one) over the
    position store. `x0` is the block of h rows, `x1` the same rows of x‖v, `x2` and `x3` the packed first-layer
    weights for h and for x‖v, `x4` the packed first-layer biases, `x5` the block-diagonal second layer, `x6` its
    biases, `x7` the row mu‖harmonic. -/
def outBuf (x0 : Vec F S2048x1024 .f32) (x1 : Vec F S2048x8 .f32) (x2 : Vec F S1024x256 .bf16) (x3 : Vec F S8x256 .bf16) (x4 : Vec F S1x256 .f32) (x5 : Vec F S256x16 .bf16) (x6 : Vec F S1x16 .f32) (x7 : Vec F S1x8 .f32) : Vec F S2048x8 .f32 :=
  View.canon [⟨rHi, k0_pay1 (k0_pay4 (View.ld x1 inAll1)) (k0_pay5 (View.ld x1 inAll1)) (k0_pay7 (View.ld x1 inAll1) (View.ld x0 inAll0) (View.ld x2 inAll2) (View.ld x3 inAll3) (View.ld x4 inAll4) (View.ld x5 inAll5) (View.ld x6 inAll6)) (k0_pay8 (View.ld x1 inAll1) (View.ld x0 inAll0) (View.ld x2 inAll2) (View.ld x3 inAll3) (View.ld x4 inAll4) (View.ld x5 inAll5) (View.ld x6 inAll6))
      (k0_pay10 (View.ld x1 inAll1) (View.ld x0 inAll0) (View.ld x2 inAll2) (View.ld x3 inAll3) (View.ld x4 inAll4) (View.ld x5 inAll5) (View.ld x6 inAll6))
      (k0_pay12 (View.ld x1 inAll1) (View.ld x0 inAll0) (View.ld x2 inAll2) (View.ld x3 inAll3) (View.ld x4 inAll4) (View.ld x5 inAll5) (View.ld x6 inAll6)) (k0_pay13 (View.ld x1 inAll1) (View.ld x0 inAll0) (View.ld x2 inAll2) (View.ld x3 inAll3) (View.ld x4 inAll4) (View.ld x5 inAll5) (View.ld x6 inAll6))
      (k0_pay14 (View.ld x1 inAll1) (View.ld x0 inAll0) (View.ld x2 inAll2) (View.ld x3 inAll3) (View.ld x4 inAll4) (View.ld x5 inAll5) (View.ld x6 inAll6)) (k0_pay15 (F := F)) (View.ld x7 inAll7)⟩,
    ⟨rLo, k0_pay2 (k0_pay4 (View.ld x1 inAll1)) (k0_pay5 (View.ld x1 inAll1)) (k0_pay7 (View.ld x1 inAll1) (View.ld x0 inAll0) (View.ld x2 inAll2) (View.ld x3 inAll3) (View.ld x4 inAll4) (View.ld x5 inAll5) (View.ld x6 inAll6)) (k0_pay8 (View.ld x1 inAll1) (View.ld x0 inAll0) (View.ld x2 inAll2) (View.ld x3 inAll3) (View.ld x4 inAll4) (View.ld x5 inAll5) (View.ld x6 inAll6))
      (k0_pay10 (View.ld x1 inAll1) (View.ld x0 inAll0) (View.ld x2 inAll2) (View.ld x3 inAll3) (View.ld x4 inAll4) (View.ld x5 inAll5) (View.ld x6 inAll6)) (k0_pay11 (View.ld x1 inAll1) (View.ld x0 inAll0) (View.ld x2 inAll2) (View.ld x3 inAll3) (View.ld x4 inAll4) (View.ld x5 inAll5) (View.ld x6 inAll6))
      (k0_pay12 (View.ld x1 inAll1) (View.ld x0 inAll0) (View.ld x2 inAll2) (View.ld x3 inAll3) (View.ld x4 inAll4) (View.ld x5 inAll5) (View.ld x6 inAll6)) (k0_pay13 (View.ld x1 inAll1) (View.ld x0 inAll0) (View.ld x2 inAll2) (View.ld x3 inAll3) (View.ld x4 inAll4) (View.ld x5 inAll5) (View.ld x6 inAll6))
      (k0_pay14 (View.ld x1 inAll1) (View.ld x0 inAll0) (View.ld x2 inAll2) (View.ld x3 inAll3) (View.ld x4 inAll4) (View.ld x5 inAll5) (View.ld x6 inAll6)) (k0_pay15 (F := F)) (View.ld x7 inAll7)⟩]

/-- The two stores tile the output block, column half by column half, so they cover it. -/
theorem cover_out (p0 : Vec F S2048x4 .f32) (p1 : Vec F S2048x4 .f32) (y : S2048x8.Idx) :
    ∃ pc ∈ ([⟨rHi, p0⟩, ⟨rLo, p1⟩] : List (View.Piece (Elt F) S2048x8 .f32)), y ∈ pc.1.set :=
  View.cover_of_tiled [⟨rHi, p0⟩, ⟨rLo, p1⟩] S2048x4.size (by rfl) y

/-! ## The body's triple -/

set_option maxHeartbeats 4000000 in
/-- The body on nine whole staging buffers, the eight inputs' holding `x0 … x7` and the output's holding anything,
    runs to the continuation with the inputs' as they were and the output's at `outBuf x0 … x7`. The two loads of
    the output's halves read whatever is there and their values are dropped. -/
theorem sound_kernel (c : Dev nD) (E : Set ℕ) (i : grid0.Coords) (a0 : Memref sig .tc .vmem S2048x1024 .f32) (h0 : a0.IsWhole) (a1 : Memref sig .tc .vmem S2048x8 .f32) (h1 : a1.IsWhole) (a2 : Memref sig .tc .vmem S1024x256 .bf16) (h2 : a2.IsWhole) (a3 : Memref sig .tc .vmem S8x256 .bf16) (h3 : a3.IsWhole) (a4 : Memref sig .tc .vmem S1x256 .f32) (h4 : a4.IsWhole) (a5 : Memref sig .tc .vmem S256x16 .bf16) (h5 : a5.IsWhole) (a6 : Memref sig .tc .vmem S1x16 .f32) (h6 : a6.IsWhole) (a7 : Memref sig .tc .vmem S1x8 .f32) (h7 : a7.IsWhole) (a8 : Memref sig .tc .vmem S2048x8 .f32) (h8 : a8.IsWhole)
    (x0 : Vec F S2048x1024 .f32) (x1 : Vec F S2048x8 .f32) (x2 : Vec F S1024x256 .bf16) (x3 : Vec F S8x256 .bf16) (x4 : Vec F S1x256 .f32) (x5 : Vec F S256x16 .bf16) (x6 : Vec F S1x16 .f32) (x7 : Vec F S1x8 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ (∃ d, owns (c : Thread nD τ) a8 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare (outBuf x0 x1 x2 x3 x4 x5 x6 x7)) -∗ K ⟨⟩))
      ⊢ wp frame (wpE (defs₀ (F := F)) Variants.none c none) E (cc0__integrator_kernel i a0 h0 a1 h1 a2 h2 a3 h3 a4 h4 a5 h5 a6 h6 a7 h7 a8 h8) K := by
  simp only [cc0__integrator_kernel_eq_skeleton]; unfold cc0__integrator_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  try dsimp only
  exact View.read_writes_eq_canon _ _ _ (cover_out _ _)

/-! ## The pipeline's proof data -/

/-- On core `c`: the nine arrays as the region finds them; after the body at point `t` each input's staging
    buffer still at its block and the output's at `outBuf` of the eight input blocks; the region's invariant the
    untouched scoped rest and generator register; full shares; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outBuf (iblk m c 0 t) (iblk m c 1 t) (iblk m c 2 t) (iblk m c 3 t) (iblk m c 4 t) (iblk m c 5 t) (iblk m c 6 t) (iblk m c 7 t)
  Φ _ := Pipeline.ΦA spec0 c
  q _ := fullShare
  owed _ := 0

/-- The data's arrays are the region-entry contents. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t =
    outBuf (iblk m c 0 t) (iblk m c 1 t) (iblk m c 2 t) (iblk m c 3 t) (iblk m c 4 t) (iblk m c 5 t) (iblk m c 6 t) (iblk m c 7 t) := by dsimp only [dats]

/-- Each input's current staging buffer holds its block at every point, whether it was fetched there or is still
    there from an earlier point at the same block index. -/
theorem before0_0 (c : Dev nD) (t : Fin cfg0.N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl)
    (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl)
    (fun t => by rw [after0_3]; unfold Dat.blockOf iblk; rw [A_eq]; try rfl) t d).trans
    (by unfold Dat.fetched Dat.blockOf iblk; rw [A_eq]; try rfl)
theorem before0_4 (c : Dev nD) (t : Fin cfg0.N) (d) : (dats m 0 c).before 4 t d = iblk m c 4 t :=
  ((dats m 0 c).before_in_eq_fetched 4 rfl (fun _ => rfl) (fun _ _ _ => rfl)
    (fun t => by rw [after0_4]; unfold Dat.blockOf iblk; rw [A_eq]; try rfl) t d).trans
    (by unfold Dat.fetched Dat.blockOf iblk; rw [A_eq]; try rfl)
theorem before0_5 (c : Dev nD) (t : Fin cfg0.N) (d) : (dats m 0 c).before 5 t d = iblk m c 5 t :=
  ((dats m 0 c).before_in_eq_fetched 5 rfl (fun _ => rfl) (fun _ _ _ => rfl)
    (fun t => by rw [after0_5]; unfold Dat.blockOf iblk; rw [A_eq]; try rfl) t d).trans
    (by unfold Dat.fetched Dat.blockOf iblk; rw [A_eq]; try rfl)
theorem before0_6 (c : Dev nD) (t : Fin cfg0.N) (d) : (dats m 0 c).before 6 t d = iblk m c 6 t :=
  ((dats m 0 c).before_in_eq_fetched 6 rfl (fun _ => rfl) (fun _ _ _ => rfl)
    (fun t => by rw [after0_6]; unfold Dat.blockOf iblk; rw [A_eq]; try rfl) t d).trans
    (by unfold Dat.fetched Dat.blockOf iblk; rw [A_eq]; try rfl)
theorem before0_7 (c : Dev nD) (t : Fin cfg0.N) (d) : (dats m 0 c).before 7 t d = iblk m c 7 t :=
  ((dats m 0 c).before_in_eq_fetched 7 rfl (fun _ => rfl) (fun _ _ _ => rfl)
    (fun t => by rw [after0_7]; unfold Dat.blockOf iblk; rw [A_eq]; try rfl) t d).trans
    (by unfold Dat.fetched Dat.blockOf iblk; rw [A_eq]; try rfl)

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

/-- The body at any point: the inputs' buffers hold their blocks, so the triple above applies; the invariant and
    what is owed pass through untouched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel c Set.univ (grid0.coords t) _ _ _ _ _ _ _ _ _ _ _ _ _ _ _ _ _ _
    (iblk m c 0 t) (iblk m c 1 t) (iblk m c 2 t) (iblk m c 3 t) (iblk m c 4 t) (iblk m c 5 t) (iblk m c 6 t) (iblk m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters, every weakly fair run of @main on the TensorCores terminates, with every
    array of the pipeline at what the data compute and every other unscoped buffer as the two last lines leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the run terminates and the twenty-two argument arrays end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  frame_of m ρ (dats m) (A_eq m) (run_main m ρ)

end Cert.KernelIdeal.Fr

end
-- ==== Proof.Spec.lean ====
/-
  The function both programs compute, entry by entry, on the extended reals.

  Each of the four small networks ("heads") maps a row of the concatenated input [h | x | v] (1032 entries) through
  a 64-unit hidden layer with a rectifier and a 4-entry output layer. The heads feed one integrator step:
    alpha  = sigmoid(head_a) · exp(−‖x − mu‖),   beta = softplus(head_b),   gate = sigmoid(head_g),
    v_next = alpha · v + (1 − alpha) · head_v − beta · (x − mu) + harmonic,
    x_next = x + 0.1 · gate · 1 · v_next,
  with harmonic = 0.03 · sin(gamma · 0 + phi). Float literals stay as their 32-bit words: both programs spell the
  same words, so none of them is ever evaluated here.
-/
import Idealize.ShloMosaic.PureOps.Ideal.Laws
import Idealize.ShloMosaic.Lib.ValueIdx

noncomputable section

namespace Cert.Spec

open Idealize.ShloMosaic Idealize.ShloMosaic.ValueIdx
open scoped BigOperators

/-- An a × b matrix of extended reals, indexed as the programs index a rank-2 array. -/
abbrev Mat (a b : ℕ) : Type := (⟨2, ![a, b]⟩ : Shape).Idx → EReal
/-- A length-a vector of extended reals, indexed as the programs index a rank-1 array. -/
abbrev Vc (a : ℕ) : Type := (⟨1, ![a]⟩ : Shape).Idx → EReal

/-- The extended real a 32-bit float word denotes. -/
abbrev lit (w : BitVec 32) : EReal := Ideal.ofBits .f32 w

/-- The twenty-two argument arrays, in the order both entry points take them. -/
structure Args where
  h : Mat 131072 1024
  x : Mat 131072 4
  v : Mat 131072 4
  w1a : Mat 1032 64
  b1a : Vc 64
  w2a : Mat 64 4
  b2a : Vc 4
  w1b : Mat 1032 64
  b1b : Vc 64
  w2b : Mat 64 4
  b2b : Vc 4
  w1g : Mat 1032 64
  b1g : Vc 64
  w2g : Mat 64 4
  b2g : Vc 4
  w1v : Mat 1032 64
  b1v : Vc 64
  w2v : Mat 64 4
  b2v : Vc 4
  mu : Vc 4
  gam : Vc 4
  phi : Vc 4

/-- Entry k of row r of the concatenation [h | x | v]: columns 0–1023 are h's, 1024–1027 x's, 1028–1031 v's. -/
def cat (h : Mat 131072 1024) (x v : Mat 131072 4) (r : Fin 131072) (k : Fin 1032) : EReal :=
  if h1 : k.val < 1024 then h (ix2 r ⟨k.val, h1⟩)
  else if h2 : k.val < 1028 then x (ix2 r ⟨k.val - 1024, by omega⟩)
  else v (ix2 r ⟨k.val - 1028, by omega⟩)

/-- Hidden unit q of a head on row r: the rectified affine form of the concatenated row. -/
def hidden (A : Args) (w1 : Mat 1032 64) (b1 : Vc 64) (r : Fin 131072) (q : Fin 64) : EReal :=
  max ((∑ k : Fin 1032, cat A.h A.x A.v r k * w1 (ix2 k q)) + b1 (ix1 q)) (lit 0x00000000#32)

/-- Output j of a head on row r. -/
def head (A : Args) (w1 : Mat 1032 64) (b1 : Vc 64) (w2 : Mat 64 4) (b2 : Vc 4) (r : Fin 131072) (j : Fin 4) : EReal :=
  (∑ q : Fin 64, hidden A w1 b1 r q * w2 (ix2 q j)) + b2 (ix1 j)

/-- 1 / (1 + e^(−y)). -/
def sigmoid (y : EReal) : EReal :=
  Ideal.div (lit 0x3F800000#32) (lit 0x3F800000#32 + Ideal.exp (-y))

/-- max(y, 0) + log(1 + e^(−|y − 0|)). -/
def softplus (y : EReal) : EReal :=
  max y (lit 0x00000000#32)
    + Ideal.log1p (Ideal.exp (-(max (y - lit 0x00000000#32) (-(y - lit 0x00000000#32)))))

/-- x − mu at (r, j). -/
def err (A : Args) (r : Fin 131072) (j : Fin 4) : EReal := A.x (ix2 r j) - A.mu (ix1 j)

/-- ‖x − mu‖ on row r: the square root of the sum of squares, the sum started from the zero word. -/
def imbalance (A : Args) (r : Fin 131072) : EReal :=
  Ideal.sqrt (lit 0x00000000#32 + ∑ j : Fin 4, err A r j * err A r j)

/-- 0.03 · sin(gamma · 0 + phi) at j. -/
def harmonic (gam phi : Vc 4) (j : Fin 4) : EReal :=
  lit 0x3CF5C28F#32 * Ideal.sin (gam (ix1 j) * lit 0x00000000#32 + phi (ix1 j))

/-- alpha at (r, j). -/
def alpha (A : Args) (r : Fin 131072) (j : Fin 4) : EReal :=
  sigmoid (head A A.w1a A.b1a A.w2a A.b2a r j) * Ideal.exp (lit 0xBF800000#32 * imbalance A r)

/-- The next velocity at (r, j). -/
def vNext (A : Args) (r : Fin 131072) (j : Fin 4) : EReal :=
  ((alpha A r j * A.v (ix2 r j) + (lit 0x3F800000#32 - alpha A r j) * head A A.w1v A.b1v A.w2v A.b2v r j)
      - softplus (head A A.w1b A.b1b A.w2b A.b2b r j) * err A r j)
    + harmonic A.gam A.phi j

/-- The next position at (r, j). -/
def xNext (A : Args) (r : Fin 131072) (j : Fin 4) : EReal :=
  A.x (ix2 r j)
    + ((lit 0x3DCCCCCD#32 * sigmoid (head A A.w1g A.b1g A.w2g A.b2g r j)) * lit 0x3F800000#32) * vNext A r j

/-- The four heads' first-layer weights in the kernel's column order: alpha, gate, beta, candidate. -/
def headW1 (A : Args) : Fin 4 → Mat 1032 64 := ![A.w1a, A.w1g, A.w1b, A.w1v]
/-- The four heads' first-layer biases, same order. -/
def headB1 (A : Args) : Fin 4 → Vc 64 := ![A.b1a, A.b1g, A.b1b, A.b1v]
/-- The four heads' second-layer weights, same order. -/
def headW2 (A : Args) : Fin 4 → Mat 64 4 := ![A.w2a, A.w2g, A.w2b, A.w2v]
/-- The four heads' second-layer biases, same order. -/
def headB2 (A : Args) : Fin 4 → Vc 4 := ![A.b2a, A.b2g, A.b2b, A.b2v]

end Cert.Spec

end
-- ==== Proof.KernelArgs.lean ====
/-
  The idealized kernel's twenty-two argument arrays on core c, as the specification's argument record.
-/
import proofs.«400346_j70085276336407_3_alg».proof.KernelIdeal
import proofs.«400346_j70085276336407_3_alg».proof.Proof.Spec

noncomputable section

namespace Cert.KernelIdeal.Fr

open Idealize.ShloMosaic Idealize.ShloMosaic.TcCoe Idealize.SL.Sem
open Cert.KernelIdeal

/-- The argument arrays as memory m holds them on core c, in the entry point's order. -/
def argsOf (m : (ℓ : Loc nD τ sig) → Buf (Elt Ideal) ℓ) (c : Dev nD) : Cert.Spec.Args where
  h := m ((c.tc : Thread nD τ).loc main_arg0)
  x := m ((c.tc : Thread nD τ).loc main_arg1)
  v := m ((c.tc : Thread nD τ).loc main_arg2)
  w1a := m ((c.tc : Thread nD τ).loc main_arg3)
  b1a := m ((c.tc : Thread nD τ).loc main_arg4)
  w2a := m ((c.tc : Thread nD τ).loc main_arg5)
  b2a := m ((c.tc : Thread nD τ).loc main_arg6)
  w1b := m ((c.tc : Thread nD τ).loc main_arg7)
  b1b := m ((c.tc : Thread nD τ).loc main_arg8)
  w2b := m ((c.tc : Thread nD τ).loc main_arg9)
  b2b := m ((c.tc : Thread nD τ).loc main_arg10)
  w1g := m ((c.tc : Thread nD τ).loc main_arg11)
  b1g := m ((c.tc : Thread nD τ).loc main_arg12)
  w2g := m ((c.tc : Thread nD τ).loc main_arg13)
  b2g := m ((c.tc : Thread nD τ).loc main_arg14)
  w1v := m ((c.tc : Thread nD τ).loc main_arg15)
  b1v := m ((c.tc : Thread nD τ).loc main_arg16)
  w2v := m ((c.tc : Thread nD τ).loc main_arg17)
  b2v := m ((c.tc : Thread nD τ).loc main_arg18)
  mu := m ((c.tc : Thread nD τ).loc main_arg19)
  gam := m ((c.tc : Thread nD τ).loc main_arg20)
  phi := m ((c.tc : Thread nD τ).loc main_arg21)

end Cert.KernelIdeal.Fr

end
-- ==== Proof.Holds.lean ====
/-
  When the eight blocks the kernel body holds at a grid point are "row r of the arguments".

  `Holds A r p xv hh wh wx bb ww cb cs` says: block row p of `hh` is row r of h; block row p of `xv` is row r of x
  followed by row r of v; and the packed operands are the four heads' parameters in the kernel's column order
  (alpha, gate, beta, candidate) — first-layer weights side by side (the h-rows in `wh`, the x‖v-rows in `wx`),
  first-layer biases end to end, second-layer weights block-diagonal (zero off the diagonal blocks), second-layer
  biases end to end, and the constant row mu followed by the harmonic term.
-/
import proofs.«400346_j70085276336407_3_alg».proof.KernelIdeal
import proofs.«400346_j70085276336407_3_alg».proof.Proof.Spec

noncomputable section

namespace Cert.Bridge

open Idealize.ShloMosaic Idealize.ShloMosaic.ValueIdx Cert.KernelIdeal Cert.Spec

/-- The eight blocks hold block row p as row r of the argument record A, the packed operands as A's four heads. -/
structure Holds (A : Args) (r : Fin 131072) (p : Fin 2048)
    (xv : Vec Ideal S2048x8 .f32) (hh : Vec Ideal S2048x1024 .f32) (wh : Vec Ideal S1024x256 .bf16) (wx : Vec Ideal S8x256 .bf16)
    (bb : Vec Ideal S1x256 .f32) (ww : Vec Ideal S256x16 .bf16) (cb : Vec Ideal S1x16 .f32) (cs : Vec Ideal S1x8 .f32) : Prop where
  h_row : ∀ k : Fin 1024, hh (ix2 p k) = A.h (ix2 r k)
  xv_row : ∀ k : Fin 8, xv (ix2 p k) = if hk : k.val < 4 then A.x (ix2 r ⟨k.val, hk⟩) else A.v (ix2 r ⟨k.val - 4, by omega⟩)
  w1h : ∀ (k : Fin 1024) (n : Fin 256),
    wh (ix2 k n) = headW1 A ⟨n.val / 64, by omega⟩ (ix2 ⟨k.val, by omega⟩ ⟨n.val % 64, by omega⟩)
  w1xv : ∀ (k : Fin 8) (n : Fin 256),
    wx (ix2 k n) = headW1 A ⟨n.val / 64, by omega⟩ (ix2 ⟨1024 + k.val, by omega⟩ ⟨n.val % 64, by omega⟩)
  b1 : ∀ n : Fin 256, bb (ix2 (0 : Fin 1) n) = headB1 A ⟨n.val / 64, by omega⟩ (ix1 ⟨n.val % 64, by omega⟩)
  w2 : ∀ (n : Fin 256) (cc : Fin 16),
    ww (ix2 n cc) = if n.val / 64 = cc.val / 4 then headW2 A ⟨cc.val / 4, by omega⟩ (ix2 ⟨n.val % 64, by omega⟩ ⟨cc.val % 4, by omega⟩) else 0
  b2 : ∀ cc : Fin 16, cb (ix2 (0 : Fin 1) cc) = headB2 A ⟨cc.val / 4, by omega⟩ (ix1 ⟨cc.val % 4, by omega⟩)
  cst : ∀ k : Fin 8,
    cs (ix2 (0 : Fin 1) k) = if hk : k.val < 4 then A.mu (ix1 ⟨k.val, hk⟩) else harmonic A.gam A.phi ⟨k.val - 4, by omega⟩

end Cert.Bridge

end
-- ==== Proof.LibMatmulPlain.lean ====
/-
  A plain matrix product on the extended reals, read at an entry.

  The dimension record of an M×K by K×N product (contract the left operand's axis 1 with the right operand's
  axis 0, no batch axis) is, whatever its well-formedness proof, the library's `DotDims.plain M K N`. At the ideal
  instance such a product into a zero accumulator is, at entry (i, j), the finite sum over q of l[i, q] · r[q, j]; with
  the right operand given as the transpose of an N×K matrix w, the sum over q of l[i, q] · w[j, q].
  The contraction index of the record is re-indexed to `Fin K` through the library's one-axis equivalence, and each
  operand index is identified coordinate by coordinate.
-/
import Idealize.ShloMosaic.PureOps.Ideal.Laws
import Idealize.ShloMosaic.Lib.ValueIdx
import Idealize.ShloMosaic.Lib.ValueLayout

namespace Cert.LibMatmulPlain

open Idealize.ShloMosaic Idealize.ShloMosaic.ValueIdx
open scoped BigOperators

variable {M K N : ℕ}

/-- The left operand's row coordinate is the result's row coordinate. -/
theorem lhs_plain_0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton_self _)]
  rfl

/-- The left operand's column coordinate is the contraction index. -/
theorem lhs_plain_1 (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- The right operand's row coordinate is the contraction index. -/
theorem rhs_plain_0 (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- The right operand's column coordinate is the result's column coordinate. -/
theorem rhs_plain_1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton_self _)]
  rfl

/-- Entry (i, j) of l·r, accumulated into zero: the sum over q of l[i, q] · r[q, j]. -/
theorem matmul_plain_apply {φ₁ φ₂ : FTy} (l : FVec Ideal ⟨2, ![M, K]⟩ φ₁) (r : FVec Ideal ⟨2, ![K, N]⟩ φ₂) (i : Fin M) (j : Fin N) :
    matmul (DotDims.plain M K N) none l r (constant ⟨2, ![M, N]⟩ .f32 0x00000000#32) (ix2 i j)
      = ∑ q : Fin K, l (ix2 i q) * r (ix2 q j) := by
  simp only [matmul]
  rw [Ideal.matmul_constant_zero_apply, ← Equiv.sum_comp (contrEquiv1 (DotDims.plain M K N) K rfl rfl).symm]
  refine Finset.sum_congr rfl fun q _ => ?_
  have hq := contrEquiv1_symm_val (DotDims.plain M K N) K rfl rfl q
  have el : (DotDims.plain M K N).lhsIdx (ix2 i j) ((contrEquiv1 (DotDims.plain M K N) K rfl rfl).symm q) = ix2 i q :=
    funext fun a => Fin.ext (by
      match a with
      | ⟨0, _⟩ => exact lhs_plain_0 _ _
      | ⟨1, _⟩ => exact (lhs_plain_1 _ _).trans hq)
  have er : (DotDims.plain M K N).rhsIdx (ix2 i j) ((contrEquiv1 (DotDims.plain M K N) K rfl rfl).symm q) = ix2 q j :=
    funext fun a => Fin.ext (by
      match a with
      | ⟨0, _⟩ => exact (rhs_plain_0 _ _).trans hq
      | ⟨1, _⟩ => exact rhs_plain_1 _ _)
  rw [el, er]

/-- Entry (i, j) of l·wᵀ for an N×K matrix w: the sum over q of l[i, q] · w[j, q]. -/
theorem matmul_plain_transpose_apply {φ₁ φ₂ : FTy} (l : FVec Ideal ⟨2, ![M, K]⟩ φ₁) (w : FVec Ideal ⟨2, ![N, K]⟩ φ₂)
    (h : (⟨2, ![N, K]⟩ : Shape).Transposes [1, 0] ⟨2, ![K, N]⟩) (i : Fin M) (j : Fin N) :
    matmul (DotDims.plain M K N) none l (transpose ⟨2, ![K, N]⟩ [1, 0] w h) (constant ⟨2, ![M, N]⟩ .f32 0x00000000#32) (ix2 i j)
      = ∑ q : Fin K, l (ix2 i q) * w (ix2 j q) := by
  rw [matmul_plain_apply]
  exact Finset.sum_congr rfl fun q _ => by rw [transpose_ix2_apply]

end Cert.LibMatmulPlain
-- ==== Proof.LibKeepdims.lean ====
/-
  A reduced axis kept as a unit axis, read by coordinates: the two layout steps that carry a per-row quantity
  (a row's maximum, a row's sum) back over the row.

  * an [a] vector cast to a column [a, 1] reads, at (i, u), the vector at i (the unit coordinate u is 0);
  * a column [a, 1] broadcast along its unit axis to [a, b] reads, at (i, j), the column at (i, 0).

  Both are the library's general reading lemmas (a cast keeps the row-major position; a broadcast reads 0 on a unit
  axis) instantiated at these small shapes, with every index written by its coordinates.
-/
import Idealize.ShloMosaic.Lib.Pipeline.Value
import Idealize.ShloMosaic.Lib.ValueIdx

namespace Cert.LibKeepdims

open Idealize.ShloMosaic Idealize.ShloMosaic.ValueIdx

variable {α : Type}

/-- An `[a]` array cast to the column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(i, j)`, the column's entry of row `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.LibKeepdims
-- ==== Proof.KernelBody.lean ====
/-
  What the kernel body stores, entry by entry, on the extended reals.

  At a grid point the body holds a block of 2048 rows: `hh` (the rows of h), `xv` (the rows of x ‖ v), and the packed
  operands `wh` (1024 × 256), `wx` (8 × 256), `bb` (1 × 256), `ww` (256 × 16), `cb` (1 × 16), `cs` (1 × 8: mu ‖ harmonic).
  Row p's 256 pre-activations are h·wh + (x‖v)·wx + bb; the 16 outputs are relu(pre)·ww + cb, columns 0–3 the alpha
  head, 4–7 the gate head, 8–11 the beta head, 12–15 the candidate. The two stored payloads are the next velocity
  (columns 4–7 of the output block) and the next position (columns 0–3). Every matrix product is a finite sum, every
  slice reads its operand at the offset column, every format change is the identity; the guard of the softplus
  (d ≠ d) never fires on an extended real.
-/
import proofs.«400346_j70085276336407_3_alg».proof.Proof.Gen.KernelIdeal.Skeleton
import proofs.«400346_j70085276336407_3_alg».proof.Proof.Spec
import proofs.«400346_j70085276336407_3_alg».proof.Proof.LibMatmulPlain
import proofs.«400346_j70085276336407_3_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Idealize.ShloMosaic Idealize.ShloMosaic.ValueIdx Cert.KernelIdeal Cert.KernelIdeal.Gen Cert.Spec
open scoped BigOperators

/-- The three products' dimension records are plain M×K by K×N products. -/
theorem dotH : dot_S2048x1024_S1024x256_S2048x256_1_0_0_1_n_n = DotDims.plain 2048 1024 256 := rfl
theorem dotX : dot_S2048x8_S8x256_S2048x256_1_0_0_1_n_n = DotDims.plain 2048 8 256 := rfl
theorem dotW : dot_S2048x256_S256x16_S2048x16_1_0_0_1_n_n = DotDims.plain 2048 256 16 := rfl

variable (xv : Vec Ideal S2048x8 .f32) (hh : Vec Ideal S2048x1024 .f32) (wh : Vec Ideal S1024x256 .bf16)
  (wx : Vec Ideal S8x256 .bf16) (bb : Vec Ideal S1x256 .f32) (ww : Vec Ideal S256x16 .bf16) (cb : Vec Ideal S1x16 .f32)
  (cs : Vec Ideal S1x8 .f32)

/-- Pre-activation n of block row p. -/
def pre (p : Fin 2048) (n : Fin 256) : EReal :=
  ((∑ k : Fin 1024, hh (ix2 p k) * wh (ix2 k n)) + ∑ k : Fin 8, xv (ix2 p k) * wx (ix2 k n)) + bb (ix2 (0 : Fin 1) n)

/-- Output column cc of block row p, before any activation. -/
def out (p : Fin 2048) (cc : Fin 16) : EReal :=
  (∑ n : Fin 256, max (pre xv hh wh wx bb p n) (lit 0x00000000#32) * ww (ix2 n cc)) + cb (ix2 (0 : Fin 1) cc)

/-- The 2048 × 16 output of the two layers at (p, cc). -/
theorem pay6_apply (p : Fin 2048) (cc : Fin 16) :
    k0_pay6 (F := Ideal) xv hh wh wx bb ww cb (ix2 p cc) = out xv hh wh wx bb ww cb p cc := by
  unfold k0_pay6
  simp only [shapeCast_self]
  rw [addf_apply, dotW, LibMatmulPlain.matmul_plain_apply, broadcastTo_1b_ab_apply]
  unfold out
  congr 1
  refine Finset.sum_congr rfl fun n _ => ?_
  rw [truncf_apply, maximumf_apply, broadcast_apply, addf_apply, addf_apply, dotH, dotX,
    LibMatmulPlain.matmul_plain_apply, LibMatmulPlain.matmul_plain_apply, broadcastTo_1b_ab_apply]
  simp only [pre, k0_pay3, truncf_apply, shapeCast_self, Ideal.ofBits_def]

/-- x at (p, j): column j of the x ‖ v block. -/
theorem pay4_apply (p : Fin 2048) (j : Fin 4) : k0_pay4 (F := Ideal) xv (ix2 p j) = xv (ix2 p ⟨j.val, by omega⟩) := by
  unfold k0_pay4 k0_pay3
  rw [shapeCast_self]
  exact slice2_axis1_apply 0 xv _ p j ⟨j.val, by omega⟩ (by simp)

/-- v at (p, j): column 4 + j of the x ‖ v block. -/
theorem pay5_apply (p : Fin 2048) (j : Fin 4) : k0_pay5 (F := Ideal) xv (ix2 p j) = xv (ix2 p ⟨4 + j.val, by omega⟩) := by
  unfold k0_pay5 k0_pay3
  rw [shapeCast_self]
  exact slice2_axis1_apply 4 xv _ p j ⟨4 + j.val, by omega⟩ rfl

/-- The beta head's raw output at (p, j): column 8 + j. -/
theorem pay7_apply (p : Fin 2048) (j : Fin 4) :
    k0_pay7 (F := Ideal) xv hh wh wx bb ww cb (ix2 p j) = out xv hh wh wx bb ww cb p ⟨8 + j.val, by omega⟩ := by
  unfold k0_pay7
  exact (slice2_axis1_apply 8 _ _ p j ⟨8 + j.val, by omega⟩ rfl).trans (pay6_apply xv hh wh wx bb ww cb p _)

/-- The candidate head's output at (p, j): column 12 + j. -/
theorem pay8_apply (p : Fin 2048) (j : Fin 4) :
    k0_pay8 (F := Ideal) xv hh wh wx bb ww cb (ix2 p j) = out xv hh wh wx bb ww cb p ⟨12 + j.val, by omega⟩ := by
  unfold k0_pay8
  exact (slice2_axis1_apply 12 _ _ p j ⟨12 + j.val, by omega⟩ rfl).trans (pay6_apply xv hh wh wx bb ww cb p _)

/-- The logistic of the first eight output columns at (p, k). -/
theorem pay9_apply (p : Fin 2048) (k : Fin 8) :
    k0_pay9 (F := Ideal) xv hh wh wx bb ww cb (ix2 p k) = Ideal.logistic (out xv hh wh wx bb ww cb p ⟨k.val, by omega⟩) := by
  unfold k0_pay9
  show Ideal.logistic _ = _
  exact congrArg Ideal.logistic
    ((slice2_axis1_apply 0 _ _ p k ⟨k.val, by omega⟩ (by simp)).trans (pay6_apply xv hh wh wx bb ww cb p _))

/-- The alpha head through the logistic at (p, j): column j. -/
theorem pay10_apply (p : Fin 2048) (j : Fin 4) :
    k0_pay10 (F := Ideal) xv hh wh wx bb ww cb (ix2 p j) = Ideal.logistic (out xv hh wh wx bb ww cb p ⟨j.val, by omega⟩) := by
  unfold k0_pay10
  exact (slice2_axis1_apply 0 _ _ p j ⟨j.val, by omega⟩ (by simp)).trans (pay9_apply xv hh wh wx bb ww cb p _)

/-- The gate head through the logistic at (p, j): column 4 + j. -/
theorem pay11_apply (p : Fin 2048) (j : Fin 4) :
    k0_pay11 (F := Ideal) xv hh wh wx bb ww cb (ix2 p j) = Ideal.logistic (out xv hh wh wx bb ww cb p ⟨4 + j.val, by omega⟩) := by
  unfold k0_pay11
  exact (slice2_axis1_apply 4 _ _ p j ⟨4 + j.val, by omega⟩ rfl).trans (pay9_apply xv hh wh wx bb ww cb p _)

/-- max(raw beta, 0) at (p, j). -/
theorem pay12_apply (p : Fin 2048) (j : Fin 4) :
    k0_pay12 (F := Ideal) xv hh wh wx bb ww cb (ix2 p j)
      = max (out xv hh wh wx bb ww cb p ⟨8 + j.val, by omega⟩) (lit 0x00000000#32) := by
  unfold k0_pay12
  rw [maximumf_apply, pay7_apply]
  rfl

/-- raw beta − 0 at (p, j). -/
theorem pay13_apply (p : Fin 2048) (j : Fin 4) :
    k0_pay13 (F := Ideal) xv hh wh wx bb ww cb (ix2 p j)
      = out xv hh wh wx bb ww cb p ⟨8 + j.val, by omega⟩ - lit 0x00000000#32 := by
  unfold k0_pay13
  rw [subf_apply, pay7_apply]
  rfl

/-- The softplus' guard "d ≠ d" is false at every entry: an extended real equals itself. -/
theorem pay14_apply (p : Fin 2048) (j : Fin 4) :
    k0_pay14 (F := Ideal) xv hh wh wx bb ww cb (ix2 p j) = 0#1 := by
  unfold k0_pay14
  rw [cmpf_apply, Ideal.cmpf_def]
  simp [Ideal.cmp]

/-- The zero word at every entry. -/
theorem pay15_apply (i : S2048x4.Idx) : k0_pay15 (F := Ideal) i = lit 0x00000000#32 := rfl

/-- A lane sum over the four columns of a 2048 × 4 array, at row p. -/
theorem rowSum4 (src : FVec Ideal S2048x4 .f32) (hφ : FTy.f32 = FTy.f32 ∨ FTy.f32 = FTy.bf16)
    (hacc : (0x00000000#32 : BitVec 32) = 0x00000000#32) (p : Fin 2048) :
    multiReduction .add [1] S2048 src 0x00000000#32 reduces_S2048x4_S2048 hφ hacc (ix1 p) = ∑ j : Fin 4, src (ix2 p j) := by
  refine (Ideal.multiReduction_add_single src 0x00000000#32 reduces_S2048x4_S2048 hφ hacc (ix1 p)).trans ?_
  refine Finset.sum_congr rfl fun k _ => congrArg src ?_
  funext a
  match a with
  | ⟨0, _⟩ => rfl
  | ⟨1, _⟩ => rfl

/-! ## The integrator step on a block row -/

theorem exp_apply {s : Shape} {φ : FTy} (a : FVec Ideal s φ) (i : s.Idx) : exp a i = Ideal.exp (a i) := rfl
theorem log1p_apply {s : Shape} {φ : FTy} (a : FVec Ideal s φ) (i : s.Idx) : log1p a i = Ideal.log1p (a i) := rfl
theorem sqrt_apply {s : Shape} {φ : FTy} (a : FVec Ideal s φ) (i : s.Idx) : sqrt a i = Ideal.sqrt (a i) := rfl
theorem absf_apply {s : Shape} {φ : FTy} (a : FVec Ideal s φ) (i : s.Idx) : absf a i = max (a i) (-(a i)) := rfl

/-- mu at j: column j of the constant row. -/
theorem cs_lo (row : FVec Ideal S1x8 .f32) (j : Fin 4) :
    extractStridedSlice S1x4 ![0, 0] row slices_S1x8_o0_0_S1x4 (ix2 (0 : Fin 1) j) = row (ix2 (0 : Fin 1) ⟨j.val, by omega⟩) :=
  slice2_axis1_apply 0 row _ 0 j ⟨j.val, by omega⟩ (by simp)

/-- The harmonic term at j: column 4 + j of the constant row. -/
theorem cs_hi (row : FVec Ideal S1x8 .f32) (j : Fin 4) :
    extractStridedSlice S1x4 ![0, 4] row slices_S1x8_o0_4_S1x4 (ix2 (0 : Fin 1) j) = row (ix2 (0 : Fin 1) ⟨4 + j.val, by omega⟩) :=
  slice2_axis1_apply 4 row _ 0 j ⟨4 + j.val, by omega⟩ rfl

/-- x − mu at (p, j). -/
def errB (p : Fin 2048) (j : Fin 4) : EReal :=
  xv (ix2 p ⟨j.val, by omega⟩) - cs (ix2 (0 : Fin 1) ⟨j.val, by omega⟩)

/-- ‖x − mu‖ on block row p (the lane sum has no starting term). -/
def imbB (p : Fin 2048) : EReal := Ideal.sqrt (∑ j : Fin 4, errB xv cs p j * errB xv cs p j)

/-- alpha at (p, j). -/
def alphaB (p : Fin 2048) (j : Fin 4) : EReal :=
  Ideal.logistic (out xv hh wh wx bb ww cb p ⟨j.val, by omega⟩) * Ideal.exp (lit 0xBF800000#32 * imbB xv cs p)

/-- The softplus of the beta head at (p, j), as the body spells it: 0 − |d| under the exponential. -/
def betaB (p : Fin 2048) (j : Fin 4) : EReal :=
  max (out xv hh wh wx bb ww cb p ⟨8 + j.val, by omega⟩) (lit 0x00000000#32)
    + Ideal.log1p (Ideal.exp (lit 0x00000000#32
        - max (out xv hh wh wx bb ww cb p ⟨8 + j.val, by omega⟩ - lit 0x00000000#32)
            (-(out xv hh wh wx bb ww cb p ⟨8 + j.val, by omega⟩ - lit 0x00000000#32))))

/-- The stored next velocity at (p, j). -/
def bodyV (p : Fin 2048) (j : Fin 4) : EReal :=
  ((alphaB xv hh wh wx bb ww cb cs p j * xv (ix2 p ⟨4 + j.val, by omega⟩)
        + (lit 0x3F800000#32 - alphaB xv hh wh wx bb ww cb cs p j) * out xv hh wh wx bb ww cb p ⟨12 + j.val, by omega⟩)
      - betaB xv hh wh wx bb ww cb p j * errB xv cs p j)
    + cs (ix2 (0 : Fin 1) ⟨4 + j.val, by omega⟩)

/-- The stored next position at (p, j). -/
def bodyX (p : Fin 2048) (j : Fin 4) : EReal :=
  xv (ix2 p ⟨j.val, by omega⟩)
    + ((lit 0x3DCCCCCD#32 * Ideal.logistic (out xv hh wh wx bb ww cb p ⟨4 + j.val, by omega⟩)) * lit 0x3F800000#32)
      * bodyV xv hh wh wx bb ww cb cs p j

/-- The payload of the store into columns 4–7 is the next velocity. -/
theorem pay1_apply (p : Fin 2048) (j : Fin 4) :
    k0_pay1 (F := Ideal) (k0_pay4 xv) (k0_pay5 xv) (k0_pay7 xv hh wh wx bb ww cb) (k0_pay8 xv hh wh wx bb ww cb)
        (k0_pay10 xv hh wh wx bb ww cb) (k0_pay12 xv hh wh wx bb ww cb) (k0_pay13 xv hh wh wx bb ww cb)
        (k0_pay14 xv hh wh wx bb ww cb) (k0_pay15 (F := Ideal)) cs (ix2 p j)
      = bodyV xv hh wh wx bb ww cb cs p j := by
  unfold k0_pay1
  simp only [shapeCast_self, addf_apply, subf_apply, mulf_apply, select_apply, broadcast_apply, exp_apply, log1p_apply,
    sqrt_apply, absf_apply, pay14_apply, select_zero, pay4_apply, pay5_apply, pay8_apply, pay10_apply, pay12_apply,
    pay13_apply, LibKeepdims.broadcastTo_a1_ab_apply, LibKeepdims.shapeCast_a_a1_apply, broadcastTo_1b_ab_apply,
    cs_lo, cs_hi, Ideal.ofBits_def]
  rw [rowSum4]
  simp only [mulf_apply, subf_apply, pay4_apply, broadcastTo_1b_ab_apply, cs_lo]
  rfl

/-- The payload of the store into columns 0–3 is the next position. -/
theorem pay2_apply (p : Fin 2048) (j : Fin 4) :
    k0_pay2 (F := Ideal) (k0_pay4 xv) (k0_pay5 xv) (k0_pay7 xv hh wh wx bb ww cb) (k0_pay8 xv hh wh wx bb ww cb)
        (k0_pay10 xv hh wh wx bb ww cb) (k0_pay11 xv hh wh wx bb ww cb) (k0_pay12 xv hh wh wx bb ww cb)
        (k0_pay13 xv hh wh wx bb ww cb) (k0_pay14 xv hh wh wx bb ww cb) (k0_pay15 (F := Ideal)) cs (ix2 p j)
      = bodyX xv hh wh wx bb ww cb cs p j := by
  unfold k0_pay2
  rw [addf_apply, mulf_apply, mulf_apply, mulf_apply, broadcast_apply, broadcast_apply, pay4_apply, pay11_apply, pay1_apply]
  rfl

end Cert.KernelIdeal.Body

end
-- ==== Proof.KernelHostCat.lean ====
/-
  The kernel's concatenated operands read at an entry.

  Before the region the host lines build six buffers by laying argument arrays side by side or end to end: the
  row [x | v]; the four heads' first-layer weights, rows 0 to 1023 and rows 1024 to 1031, side by side along the
  columns (then changed to the narrower format, which is the identity on the extended reals); the four heads'
  first-layer biases and second-layer biases end to end, each reshaped to one row; and mu followed by the harmonic
  term 0.03 · sin(gamma · 0 + phi), reshaped to one row. The heads come in the order alpha, gate, beta, candidate.
  Each theorem reads one of these buffers at an entry as the corresponding entry of the argument arrays.
-/
import proofs.«400346_j70085276336407_3_alg».proof.Proof.KernelIdealEntry
import proofs.«400346_j70085276336407_3_alg».proof.Proof.KernelArgs
import Idealize.ShloMosaic.Lib.StableHlo.Run
import Idealize.ShloMosaic.Lib.Pipeline.Value
import Idealize.ShloMosaic.Lib.ValueIdx
import Idealize.ShloMosaic.Lib.ValueLayout
import Idealize.ShloMosaic.Lib.IdealHost

set_option maxHeartbeats 4000000

noncomputable section

namespace Cert.KernelIdeal.Host

open Idealize.ShloMosaic Idealize.ShloMosaic.TcCoe Idealize.ShloMosaic.ValueIdx Idealize.SL.Sem
open Cert.KernelIdeal Cert.KernelIdeal.Gen Cert.KernelIdeal.Fr

variable (m : (ℓ : Loc nD τ sig) → Buf (Elt Ideal) ℓ) (c : Dev nD)

/-! ## Pieces of one shape laid along an axis, read at coordinates -/

section Pieces
variable {α : Type}

/-- Four [R, K] pieces side by side along the columns, read at (k, n): piece n / K at column n % K. -/
theorem cat4_cols_apply {R K N : ℕ} (f : Fin 4 → (⟨2, ![R, K]⟩ : Shape).Idx → α)
    (h : Shape.Concatenates [⟨2, ![R, K]⟩, ⟨2, ![R, K]⟩, ⟨2, ![R, K]⟩, ⟨2, ![R, K]⟩] ⟨2, ![R, N]⟩ 1)
    (k : Fin R) (n : Fin N) (hq : n.val / K < 4) (hm : n.val % K < K) :
    concatenate ⟨2, ![R, N]⟩ 1 [⟨⟨2, ![R, K]⟩, f 0⟩, ⟨⟨2, ![R, K]⟩, f 1⟩, ⟨⟨2, ![R, K]⟩, f 2⟩, ⟨⟨2, ![R, K]⟩, f 3⟩] h (ix2 k n)
      = f ⟨n.val / K, hq⟩ (ix2 k ⟨n.val % K, hm⟩) :=
  concatenate_ofFn_apply (t := ⟨2, ![R, N]⟩) (s₁ := ⟨2, ![R, K]⟩) 1 f h rfl K rfl (ix2 k n) ⟨n.val / K, hq⟩ rfl
    (ix2 k ⟨n.val % K, hm⟩) rfl (fun b => match b with
      | ⟨0, _⟩ => fun _ => rfl
      | ⟨1, _⟩ => fun hb => absurd rfl hb)

/-- Four length-K pieces end to end, read at n: piece n / K at position n % K. -/
theorem cat4_vec_apply {K N : ℕ} (f : Fin 4 → (⟨1, ![K]⟩ : Shape).Idx → α)
    (h : Shape.Concatenates [⟨1, ![K]⟩, ⟨1, ![K]⟩, ⟨1, ![K]⟩, ⟨1, ![K]⟩] ⟨1, ![N]⟩ 0)
    (n : Fin N) (hq : n.val / K < 4) (hm : n.val % K < K) :
    concatenate ⟨1, ![N]⟩ 0 [⟨⟨1, ![K]⟩, f 0⟩, ⟨⟨1, ![K]⟩, f 1⟩, ⟨⟨1, ![K]⟩, f 2⟩, ⟨⟨1, ![K]⟩, f 3⟩] h (ix1 n)
      = f ⟨n.val / K, hq⟩ (ix1 ⟨n.val % K, hm⟩) :=
  concatenate_ofFn_apply (t := ⟨1, ![N]⟩) (s₁ := ⟨1, ![K]⟩) 0 f h rfl K rfl (ix1 n) ⟨n.val / K, hq⟩ rfl
    (ix1 ⟨n.val % K, hm⟩) rfl (fun b => match b with
      | ⟨0, _⟩ => fun hb => absurd rfl hb)

end Pieces

/-! ## The six buffers as terms of the argument arrays

Each buffer below is written once by the host operations before the region and read by none of the later ones that
write; running the operations in order leaves it at the composed term of the argument arrays. -/

/-- The x and v arrays side by side. -/
theorem V_v40 : (V m c main_v40 : S131072x8.Idx → EReal)
    = concatenate S131072x8 1 [⟨S131072x4, (m ((c.tc : Thread nD τ).loc main_arg1))⟩, ⟨S131072x4, (m ((c.tc : Thread nD τ).loc main_arg2))⟩]
        concatenates_S131072x4_S131072x4_S131072x8_d1 := by
  dsimp only [V, V0]
  simp only [hostOps0, List.flatten_cons, List.flatten_nil, List.append_nil, List.cons_append, List.nil_append]
  after_results_simp
  rfl

/-- The four heads' first-layer weights, rows 0 to 1023, side by side, after the format change. -/
theorem V_v9 : (V m c main_v9 : S1024x256.Idx → EReal)
    = truncf (F := Ideal) .bf16 (concatenate S1024x256 1
        [⟨S1024x64, extractStridedSlice S1024x64 ![0, 0] (m ((c.tc : Thread nD τ).loc main_arg3)) slices_S1032x64_S1024x64_0_0⟩,
         ⟨S1024x64, extractStridedSlice S1024x64 ![0, 0] (m ((c.tc : Thread nD τ).loc main_arg11)) slices_S1032x64_S1024x64_0_0⟩,
         ⟨S1024x64, extractStridedSlice S1024x64 ![0, 0] (m ((c.tc : Thread nD τ).loc main_arg7)) slices_S1032x64_S1024x64_0_0⟩,
         ⟨S1024x64, extractStridedSlice S1024x64 ![0, 0] (m ((c.tc : Thread nD τ).loc main_arg15)) slices_S1032x64_S1024x64_0_0⟩]
        concatenates_S1024x64_S1024x64_S1024x64_S1024x64_S1024x256_d1) bitsLt_bf16_f32 := by
  dsimp only [V, V0]
  simp only [hostOps0, List.flatten_cons, List.flatten_nil, List.append_nil, List.cons_append, List.nil_append]
  after_results_simp
  rfl

/-- The same for rows 1024 to 1031. -/
theorem V_v11 : (V m c main_v11 : S8x256.Idx → EReal)
    = truncf (F := Ideal) .bf16 (concatenate S8x256 1
        [⟨S8x64, extractStridedSlice S8x64 ![1024, 0] (m ((c.tc : Thread nD τ).loc main_arg3)) slices_S1032x64_S8x64_1024_0⟩,
         ⟨S8x64, extractStridedSlice S8x64 ![1024, 0] (m ((c.tc : Thread nD τ).loc main_arg11)) slices_S1032x64_S8x64_1024_0⟩,
         ⟨S8x64, extractStridedSlice S8x64 ![1024, 0] (m ((c.tc : Thread nD τ).loc main_arg7)) slices_S1032x64_S8x64_1024_0⟩,
         ⟨S8x64, extractStridedSlice S8x64 ![1024, 0] (m ((c.tc : Thread nD τ).loc main_arg15)) slices_S1032x64_S8x64_1024_0⟩]
        concatenates_S8x64_S8x64_S8x64_S8x64_S8x256_d1) bitsLt_bf16_f32 := by
  dsimp only [V, V0]
  simp only [hostOps0, List.flatten_cons, List.flatten_nil, List.append_nil, List.cons_append, List.nil_append]
  after_results_simp
  rfl

/-- The four first-layer biases end to end, as one row. -/
theorem V_v13 : (V m c main_v13 : S1x256.Idx → EReal)
    = shapeCast S1x256 (concatenate S256 0 [⟨S64, (m ((c.tc : Thread nD τ).loc main_arg4))⟩, ⟨S64, (m ((c.tc : Thread nD τ).loc main_arg12))⟩, ⟨S64, (m ((c.tc : Thread nD τ).loc main_arg8))⟩, ⟨S64, (m ((c.tc : Thread nD τ).loc main_arg16))⟩]
        concatenates_S64_S64_S64_S64_S256_d0) shapeCasts_S256_S1x256 := by
  dsimp only [V, V0]
  simp only [hostOps0, List.flatten_cons, List.flatten_nil, List.append_nil, List.cons_append, List.nil_append]
  after_results_simp
  rfl

/-- The four second-layer biases end to end, as one row. -/
theorem V_v33 : (V m c main_v33 : S1x16.Idx → EReal)
    = shapeCast S1x16 (concatenate S16 0 [⟨S4, (m ((c.tc : Thread nD τ).loc main_arg6))⟩, ⟨S4, (m ((c.tc : Thread nD τ).loc main_arg14))⟩, ⟨S4, (m ((c.tc : Thread nD τ).loc main_arg10))⟩, ⟨S4, (m ((c.tc : Thread nD τ).loc main_arg18))⟩]
        concatenates_S4_S4_S4_S4_S16_d0) shapeCasts_S16_S1x16 := by
  dsimp only [V, V0]
  simp only [hostOps0, List.flatten_cons, List.flatten_nil, List.append_nil, List.cons_append, List.nil_append]
  after_results_simp
  rfl

/-- mu followed by the harmonic term, as one row. -/
theorem V_v42 : (V m c main_v42 : S1x8.Idx → EReal)
    = shapeCast S1x8 (concatenate S8 0
        [⟨S4, (m ((c.tc : Thread nD τ).loc main_arg19))⟩,
         ⟨S4, mulf (F := Ideal) (broadcastInDim S4 ![] bcast_S_S4 (constant (F := Ideal) S_ .f32 0x3CF5C28F#32))
            (Host.sin (F := Ideal) (addf (F := Ideal)
              (mulf (F := Ideal) (m ((c.tc : Thread nD τ).loc main_arg20)) (broadcastInDim S4 ![] bcast_S_S4 (constant (F := Ideal) S_ .f32 0x00000000#32)))
              (m ((c.tc : Thread nD τ).loc main_arg21))))⟩]
        concatenates_S4_S4_S8_d0) shapeCasts_S8_S1x8 := by
  dsimp only [V, V0]
  simp only [hostOps0, List.flatten_cons, List.flatten_nil, List.append_nil, List.cons_append, List.nil_append]
  after_results_simp
  rfl

/-! ## The buffers read at an entry -/

theorem host_xv (r : Fin 131072) (k : Fin 8) :
    (V m c main_v40 : S131072x8.Idx → EReal) (ix2 r k)
      = if hk : k.val < 4 then (argsOf m c).x (ix2 r ⟨k.val, hk⟩) else (argsOf m c).v (ix2 r ⟨k.val - 4, by omega⟩) := by
  rw [V_v40]
  by_cases hk : k.val < 4
  · rw [dif_pos hk]
    exact concatenate_pair_apply_left (t := S131072x8) (s₁ := S131072x4) (s₂ := S131072x4) 1 _ _ _ (ix2 r k) rfl
      (ix2 r ⟨k.val, hk⟩) (fun b => match b with | ⟨0, _⟩ => rfl | ⟨1, _⟩ => rfl)
  · rw [dif_neg hk]
    exact concatenate_pair_apply_right (t := S131072x8) (s₁ := S131072x4) (s₂ := S131072x4) 1 _ _ _ (ix2 r k) rfl rfl
      (ix2 r ⟨k.val - 4, by omega⟩)
      (fun b => match b with | ⟨0, _⟩ => fun _ => rfl | ⟨1, _⟩ => fun hb => absurd rfl hb)
      (by show (k.val - 4) + 4 = k.val; omega)

theorem host_w1h (k : Fin 1024) (n : Fin 256) :
    (V m c main_v9 : S1024x256.Idx → EReal) (ix2 k n)
      = Cert.Spec.headW1 (argsOf m c) ⟨n.val / 64, by omega⟩ (ix2 ⟨k.val, by omega⟩ ⟨n.val % 64, by omega⟩) := by
  rw [V_v9, truncf_apply]
  refine (cat4_cols_apply
    (fun q => extractStridedSlice S1024x64 ![0, 0] (Cert.Spec.headW1 (argsOf m c) q) slices_S1032x64_S1024x64_0_0)
    concatenates_S1024x64_S1024x64_S1024x64_S1024x64_S1024x256_d1 k n (by omega) (by omega)).trans ?_
  exact extractStridedSlice_apply _ _ _ _ _ (fun a => match a with
    | ⟨0, _⟩ => by show k.val = 0 + k.val; omega
    | ⟨1, _⟩ => by show n.val % 64 = 0 + n.val % 64; omega)

theorem host_w1xv (k : Fin 8) (n : Fin 256) :
    (V m c main_v11 : S8x256.Idx → EReal) (ix2 k n)
      = Cert.Spec.headW1 (argsOf m c) ⟨n.val / 64, by omega⟩ (ix2 ⟨1024 + k.val, by omega⟩ ⟨n.val % 64, by omega⟩) := by
  rw [V_v11, truncf_apply]
  refine (cat4_cols_apply
    (fun q => extractStridedSlice S8x64 ![1024, 0] (Cert.Spec.headW1 (argsOf m c) q) slices_S1032x64_S8x64_1024_0)
    concatenates_S8x64_S8x64_S8x64_S8x64_S8x256_d1 k n (by omega) (by omega)).trans ?_
  exact extractStridedSlice_apply _ _ _ _ _ (fun a => match a with
    | ⟨0, _⟩ => by show 1024 + k.val = 1024 + k.val; rfl
    | ⟨1, _⟩ => by show n.val % 64 = 0 + n.val % 64; omega)

theorem host_b1 (u : Fin 1) (n : Fin 256) :
    (V m c main_v13 : S1x256.Idx → EReal) (ix2 u n) = Cert.Spec.headB1 (argsOf m c) ⟨n.val / 64, by omega⟩ (ix1 ⟨n.val % 64, by omega⟩) := by
  rw [V_v13]
  refine (shapeCast_a_1a_apply _ shapeCasts_S256_S1x256 u n).trans ?_
  exact cat4_vec_apply (Cert.Spec.headB1 (argsOf m c)) concatenates_S64_S64_S64_S64_S256_d0 n (by omega) (by omega)

theorem host_b2 (u : Fin 1) (cc : Fin 16) :
    (V m c main_v33 : S1x16.Idx → EReal) (ix2 u cc) = Cert.Spec.headB2 (argsOf m c) ⟨cc.val / 4, by omega⟩ (ix1 ⟨cc.val % 4, by omega⟩) := by
  rw [V_v33]
  refine (shapeCast_a_1a_apply _ shapeCasts_S16_S1x16 u cc).trans ?_
  exact cat4_vec_apply (Cert.Spec.headB2 (argsOf m c)) concatenates_S4_S4_S4_S4_S16_d0 cc (by omega) (by omega)

theorem host_const (u : Fin 1) (k : Fin 8) :
    (V m c main_v42 : S1x8.Idx → EReal) (ix2 u k)
      = if hk : k.val < 4 then (argsOf m c).mu (ix1 ⟨k.val, hk⟩) else Cert.Spec.harmonic (argsOf m c).gam (argsOf m c).phi ⟨k.val - 4, by omega⟩ := by
  rw [V_v42]
  refine (shapeCast_a_1a_apply _ shapeCasts_S8_S1x8 u k).trans ?_
  by_cases hk : k.val < 4
  · rw [dif_pos hk]
    exact concatenate_pair_apply_left (t := S8) (s₁ := S4) (s₂ := S4) 0 _ _ _ (ix1 k) rfl (ix1 ⟨k.val, hk⟩)
      (fun b => match b with | ⟨0, _⟩ => rfl)
  · rw [dif_neg hk]
    refine (concatenate_pair_apply_right (t := S8) (s₁ := S4) (s₂ := S4) 0 _ _ _ (ix1 k) rfl rfl (ix1 ⟨k.val - 4, by omega⟩)
      (fun b => match b with | ⟨0, _⟩ => fun hb => absurd rfl hb)
      (by show (k.val - 4) + 4 = k.val; omega)).trans ?_
    rfl

end Cert.KernelIdeal.Host

end
-- ==== Proof.LibScatterSet.lean ====
/-
  A set-scatter whose updates land on pairwise distinct elements, read at an element.

  A scatter whose body returns the update ("set") is a fold of single-element overwrites, one per update element.
  When every update element has a landing element inside the operand and no two of them land on the same element,
  the order of the overwrites is immaterial: the result holds each update element at its landing element and the
  operand everywhere else.
-/
import Idealize.ShloMosaic.PureOps.ShapeOps

namespace Cert.LibScatterSet

open Idealize.ShloMosaic

/-- A fold of single-point overwrites `r ↦ r[p k := v k]` over a list of keys, when `p` is injective: the result
    holds `v k` at `p k` for every key `k` of the list, and the start value at every point no key of the list is
    sent to. By induction on the list from its last element: the last overwrite decides the point it writes, and at
    any other point the fold of the shorter list is read, where a key sent to the same point as the last one would be
    the last one. -/
theorem foldl_overwrite {ι κ α : Type} [DecidableEq ι] (p : κ → ι) (v : κ → α) (hp : Function.Injective p)
    (x : ι → α) (l : List κ) :
    (∀ k ∈ l, l.foldl (fun r k => fun i' => if i' = p k then v k else r i') x (p k) = v k) ∧
    (∀ i', (∀ k ∈ l, p k ≠ i') → l.foldl (fun r k => fun i' => if i' = p k then v k else r i') x i' = x i') := by
  induction l using List.reverseRecOn with
  | nil => exact ⟨fun k hk => absurd hk (List.not_mem_nil), fun i' _ => rfl⟩
  | append_singleton l n ih =>
    obtain ⟨ih1, ih2⟩ := ih
    refine ⟨fun k hk => ?_, fun i' hi' => ?_⟩
    · rw [List.foldl_append, List.foldl_cons, List.foldl_nil]
      by_cases hkn : p k = p n
      · rw [if_pos hkn, hp hkn]
      · rw [if_neg hkn]
        rcases List.mem_append.1 hk with h | h
        · exact ih1 k h
        · exact absurd (congrArg p (List.mem_singleton.1 h)) hkn
    · rw [List.foldl_append, List.foldl_cons, List.foldl_nil]
      have hn : i' ≠ p n := fun h => hi' n (List.mem_append_right _ (List.mem_singleton_self n)) h.symm
      rw [if_neg hn]
      exact ih2 i' fun k hk => hi' k (List.mem_append_left _ hk)

variable {s si u : Shape} {α : Type} {w : Nat}

/-- A set-scatter (`fun _ b => b`: the body returns the update) every one of whose update elements `j` lands inside
    the operand, at `land j`, no two on the same element: the result holds `upd j` at `land j`, and the operand's
    element at every index no update element lands on. -/
theorem scatter_set (d : ScatterDims s si u) (x : s.Idx → α) (idx : IVec si w) (upd : u.Idx → α)
    (land : u.Idx → s.Idx) (hland : ∀ j, d.resultIdx? j idx = some (land j)) (hinj : Function.Injective land) :
    (∀ j, Host.scatter d (fun _ b => b) x idx upd (land j) = upd j) ∧
    (∀ i', (∀ j, land j ≠ i') → Host.scatter d (fun _ b => b) x idx upd i' = x i') := by
  -- the scatter's fold is a fold of overwrites at `land` of the update element each position names
  have hfold : Host.scatter d (fun _ b => b) x idx upd
      = (List.finRange u.numel).foldl
          (fun r n => fun i' => if i' = land (u.rowMajor.symm n) then upd (u.rowMajor.symm n) else r i') x := by
    unfold Host.scatter
    congr 1
    funext r n
    rw [hland]
  have hp : Function.Injective fun n : Fin u.numel => land (u.rowMajor.symm n) :=
    hinj.comp u.rowMajor.symm.injective
  obtain ⟨h1, h2⟩ := foldl_overwrite (fun n : Fin u.numel => land (u.rowMajor.symm n))
    (fun n => upd (u.rowMajor.symm n)) hp x (List.finRange u.numel)
  rw [hfold]
  refine ⟨fun j => ?_, fun i' hi' => ?_⟩
  · have := h1 (u.rowMajor j) (List.mem_finRange _)
    simpa only [Equiv.symm_apply_apply] using this
  · exact h2 i' fun n _ => hi' _

end Cert.LibScatterSet
-- ==== Proof.KernelHostW2.lean ====
/-
  The kernel's second-layer weight matrix, read at an entry.

  The four heads' 64 × 4 second-layer matrices are packed into one 256 × 16 matrix that is zero outside four diagonal
  blocks: head i's matrix sits at rows 64i … 64i+63 and columns 4i … 4i+3. The program builds it from the zero matrix
  by four block writes, each at a two-word start (64i, 4i), and then changes the element format, which at the extended
  reals changes nothing. Entry (n, c) is therefore head (c / 4)'s entry (n mod 64, c mod 4) when n / 64 = c / 4,
  and zero otherwise.

  The blocks are disjoint, so every entry is written by at most one of the four writes; each write is read through
  the general fact about a set-scatter with pairwise distinct landing elements.
-/
import proofs.«400346_j70085276336407_3_alg».proof.Proof.KernelIdealEntry
import proofs.«400346_j70085276336407_3_alg».proof.Proof.KernelArgs
import proofs.«400346_j70085276336407_3_alg».proof.Proof.LibScatterSet
import Idealize.ShloMosaic.Lib.StableHlo.Run
import Idealize.ShloMosaic.Lib.ValueIdx
import Idealize.ShloMosaic.PureOps.Ideal.Laws

noncomputable section

namespace Cert.KernelIdeal.Host

open Idealize.ShloMosaic Idealize.ShloMosaic.TcCoe Idealize.ShloMosaic.ValueIdx Idealize.SL.Sem
open Cert.KernelIdeal Cert.KernelIdeal.Gen Cert.KernelIdeal.Fr

/-! ## Where one block write lands -/

/-- The scatter record of the four writes into the 256 × 16 matrix: a 64 × 4 window placed at a two-word start, the
    first word the row and the second the column. -/
abbrev dW2 : ScatterDims S256x16 S2 S64x4 := scatter_S256x16_S2_S64x4_01_n_01_0

/-- The window's first row is the start vector's first word, read signed. -/
theorem start0 (j : S64x4.Idx) (idx : IVec S2 32) : dW2.start j idx 0 = (idx (ix1 0)).toInt := by
  unfold ScatterDims.start
  rw [dif_pos (by decide)]
  congr 2
  funext b
  match b with
  | ⟨0, _⟩ => rfl

/-- The window's first column is the start vector's second word, read signed. -/
theorem start1 (j : S64x4.Idx) (idx : IVec S2 32) : dW2.start j idx 1 = (idx (ix1 1)).toInt := by
  unfold ScatterDims.start
  rw [dif_pos (by decide)]
  congr 2
  funext b
  match b with
  | ⟨0, _⟩ => rfl

/-- Inside the window the row offset is the update element's row. -/
theorem window0 (j : S64x4.Idx) : dW2.window j 0 = (j 0).val := by
  unfold ScatterDims.window
  rw [dif_pos (by decide)]
  rfl

/-- Inside the window the column offset is the update element's column. -/
theorem window1 (j : S64x4.Idx) : dW2.window j 1 = (j 1).val := by
  unfold ScatterDims.window
  rw [dif_pos (by decide)]
  rfl

/-- A start (R, C) that keeps the 64 × 4 window inside the matrix sends update element (p, q) to entry
    (R + p, C + q): start plus offset on each axis, both in range. -/
theorem resultIdx_block (idx : IVec S2 32) (R C : Nat) (hR : R + 64 ≤ 256) (hC : C + 4 ≤ 16)
    (h0 : (idx (ix1 0)).toInt = (R : Int)) (h1 : (idx (ix1 1)).toInt = (C : Int)) (j : S64x4.Idx) :
    dW2.resultIdx? j idx
      = some (ix2 ⟨R + (j 0).val, by have := idx2_lt0 j; omega⟩ ⟨C + (j 1).val, by have := idx2_lt1 j; omega⟩) := by
  have hj0 := idx2_lt0 j
  have hj1 := idx2_lt1 j
  have hs0 : S256x16.size 0 = 256 := rfl
  have hs1 : S256x16.size 1 = 16 := rfl
  unfold ScatterDims.resultIdx?
  rw [dif_pos]
  · congr 1
    funext a
    match a with
    | ⟨0, _⟩ =>
      apply Fin.ext
      show (dW2.start j idx 0 + (dW2.window j 0 : Nat)).toNat = R + (j 0).val
      rw [start0, window0, h0]; omega
    | ⟨1, _⟩ =>
      apply Fin.ext
      show (dW2.start j idx 1 + (dW2.window j 1 : Nat)).toNat = C + (j 1).val
      rw [start1, window1, h1]; omega
  · intro a
    match a with
    | ⟨0, _⟩ =>
      show 0 ≤ dW2.start j idx 0 + (dW2.window j 0 : Nat)
        ∧ dW2.start j idx 0 + (dW2.window j 0 : Nat) < (S256x16.size 0 : Nat)
      rw [start0, window0, h0, hs0]; omega
    | ⟨1, _⟩ =>
      show 0 ≤ dW2.start j idx 1 + (dW2.window j 1 : Nat)
        ∧ dW2.start j idx 1 + (dW2.window j 1 : Nat) < (S256x16.size 1 : Nat)
      rw [start1, window1, h1, hs1]; omega

/-- One block write at the start (64i, 4i), read at entry (n, c): the entry lies in block i exactly when
    n / 64 = i and c / 4 = i, and then it holds the update's element (n mod 64, c mod 4); every other entry keeps
    what the matrix held. The landing map (p, q) ↦ (64i + p, 4i + q) is injective, and an entry outside block i is
    the image of no (p, q). -/
theorem scatter_head {α : Type} (i : Nat) (hi : i < 4) (x : S256x16.Idx → α) (idx : IVec S2 32) (upd : S64x4.Idx → α)
    (h0 : (idx (ix1 0)).toInt = ((64 * i : Nat) : Int)) (h1 : (idx (ix1 1)).toInt = ((4 * i : Nat) : Int))
    (n : Fin 256) (cc : Fin 16) :
    Host.scatter dW2 (fun _ b => b) x idx upd (ix2 n cc)
      = if n.val / 64 = i ∧ cc.val / 4 = i then upd (ix2 ⟨n.val % 64, by omega⟩ ⟨cc.val % 4, by omega⟩)
        else x (ix2 n cc) := by
  obtain ⟨hset, hkeep⟩ := Cert.LibScatterSet.scatter_set dW2 x idx upd
    (fun j => ix2 ⟨64 * i + (j 0).val, by have := idx2_lt0 j; omega⟩ ⟨4 * i + (j 1).val, by have := idx2_lt1 j; omega⟩)
    (fun j => resultIdx_block idx (64 * i) (4 * i) (by omega) (by omega) h0 h1 j)
    (by
      intro j j' h
      have e0 : 64 * i + (j 0).val = 64 * i + (j' 0).val := congrArg (fun k : S256x16.Idx => (k 0).val) h
      have e1 : 4 * i + (j 1).val = 4 * i + (j' 1).val := congrArg (fun k : S256x16.Idx => (k 1).val) h
      rw [eq_ix2 j, eq_ix2 j']
      congr 1
      · exact Fin.ext (by omega)
      · exact Fin.ext (by omega))
  by_cases hc : n.val / 64 = i ∧ cc.val / 4 = i
  · rw [if_pos hc]
    have := hset (ix2 ⟨n.val % 64, by omega⟩ ⟨cc.val % 4, by omega⟩)
    rw [← this]
    congr 1
    have hn : n = ⟨64 * i + n.val % 64, by omega⟩ := Fin.ext (by show n.val = 64 * i + n.val % 64; omega)
    have hcc : cc = ⟨4 * i + cc.val % 4, by omega⟩ := Fin.ext (by show cc.val = 4 * i + cc.val % 4; omega)
    funext a
    match a with
    | ⟨0, _⟩ => exact hn
    | ⟨1, _⟩ => exact hcc
  · rw [if_neg hc]
    apply hkeep
    intro j h
    have e0 : 64 * i + (j 0).val = n.val := congrArg (fun k : S256x16.Idx => (k 0).val) h
    have e1 : 4 * i + (j 1).val = cc.val := congrArg (fun k : S256x16.Idx => (k 1).val) h
    have hj0 := idx2_lt0 j
    have hj1 := idx2_lt1 j
    apply hc
    constructor <;> omega

/-! ## The four writes -/

variable (m : (ℓ : Loc nD τ sig) → Buf (Elt Ideal) ℓ) (c : Dev nD)

/-- A two-word start vector as the program builds it: two one-word splats joined. -/
abbrev startVec (r0 c0 : BitVec 32) : IVec S2 32 :=
  concatenate S2 0 [⟨S1, broadcastInDim S1 ![] bcast_S_S1 (constantI S_ 32 r0)⟩,
    ⟨S1, broadcastInDim S1 ![] bcast_S_S1 (constantI S_ 32 c0)⟩] concatenates_S1_S1_S2_d0

/-- The joined vector's first word is the first splat's. -/
theorem startVec0 (r0 c0 : BitVec 32) : startVec r0 c0 (ix1 0) = r0 := by
  rfl

/-- The joined vector's second word is the second splat's. -/
theorem startVec1 (r0 c0 : BitVec 32) : startVec r0 c0 (ix1 1) = c0 := by
  rfl

/-- The four writes over the zero matrix at the starts (0, 0), (64, 4), (128, 8), (192, 12), then the format change,
    over any four blocks. -/
abbrev w2Term (ua ug ub uv : S64x4.Idx → EReal) : S256x16.Idx → EReal :=
  truncf (F := Ideal) (φ := .f32) .bf16
    (Host.scatter dW2 (fun _ b => b)
      (Host.scatter dW2 (fun _ b => b)
        (Host.scatter dW2 (fun _ b => b)
          (Host.scatter dW2 (fun _ b => b)
            (broadcastInDim S256x16 ![] bcast_S_S256x16 (constant (F := Ideal) S_ .f32 0x00000000#32))
            (startVec 0#32 0#32) ua)
          (startVec 64#32 4#32) ug)
        (startVec 128#32 8#32) ub)
      (startVec 192#32 12#32) uv)
    bitsLt_bf16_f32

/-- The packed matrix's buffer holds the four writes of the alpha, gate, beta and candidate heads' second-layer
    matrices, in that order. -/
theorem v31_eq : (V m c main_v31 : S256x16.Idx → EReal)
    = w2Term (m ((c.tc : Thread nD τ).loc main_arg5)) (m ((c.tc : Thread nD τ).loc main_arg13))
        (m ((c.tc : Thread nD τ).loc main_arg9)) (m ((c.tc : Thread nD τ).loc main_arg17)) := by
  dsimp only [V, V0]
  simp only [hostOps0, List.flatten_cons, List.flatten_nil, List.append_nil, List.cons_append, List.nil_append]
  after_results_simp
  rfl

/-- The packed matrix over any four blocks, read at an entry: the blocks are disjoint, so the one write whose block
    holds the entry decides it, and an entry in no block is the zero the matrix started from. -/
theorem w2Term_apply (ua ug ub uv : S64x4.Idx → EReal) (n : Fin 256) (cc : Fin 16) :
    w2Term ua ug ub uv (ix2 n cc)
      = if n.val / 64 = 3 ∧ cc.val / 4 = 3 then uv (ix2 ⟨n.val % 64, by omega⟩ ⟨cc.val % 4, by omega⟩)
        else if n.val / 64 = 2 ∧ cc.val / 4 = 2 then ub (ix2 ⟨n.val % 64, by omega⟩ ⟨cc.val % 4, by omega⟩)
        else if n.val / 64 = 1 ∧ cc.val / 4 = 1 then ug (ix2 ⟨n.val % 64, by omega⟩ ⟨cc.val % 4, by omega⟩)
        else if n.val / 64 = 0 ∧ cc.val / 4 = 0 then ua (ix2 ⟨n.val % 64, by omega⟩ ⟨cc.val % 4, by omega⟩)
        else 0 := by
  have hz : broadcastInDim S256x16 ![] bcast_S_S256x16 (constant (F := Ideal) S_ .f32 0x00000000#32) (ix2 n cc)
      = (0 : EReal) := Ideal.ofBits_zero_f32
  show FloatOps.truncf (F := Ideal) .bf16 bitsLt_bf16_f32
    (Host.scatter dW2 (fun _ b => b) _ (startVec 192#32 12#32) uv (ix2 n cc)) = _
  rw [Ideal.truncf_def,
    scatter_head 3 (by omega) _ _ _ (by rw [startVec0]; rfl) (by rw [startVec1]; rfl),
    scatter_head 2 (by omega) _ _ _ (by rw [startVec0]; rfl) (by rw [startVec1]; rfl),
    scatter_head 1 (by omega) _ _ _ (by rw [startVec0]; rfl) (by rw [startVec1]; rfl),
    scatter_head 0 (by omega) _ _ _ (by rw [startVec0]; rfl) (by rw [startVec1]; rfl), hz]

/-- A chain of four tests "both quotients are k", for k = 3, 2, 1, 0, is the one test "the quotients agree", the
    second quotient being below 4. -/
theorem select_head {β : Type} (f : Fin 4 → β) (z : β) (a b : Nat) (hb : b < 4) :
    (if a = 3 ∧ b = 3 then f 3 else if a = 2 ∧ b = 2 then f 2 else if a = 1 ∧ b = 1 then f 1
      else if a = 0 ∧ b = 0 then f 0 else z) = if a = b then f ⟨b, hb⟩ else z := by
  have : b = 0 ∨ b = 1 ∨ b = 2 ∨ b = 3 := by omega
  rcases this with rfl | rfl | rfl | rfl
  · by_cases h : a = 0
    · subst h; simp
    · simp [h]
  · by_cases h : a = 1
    · subst h; simp
    · simp [h]
  · by_cases h : a = 2
    · subst h; simp
    · simp [h]
  · by_cases h : a = 3
    · subst h; simp
    · simp [h]

/-- Entry (n, c) of the packed second-layer matrix as the region finds it: head (c / 4)'s second-layer weight at
    (n mod 64, c mod 4) when row block and column block agree, the real zero otherwise. The heads are in the packed
    order alpha, gate, beta, candidate. -/
theorem host_w2 (n : Fin 256) (cc : Fin 16) :
    (V m c main_v31 : S256x16.Idx → EReal) (ix2 n cc)
      = if n.val / 64 = cc.val / 4 then
          Cert.Spec.headW2 (argsOf m c) ⟨cc.val / 4, by omega⟩ (ix2 ⟨n.val % 64, by omega⟩ ⟨cc.val % 4, by omega⟩)
        else 0 := by
  refine (congrFun (v31_eq m c) (ix2 n cc)).trans ?_
  rw [w2Term_apply]
  exact select_head
    (fun k => Cert.Spec.headW2 (argsOf m c) k (ix2 ⟨n.val % 64, by omega⟩ ⟨cc.val % 4, by omega⟩)) 0
    (n.val / 64) (cc.val / 4) (by omega)

end Cert.KernelIdeal.Host

end
-- ==== Proof.KernelBlocks.lean ====
/-
  What the kernel body's eight input blocks hold at a grid point.

  The grid has 64 points. At point t the first two windows are blocks of 2048 rows — rows 2048·t … 2048·t + 2047 of
  h and of the joined x‖v —, so block row p is row 2048·t + p of the arrays. The other six windows are each one
  block that is the whole array at every point: the packed first-layer weights (the h-rows and the x‖v-rows), the
  packed first-layer biases, the block-diagonal second layer, its biases, and the constant row. A block is read off
  its array at block index × block size + the coordinate inside the block, on each axis.
-/
import proofs.«400346_j70085276336407_3_alg».proof.Proof.KernelIdealFrame
import proofs.«400346_j70085276336407_3_alg».proof.Proof.KernelIdealEntry
import proofs.«400346_j70085276336407_3_alg».proof.Proof.KernelArgs
import proofs.«400346_j70085276336407_3_alg».proof.Proof.Holds
import proofs.«400346_j70085276336407_3_alg».proof.Proof.KernelHostCat
import proofs.«400346_j70085276336407_3_alg».proof.Proof.KernelHostW2
import Idealize.ShloMosaic.Lib.ValueIdx

noncomputable section

namespace Cert.KernelIdeal.Host

open Idealize.ShloMosaic Idealize.ShloMosaic.TcCoe Idealize.ShloMosaic.ValueIdx Idealize.SL.Sem
open Cert.KernelIdeal Cert.KernelIdeal.Gen Cert.KernelIdeal.Fr Cert.Bridge

variable (m : (ℓ : Loc nD τ sig) → Buf (Elt Ideal) ℓ) (c : Dev nD)

/-- The index maps over the 64 points: the two row windows' block index is (t, 0), the six whole-array windows'
    is (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0 :=
  (by decide +kernel : ∀ t : Fin grid0.N, _)

/-- A point's number is below 64. -/
theorem point_lt (t : Fin cfg0.N) : t.val < 64 := by
  have h : t.val < grid0.N := t.isLt
  rw [N_0] at h
  exact h

/-- The row of the arrays that block row p of point t is. -/
def rowOf (t : Fin cfg0.N) (p : Fin 2048) : Fin 131072 :=
  ⟨2048 * t.val + p.val, by have := point_lt t; omega⟩

/-- Block row p of point t's block of h is row 2048·t + p of h. -/
theorem blk_h (t : Fin cfg0.N) (p : Fin 2048) (k : Fin 1024) :
    (iblk m c 0 t : S2048x1024.Idx → EReal) (ix2 p k) = (argsOf m c).h (ix2 (rowOf t p) k) := by
  obtain ⟨e0, e1, -⟩ := idx_facts t
  have he : ((cfg0.win 0).blk t).view.emb (ix2 p k) = ix2 (rowOf t p) k := by
    funext a; apply Fin.ext
    match a with
    | ⟨0, _⟩ => show win0_0.index t (0 : Fin 2) * 2048 + 1 * p.val = 2048 * t.val + p.val; rw [e0]; omega
    | ⟨1, _⟩ => show win0_0.index t (1 : Fin 2) * 1024 + 1 * k.val = k.val; rw [e1]; omega
  show V m c main_arg0 (((cfg0.win 0).blk t).view.emb (ix2 p k)) = _
  rw [he, V_main_arg0 m c]
  rfl

/-- Block row p of point t's block of x‖v is row 2048·t + p of x followed by that row of v. -/
theorem blk_xv (t : Fin cfg0.N) (p : Fin 2048) (k : Fin 8) :
    (iblk m c 1 t : S2048x8.Idx → EReal) (ix2 p k)
      = if hk : k.val < 4 then (argsOf m c).x (ix2 (rowOf t p) ⟨k.val, hk⟩)
        else (argsOf m c).v (ix2 (rowOf t p) ⟨k.val - 4, by omega⟩) := by
  obtain ⟨-, -, e0, e1, -⟩ := idx_facts t
  have he : ((cfg0.win 1).blk t).view.emb (ix2 p k) = ix2 (rowOf t p) k := by
    funext a; apply Fin.ext
    match a with
    | ⟨0, _⟩ => show win0_1.index t (0 : Fin 2) * 2048 + 1 * p.val = 2048 * t.val + p.val; rw [e0]; omega
    | ⟨1, _⟩ => show win0_1.index t (1 : Fin 2) * 8 + 1 * k.val = k.val; rw [e1]; omega
  show V m c main_v40 (((cfg0.win 1).blk t).view.emb (ix2 p k)) = _
  rw [he]
  exact host_xv m c (rowOf t p) k

/-- The packed first-layer weights' h-rows are one block, the whole array at every point: column n is head n / 64's
    column n mod 64. -/
theorem blk_w1h (t : Fin cfg0.N) (k : Fin 1024) (n : Fin 256) :
    (iblk m c 2 t : S1024x256.Idx → EReal) (ix2 k n)
      = Cert.Spec.headW1 (argsOf m c) ⟨n.val / 64, by omega⟩ (ix2 ⟨k.val, by omega⟩ ⟨n.val % 64, by omega⟩) := by
  obtain ⟨-, -, -, -, e0, e1, -⟩ := idx_facts t
  have he : ((cfg0.win 2).blk t).view.emb (ix2 k n) = ix2 k n := by
    funext a; apply Fin.ext
    match a with
    | ⟨0, _⟩ => show win0_2.index t (0 : Fin 2) * 1024 + 1 * k.val = k.val; rw [e0]; omega
    | ⟨1, _⟩ => show win0_2.index t (1 : Fin 2) * 256 + 1 * n.val = n.val; rw [e1]; omega
  show V m c main_v9 (((cfg0.win 2).blk t).view.emb (ix2 k n)) = _
  rw [he]
  exact host_w1h m c k n

/-- The packed first-layer weights' x‖v-rows, one block at every point: row k is row 1024 + k of the head's matrix. -/
theorem blk_w1xv (t : Fin cfg0.N) (k : Fin 8) (n : Fin 256) :
    (iblk m c 3 t : S8x256.Idx → EReal) (ix2 k n)
      = Cert.Spec.headW1 (argsOf m c) ⟨n.val / 64, by omega⟩ (ix2 ⟨1024 + k.val, by omega⟩ ⟨n.val % 64, by omega⟩) := by
  obtain ⟨-, -, -, -, -, -, e0, e1, -⟩ := idx_facts t
  have he : ((cfg0.win 3).blk t).view.emb (ix2 k n) = ix2 k n := by
    funext a; apply Fin.ext
    match a with
    | ⟨0, _⟩ => show win0_3.index t (0 : Fin 2) * 8 + 1 * k.val = k.val; rw [e0]; omega
    | ⟨1, _⟩ => show win0_3.index t (1 : Fin 2) * 256 + 1 * n.val = n.val; rw [e1]; omega
  show V m c main_v11 (((cfg0.win 3).blk t).view.emb (ix2 k n)) = _
  rw [he]
  exact host_w1xv m c k n

/-- The packed first-layer biases, one row at every point: entry n is head n / 64's bias n mod 64. -/
theorem blk_b1 (t : Fin cfg0.N) (n : Fin 256) :
    (iblk m c 4 t : S1x256.Idx → EReal) (ix2 (0 : Fin 1) n)
      = Cert.Spec.headB1 (argsOf m c) ⟨n.val / 64, by omega⟩ (ix1 ⟨n.val % 64, by omega⟩) := by
  obtain ⟨-, -, -, -, -, -, -, -, e0, e1, -⟩ := idx_facts t
  have he : ((cfg0.win 4).blk t).view.emb (ix2 (0 : Fin 1) n) = ix2 (0 : Fin 1) n := by
    funext a; apply Fin.ext
    match a with
    | ⟨0, _⟩ => show win0_4.index t (0 : Fin 2) * 1 + 1 * 0 = 0; rw [e0]
    | ⟨1, _⟩ => show win0_4.index t (1 : Fin 2) * 256 + 1 * n.val = n.val; rw [e1]; omega
  show V m c main_v13 (((cfg0.win 4).blk t).view.emb (ix2 (0 : Fin 1) n)) = _
  rw [he]
  exact host_b1 m c 0 n

/-- The block-diagonal second layer, one block at every point: head c / 4's weight on the diagonal blocks, zero off
    them. -/
theorem blk_w2 (t : Fin cfg0.N) (n : Fin 256) (cc : Fin 16) :
    (iblk m c 5 t : S256x16.Idx → EReal) (ix2 n cc)
      = if n.val / 64 = cc.val / 4 then
          Cert.Spec.headW2 (argsOf m c) ⟨cc.val / 4, by omega⟩ (ix2 ⟨n.val % 64, by omega⟩ ⟨cc.val % 4, by omega⟩)
        else 0 := by
  obtain ⟨-, -, -, -, -, -, -, -, -, -, e0, e1, -⟩ := idx_facts t
  have he : ((cfg0.win 5).blk t).view.emb (ix2 n cc) = ix2 n cc := by
    funext a; apply Fin.ext
    match a with
    | ⟨0, _⟩ => show win0_5.index t (0 : Fin 2) * 256 + 1 * n.val = n.val; rw [e0]; omega
    | ⟨1, _⟩ => show win0_5.index t (1 : Fin 2) * 16 + 1 * cc.val = cc.val; rw [e1]; omega
  show V m c main_v31 (((cfg0.win 5).blk t).view.emb (ix2 n cc)) = _
  rw [he]
  exact host_w2 m c n cc

/-- The packed second-layer biases, one row at every point: entry c is head c / 4's bias c mod 4. -/
theorem blk_b2 (t : Fin cfg0.N) (cc : Fin 16) :
    (iblk m c 6 t : S1x16.Idx → EReal) (ix2 (0 : Fin 1) cc)
      = Cert.Spec.headB2 (argsOf m c) ⟨cc.val / 4, by omega⟩ (ix1 ⟨cc.val % 4, by omega⟩) := by
  obtain ⟨-, -, -, -, -, -, -, -, -, -, -, -, e0, e1, -⟩ := idx_facts t
  have he : ((cfg0.win 6).blk t).view.emb (ix2 (0 : Fin 1) cc) = ix2 (0 : Fin 1) cc := by
    funext a; apply Fin.ext
    match a with
    | ⟨0, _⟩ => show win0_6.index t (0 : Fin 2) * 1 + 1 * 0 = 0; rw [e0]
    | ⟨1, _⟩ => show win0_6.index t (1 : Fin 2) * 16 + 1 * cc.val = cc.val; rw [e1]; omega
  show V m c main_v33 (((cfg0.win 6).blk t).view.emb (ix2 (0 : Fin 1) cc)) = _
  rw [he]
  exact host_b2 m c 0 cc

/-- The constant row, one row at every point: mu followed by the harmonic term. -/
theorem blk_const (t : Fin cfg0.N) (k : Fin 8) :
    (iblk m c 7 t : S1x8.Idx → EReal) (ix2 (0 : Fin 1) k)
      = if hk : k.val < 4 then (argsOf m c).mu (ix1 ⟨k.val, hk⟩)
        else Cert.Spec.harmonic (argsOf m c).gam (argsOf m c).phi ⟨k.val - 4, by omega⟩ := by
  obtain ⟨-, -, -, -, -, -, -, -, -, -, -, -, -, -, e0, e1⟩ := idx_facts t
  have he : ((cfg0.win 7).blk t).view.emb (ix2 (0 : Fin 1) k) = ix2 (0 : Fin 1) k := by
    funext a; apply Fin.ext
    match a with
    | ⟨0, _⟩ => show win0_7.index t (0 : Fin 2) * 1 + 1 * 0 = 0; rw [e0]
    | ⟨1, _⟩ => show win0_7.index t (1 : Fin 2) * 8 + 1 * k.val = k.val; rw [e1]; omega
  show V m c main_v42 (((cfg0.win 7).blk t).view.emb (ix2 (0 : Fin 1) k)) = _
  rw [he]
  exact host_const m c 0 k

/-- At point t the eight blocks hold block row p as row 2048·t + p of the arguments, and the packed operands as the
    four heads' parameters. -/
theorem holds (t : Fin cfg0.N) (p : Fin 2048) :
    Holds (argsOf m c) (rowOf t p) p (iblk m c 1 t) (iblk m c 0 t) (iblk m c 2 t) (iblk m c 3 t) (iblk m c 4 t)
      (iblk m c 5 t) (iblk m c 6 t) (iblk m c 7 t) where
  h_row := blk_h m c t p
  xv_row := blk_xv m c t p
  w1h := blk_w1h m c t
  w1xv := blk_w1xv m c t
  b1 := blk_b1 m c t
  w2 := blk_w2 m c t
  b2 := blk_b2 m c t
  cst := blk_const m c t

end Cert.KernelIdeal.Host

end
-- ==== Proof.Bridge.lean ====
/-
  The algebra that joins the kernel body's value on a block row to the specification's integrator step.

  The body's value differs from the specification's in four ways, none of which needs a finite input. The first
  layer's sum over the 1032 concatenated columns is split into the 1024 columns of h and the 8 columns of x ‖ v. The
  second layer is one sum over all 256 hidden units against a block-diagonal weight: off the diagonal block the
  weight is zero and the term vanishes, so only the 64 units of the head in question remain. The body's sum of
  squares has no starting term where the specification's starts from the zero word, and the body writes 0 − |d|
  where the specification writes −|d|. The body's logistic is by definition 1 / (1 + e^(−y)), the word 0x3F800000
  denoting 1. Every other literal is the same word on both sides and is never evaluated.
-/
import proofs.«400346_j70085276336407_3_alg».proof.Proof.KernelBody
import proofs.«400346_j70085276336407_3_alg».proof.Proof.Holds
import proofs.«400346_j70085276336407_3_alg».proof.Proof.Spec
import Idealize.ShloMosaic.PureOps.Ideal.Laws
import Idealize.ShloMosaic.Lib.IdealHost
import Mathlib.Algebra.BigOperators.Fin
import Mathlib.Logic.Equiv.Fin.Basic

noncomputable section

namespace Cert.Bridge

open Idealize.ShloMosaic Idealize.ShloMosaic.ValueIdx Cert.KernelIdeal Cert.Spec Cert.KernelIdeal.Body
open scoped BigOperators

variable {A : Args} {r : Fin 131072} {p : Fin 2048}
  {xv : Vec Ideal S2048x8 .f32} {hh : Vec Ideal S2048x1024 .f32} {wh : Vec Ideal S1024x256 .bf16}
  {wx : Vec Ideal S8x256 .bf16} {bb : Vec Ideal S1x256 .f32} {ww : Vec Ideal S256x16 .bf16} {cb : Vec Ideal S1x16 .f32}
  {cs : Vec Ideal S1x8 .f32}

/-! ## Sums: the concatenated row split, and the block-diagonal sum -/

/-- A sum over the 1032 concatenated columns is the sum over the first 1024 plus the sum over the last 8. -/
theorem sum_split (F : Fin 1032 → EReal) :
    ∑ k, F k = (∑ k : Fin 1024, F ⟨k.val, by omega⟩) + ∑ k : Fin 8, F ⟨1024 + k.val, by omega⟩ :=
  Fin.sum_univ_add (a := 1024) (b := 8) F

/-- A sum over 256 = 4 · 64 positions whose terms vanish outside block i₀ is the sum over the 64 positions of that
    block: position n lies in block n / 64 at offset n % 64. -/
theorem sum_block (G : Fin 4 → Fin 64 → EReal) (i₀ : Fin 4) :
    ∑ n : Fin 256, (if n.val / 64 = i₀.val then G ⟨n.val / 64, by omega⟩ ⟨n.val % 64, by omega⟩ else 0) = ∑ q : Fin 64, G i₀ q := by
  have hdiv : ∀ (a : Fin 4) (b : Fin 64), (b.val + 64 * a.val) / 64 = a.val := fun a b => by omega
  have hmod : ∀ (a : Fin 4) (b : Fin 64), (b.val + 64 * a.val) % 64 = b.val := fun a b => by omega
  refine ((Equiv.sum_comp (finProdFinEquiv (m := 4) (n := 64))
    (fun n : Fin (4 * 64) => if n.val / 64 = i₀.val then G ⟨n.val / 64, by omega⟩ ⟨n.val % 64, by omega⟩ else 0)).symm).trans ?_
  rw [Fintype.sum_prod_type, Finset.sum_eq_single i₀]
  · refine Finset.sum_congr rfl fun b _ => ?_
    show (if (b.val + 64 * i₀.val) / 64 = i₀.val then G ⟨(b.val + 64 * i₀.val) / 64, _⟩ ⟨(b.val + 64 * i₀.val) % 64, _⟩ else 0) = _
    rw [if_pos (hdiv i₀ b)]
    congr 1
    · exact Fin.ext (hdiv i₀ b)
    · exact Fin.ext (hmod i₀ b)
  · intro a _ ha
    refine Finset.sum_eq_zero fun b _ => ?_
    show (if (b.val + 64 * a.val) / 64 = i₀.val then _ else 0) = _
    rw [if_neg]
    rw [hdiv a b]
    exact fun e => ha (Fin.ext e)
  · intro h; exact absurd (Finset.mem_univ i₀) h

/-! ## The blocks' rows as the argument rows -/

/-- An entry read at two column coordinates with the same value is the same entry. -/
theorem ix2_congr {α : Type} {n0 n1 : ℕ} (f : (⟨2, ![n0, n1]⟩ : Shape).Idx → α) (a : Fin n0) {b b' : Fin n1}
    (h : b.val = b'.val) : f (ix2 a b) = f (ix2 a b') := by rw [Fin.ext h]

/-- The concatenated row on the columns of h. -/
theorem cat_lo (h : Mat 131072 1024) (x v : Mat 131072 4) (r : Fin 131072) (k : Fin 1024) :
    cat h x v r ⟨k.val, by omega⟩ = h (ix2 r k) := by
  unfold cat
  rw [dif_pos (show (⟨k.val, _⟩ : Fin 1032).val < 1024 from k.isLt)]

/-- The concatenated row on its last eight columns: x on the first four, v on the last four. -/
theorem cat_hi (h : Mat 131072 1024) (x v : Mat 131072 4) (r : Fin 131072) (k : Fin 8) :
    cat h x v r ⟨1024 + k.val, by omega⟩
      = if hk : k.val < 4 then x (ix2 r ⟨k.val, hk⟩) else v (ix2 r ⟨k.val - 4, by omega⟩) := by
  unfold cat
  rw [dif_neg (show ¬ (⟨1024 + k.val, _⟩ : Fin 1032).val < 1024 from by show ¬ 1024 + k.val < 1024; omega)]
  by_cases hk : k.val < 4
  · rw [dif_pos hk, dif_pos (show (⟨1024 + k.val, _⟩ : Fin 1032).val < 1028 from by show 1024 + k.val < 1028; omega)]
    exact ix2_congr x r (by show 1024 + k.val - 1024 = k.val; omega)
  · rw [dif_neg hk, dif_neg (show ¬ (⟨1024 + k.val, _⟩ : Fin 1032).val < 1028 from by show ¬ 1024 + k.val < 1028; omega)]
    exact ix2_congr v r (by show 1024 + k.val - 1028 = k.val - 4; omega)

section Rows
variable (H : Holds A r p xv hh wh wx bb ww cb cs)
include H

/-- x at (r, j) is column j of the block's x ‖ v row. -/
theorem xv_lo (j : Fin 4) : xv (ix2 p ⟨j.val, by omega⟩) = A.x (ix2 r j) := by
  rw [H.xv_row, dif_pos (show (⟨j.val, _⟩ : Fin 8).val < 4 from j.isLt)]

/-- v at (r, j) is column 4 + j of the block's x ‖ v row. -/
theorem xv_hi (j : Fin 4) : xv (ix2 p ⟨4 + j.val, by omega⟩) = A.v (ix2 r j) := by
  rw [H.xv_row, dif_neg (show ¬ (⟨4 + j.val, _⟩ : Fin 8).val < 4 from by show ¬ 4 + j.val < 4; omega)]
  exact ix2_congr A.v r (by show 4 + j.val - 4 = j.val; omega)

/-- mu at j is column j of the constant row. -/
theorem cs_mu (j : Fin 4) : cs (ix2 (0 : Fin 1) ⟨j.val, by omega⟩) = A.mu (ix1 j) := by
  rw [H.cst, dif_pos (show (⟨j.val, _⟩ : Fin 8).val < 4 from j.isLt)]

/-- The harmonic term at j is column 4 + j of the constant row. -/
theorem cs_harm (j : Fin 4) : cs (ix2 (0 : Fin 1) ⟨4 + j.val, by omega⟩) = harmonic A.gam A.phi j := by
  rw [H.cst, dif_neg (show ¬ (⟨4 + j.val, _⟩ : Fin 8).val < 4 from by show ¬ 4 + j.val < 4; omega)]
  exact congrArg (harmonic A.gam A.phi) (Fin.ext (by show 4 + j.val - 4 = j.val; omega))

/-! ## The two layers -/

/-- Pre-activation n of block row p is the affine form of the concatenated row r under head n / 64's first layer,
    unit n % 64. -/
theorem pre_eq (n : Fin 256) :
    pre xv hh wh wx bb p n
      = (∑ k : Fin 1032, cat A.h A.x A.v r k * headW1 A ⟨n.val / 64, by omega⟩ (ix2 k ⟨n.val % 64, by omega⟩))
        + headB1 A ⟨n.val / 64, by omega⟩ (ix1 ⟨n.val % 64, by omega⟩) := by
  unfold pre
  rw [H.b1 n, sum_split]
  congr 2
  · refine Finset.sum_congr rfl fun k _ => ?_
    rw [H.h_row k, H.w1h k n, cat_lo]
  · refine Finset.sum_congr rfl fun k _ => ?_
    rw [H.xv_row k, H.w1xv k n, cat_hi]

/-- The rectified pre-activation is the specification's hidden unit. -/
theorem relu_pre_eq (n : Fin 256) :
    max (pre xv hh wh wx bb p n) (lit 0x00000000#32)
      = hidden A (headW1 A ⟨n.val / 64, by omega⟩) (headB1 A ⟨n.val / 64, by omega⟩) r ⟨n.val % 64, by omega⟩ := by
  rw [pre_eq H n]
  rfl

/-- Output column cc of block row p is output cc % 4 of head cc / 4 on row r. -/
theorem out_eq (cc : Fin 16) :
    out xv hh wh wx bb ww cb p cc
      = head A (headW1 A ⟨cc.val / 4, by omega⟩) (headB1 A ⟨cc.val / 4, by omega⟩) (headW2 A ⟨cc.val / 4, by omega⟩)
          (headB2 A ⟨cc.val / 4, by omega⟩) r ⟨cc.val % 4, by omega⟩ := by
  unfold out head
  rw [H.b2 cc]
  congr 1
  refine (Finset.sum_congr rfl fun n _ => ?_).trans
    (sum_block (fun a b => hidden A (headW1 A a) (headB1 A a) r b
      * headW2 A ⟨cc.val / 4, by omega⟩ (ix2 b ⟨cc.val % 4, by omega⟩)) ⟨cc.val / 4, by omega⟩)
  rw [relu_pre_eq H n, H.w2 n cc, mul_ite, mul_zero]

/-- The same, with the head and its output named. -/
theorem out_head (cc : Fin 16) (i j : Fin 4) (hi : cc.val / 4 = i.val) (hj : cc.val % 4 = j.val) :
    out xv hh wh wx bb ww cb p cc = head A (headW1 A i) (headB1 A i) (headW2 A i) (headB2 A i) r j := by
  have e1 : (⟨cc.val / 4, by omega⟩ : Fin 4) = i := Fin.ext hi
  have e2 : (⟨cc.val % 4, by omega⟩ : Fin 4) = j := Fin.ext hj
  rw [out_eq H cc, e1, e2]

/-- Columns 0 to 3 are the alpha head. -/
theorem out_alpha (j : Fin 4) :
    out xv hh wh wx bb ww cb p ⟨j.val, by omega⟩ = head A A.w1a A.b1a A.w2a A.b2a r j :=
  out_head H ⟨j.val, by omega⟩ 0 j (by show j.val / 4 = 0; omega) (by show j.val % 4 = j.val; omega)

/-- Columns 4 to 7 are the gate head. -/
theorem out_gate (j : Fin 4) :
    out xv hh wh wx bb ww cb p ⟨4 + j.val, by omega⟩ = head A A.w1g A.b1g A.w2g A.b2g r j :=
  out_head H ⟨4 + j.val, by omega⟩ 1 j (by show (4 + j.val) / 4 = 1; omega) (by show (4 + j.val) % 4 = j.val; omega)

/-- Columns 8 to 11 are the beta head. -/
theorem out_beta (j : Fin 4) :
    out xv hh wh wx bb ww cb p ⟨8 + j.val, by omega⟩ = head A A.w1b A.b1b A.w2b A.b2b r j :=
  out_head H ⟨8 + j.val, by omega⟩ 2 j (by show (8 + j.val) / 4 = 2; omega) (by show (8 + j.val) % 4 = j.val; omega)

/-- Columns 12 to 15 are the candidate head. -/
theorem out_cand (j : Fin 4) :
    out xv hh wh wx bb ww cb p ⟨12 + j.val, by omega⟩ = head A A.w1v A.b1v A.w2v A.b2v r j :=
  out_head H ⟨12 + j.val, by omega⟩ 3 j (by show (12 + j.val) / 4 = 3; omega) (by show (12 + j.val) % 4 = j.val; omega)

/-! ## The integrator step -/

/-- x − mu. -/
theorem err_eq (j : Fin 4) : errB xv cs p j = err A r j := by
  unfold errB err
  rw [xv_lo H j, cs_mu H j]

/-- ‖x − mu‖: the specification's sum starts from the zero word, which denotes 0. -/
theorem imb_eq : imbB xv cs p = imbalance A r := by
  unfold imbB imbalance
  rw [show lit 0x00000000#32 = (0 : EReal) from Ideal.ofBits_zero_f32, zero_add]
  congr 1
  exact Finset.sum_congr rfl fun j _ => by rw [err_eq H j]

end Rows

/-- The logistic is 1 / (1 + e^(−y)), the word 0x3F800000 denoting 1. -/
theorem logistic_eq_sigmoid (y : EReal) : Ideal.logistic y = sigmoid y := by
  unfold sigmoid Ideal.logistic
  rw [show lit 0x3F800000#32 = (1 : EReal) from Ideal.ofBits_one_f32]

/-- 0 − |d| is −|d|, the zero word denoting 0: the body's softplus is the specification's. -/
theorem softplus_eq (y : EReal) :
    max y (lit 0x00000000#32)
        + Ideal.log1p (Ideal.exp (lit 0x00000000#32 - max (y - lit 0x00000000#32) (-(y - lit 0x00000000#32))))
      = softplus y := by
  unfold softplus
  rw [show lit 0x00000000#32 - max (y - lit 0x00000000#32) (-(y - lit 0x00000000#32))
      = -(max (y - lit 0x00000000#32) (-(y - lit 0x00000000#32))) from by
    rw [show lit 0x00000000#32 = (0 : EReal) from Ideal.ofBits_zero_f32, zero_sub]]

section Step
variable (H : Holds A r p xv hh wh wx bb ww cb cs)
include H

/-- alpha: the alpha head through the logistic, times e^(−‖x − mu‖). -/
theorem alpha_eq (j : Fin 4) : alphaB xv hh wh wx bb ww cb cs p j = alpha A r j := by
  unfold alphaB alpha
  rw [out_alpha H j, imb_eq H, logistic_eq_sigmoid]

/-- beta: the softplus of the beta head. -/
theorem beta_eq (j : Fin 4) :
    betaB xv hh wh wx bb ww cb p j = softplus (head A A.w1b A.b1b A.w2b A.b2b r j) := by
  unfold betaB
  rw [out_beta H j]
  exact softplus_eq _

end Step

/-! ## The two stored values -/

/-- The value stored into columns 4 to 7 of block row p is the next velocity of row r. -/
theorem bodyV_eq (H : Holds A r p xv hh wh wx bb ww cb cs) (j : Fin 4) :
    bodyV xv hh wh wx bb ww cb cs p j = vNext A r j := by
  unfold bodyV vNext
  rw [alpha_eq H j, beta_eq H j, err_eq H j, out_cand H j, xv_hi H j, cs_harm H j]

/-- The value stored into columns 0 to 3 of block row p is the next position of row r. -/
theorem bodyX_eq (H : Holds A r p xv hh wh wx bb ww cb cs) (j : Fin 4) :
    bodyX xv hh wh wx bb ww cb cs p j = xNext A r j := by
  unfold bodyX xNext
  rw [bodyV_eq H j, xv_lo H j, out_gate H j, logistic_eq_sigmoid]

end Cert.Bridge

end
-- ==== Proof.Results.lean ====
/-
  The two results as whole arrays: entry (r, j) of the first is the next position, of the second the next velocity.
-/
import proofs.«400346_j70085276336407_3_alg».proof.Proof.Spec

noncomputable section

namespace Cert.Spec

open Idealize.ShloMosaic Idealize.ShloMosaic.ValueIdx

/-- The next position, 131072 × 4. -/
def xOut (A : Args) : Mat 131072 4 := fun i => xNext A (i 0) (i 1)

/-- The next velocity, 131072 × 4. -/
def vOut (A : Args) : Mat 131072 4 := fun i => vNext A (i 0) (i 1)

theorem xOut_apply (A : Args) (r : Fin 131072) (j : Fin 4) : xOut A (ix2 r j) = xNext A r j := rfl
theorem vOut_apply (A : Args) (r : Fin 131072) (j : Fin 4) : vOut A (ix2 r j) = vNext A r j := rfl

end Cert.Spec

end
-- ==== Proof.KernelValue.lean ====
/-
  The idealized kernel's results, read off its frame run.

  At grid point t the body's stores leave, in the output block, the next position in columns 0–3 and the next velocity
  in columns 4–7 of rows 2048·t … 2048·t + 2047 (the payloads at an entry, then the algebra that joins the body's sums
  to the specification's). The 64 blocks tile the 131072 × 8 result array, row r lying in block r / 2048, so the array
  ends as one function of the arguments; the two lines after the region slice its two column halves.
-/
import proofs.«400346_j70085276336407_3_alg».proof.Proof.KernelIdealFrame
import proofs.«400346_j70085276336407_3_alg».proof.Proof.KernelArgs
import proofs.«400346_j70085276336407_3_alg».proof.Proof.Holds
import proofs.«400346_j70085276336407_3_alg».proof.Proof.KernelBody
import proofs.«400346_j70085276336407_3_alg».proof.Proof.KernelBlocks
import proofs.«400346_j70085276336407_3_alg».proof.Proof.Bridge
import proofs.«400346_j70085276336407_3_alg».proof.Proof.Results
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.Val

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Fr Cert.KernelIdeal.Host Cert.KernelIdeal.Body Cert.Spec Cert.Bridge

variable (m : (ℓ : Loc nD τ sig) → Buf (Elt Ideal) ℓ) (ρ : Dev nD → PrngReg) (c : Dev nD)

/-- The result array of the region: row r holds the next position in columns 0–3 and the next velocity in columns 4–7. -/
def outArr (A : Args) : S131072x8.Idx → EReal := fun i =>
  if h : (i 1).val < 4 then xNext A ⟨(i 0).val, idx2_lt0 i⟩ ⟨(i 1).val, h⟩
  else vNext A ⟨(i 0).val, idx2_lt0 i⟩ ⟨(i 1).val - 4, by have := idx2_lt1 i; omega⟩

theorem hz : (![0, 0] : Fin 2 → Nat) = fun _ => 0 := funext fun a => by fin_cases a <;> rfl

/-- Where the output window's block sits at each point: rows 2048·t on, all eight columns. -/
theorem idx8 : ∀ t : Fin cfg0.N, win0_8.index t (0 : Fin 2) = t.val ∧ win0_8.index t (1 : Fin 2) = 0 :=
  (by decide +kernel : ∀ t : Fin grid0.N, _)

/-- What point t writes back is block t of the result array. -/
theorem flushed_eq (t : Fin cfg0.N) :
    (dats m 0 c).flushed 8 t = ((cfg0.win 8).blk t).view.read (Elt Ideal) (outArr (argsOf m c)) := by
  show (cfg0.win 8).cut (grid0.coords t) ((dats m 0 c).after 8 t) = _
  rw [after0_8]
  unfold outBuf
  simp only [View.ld_unit_zero (S := S2048x1024) hz, View.ld_unit_zero (S := S2048x8) hz, View.ld_unit_zero (S := S1024x256) hz,
    View.ld_unit_zero (S := S8x256) hz, View.ld_unit_zero (S := S1x256) hz, View.ld_unit_zero (S := S256x16) hz,
    View.ld_unit_zero (S := S1x16) hz, View.ld_unit_zero (S := S1x8) hz]
  obtain ⟨e0, e1⟩ := idx8 t
  funext y
  refine View.canon_apply_of_pieces (((cfg0.win 8).blk t).view.read (Elt Ideal) (outArr (argsOf m c))) _ ?_ y (cover_out _ _ y)
  intro pc hpc
  rcases List.mem_cons.mp hpc with rfl | hpc
  · intro (x : S2048x4.Idx)
    obtain ⟨p, j, rfl⟩ : ∃ (p : Fin 2048) (j : Fin 4), x = ix2 p j := ⟨x 0, x 1, eq_ix2 x⟩
    refine (pay1_apply (iblk m c 1 t) (iblk m c 0 t) (iblk m c 2 t) (iblk m c 3 t) (iblk m c 4 t) (iblk m c 5 t)
      (iblk m c 6 t) (iblk m c 7 t) p j).trans ?_
    refine (bodyV_eq (holds m c t p) j).trans ?_
    show vNext (argsOf m c) (rowOf t p) j
      = outArr (argsOf m c) (((cfg0.win 8).blk t).view.emb (rHi.emb (ix2 p j)))
    have hemb : ((cfg0.win 8).blk t).view.emb (rHi.emb (ix2 p j))
        = ix2 (rowOf t p) (⟨4 + j.val, by omega⟩ : Fin 8) := by
      funext a; apply Fin.ext
      match a with
      | ⟨0, _⟩ => show win0_8.index t (0 : Fin 2) * 2048 + 1 * (0 + 1 * p.val) = 2048 * t.val + p.val; omega
      | ⟨1, _⟩ => show win0_8.index t (1 : Fin 2) * 8 + 1 * (4 + 1 * j.val) = 4 + j.val; omega
    rw [hemb]
    unfold outArr
    rw [dif_neg (show ¬ (4 + j.val < 4) by omega)]
    congr 1
    exact Fin.ext (by show j.val = 4 + j.val - 4; omega)
  rcases List.mem_cons.mp hpc with rfl | hpc
  · intro (x : S2048x4.Idx)
    obtain ⟨p, j, rfl⟩ : ∃ (p : Fin 2048) (j : Fin 4), x = ix2 p j := ⟨x 0, x 1, eq_ix2 x⟩
    refine (pay2_apply (iblk m c 1 t) (iblk m c 0 t) (iblk m c 2 t) (iblk m c 3 t) (iblk m c 4 t) (iblk m c 5 t)
      (iblk m c 6 t) (iblk m c 7 t) p j).trans ?_
    refine (bodyX_eq (holds m c t p) j).trans ?_
    show xNext (argsOf m c) (rowOf t p) j
      = outArr (argsOf m c) (((cfg0.win 8).blk t).view.emb (rLo.emb (ix2 p j)))
    have hemb : ((cfg0.win 8).blk t).view.emb (rLo.emb (ix2 p j))
        = ix2 (rowOf t p) (⟨j.val, by omega⟩ : Fin 8) := by
      funext a; apply Fin.ext
      match a with
      | ⟨0, _⟩ => show win0_8.index t (0 : Fin 2) * 2048 + 1 * (0 + 1 * p.val) = 2048 * t.val + p.val; omega
      | ⟨1, _⟩ => show win0_8.index t (1 : Fin 2) * 8 + 1 * (0 + 1 * j.val) = j.val; omega
    rw [hemb]
    unfold outArr
    rw [dif_pos (show j.val < 4 from j.isLt)]
  · simp at hpc

/-- An index of the result array lies in point t's block iff each coordinate is in the block's range on its axis. -/
theorem mem_blk8 (t : Fin cfg0.N) (i : S131072x8.Idx) :
    i ∈ ((cfg0.win 8).blk t).view.set ↔ ∀ a : Fin 2, win0_8.index t a * S2048x8.size a ≤ (i a).val
      ∧ (i a).val < win0_8.index t a * S2048x8.size a + S2048x8.size a := by
  show i ∈ ((View.whole main_v43).slice (win0_8.rect t)).set ↔ _
  rw [View.set_slice_whole, Rect.mem_set_unit]
  exact Iff.rfl

/-- Every entry of the result array is written back by some point: row r by point r / 2048. -/
theorem covered8 (i : S131072x8.Idx) :
    ∃ t : Fin cfg0.N, (cfg0.win 8).flush t = true ∧ i ∈ ((cfg0.win 8).blk t).view.set := by
  have hi0 : (i 0).val < 131072 := idx2_lt0 i
  have hi1 : (i 1).val < 8 := idx2_lt1 i
  have hN : cfg0.N = 64 := N_0
  let t : Fin cfg0.N := ⟨(i 0).val / 2048, by omega⟩
  obtain ⟨e0, e1⟩ := idx8 t
  have ht : t.val = (i 0).val / 2048 := rfl
  refine ⟨t, flush0_8 t, ?_⟩
  rw [mem_blk8]
  intro a
  match a with
  | ⟨0, _⟩ => show win0_8.index t (0 : Fin 2) * 2048 ≤ (i 0).val ∧ (i 0).val < win0_8.index t (0 : Fin 2) * 2048 + 2048; omega
  | ⟨1, _⟩ => show win0_8.index t (1 : Fin 2) * 8 ≤ (i 1).val ∧ (i 1).val < win0_8.index t (1 : Fin 2) * 8 + 8; omega

/-- The result array after the region. -/
theorem final8 : (dats m 0 c).arrAt 8 cfg0.N = outArr (argsOf m c) :=
  (dats m 0 c).arrAt_eq_of_cover 8 (outArr (argsOf m c)) (fun t _ => flushed_eq m c t) covered8

/-- The region leaves the result array at `outArr`. -/
theorem exit_v43 :
    Pipeline.withArrays spec0 c (V0 m c) (fun w => (dats m 0 c).arrAt w cfg0.N) (Proc.devRef .tc main_v43)
      = outArr (argsOf m c) :=
  (Pipeline.withArrays_arr spec0 launch0.win.arr_inj c _ _ 8).trans (final8 m c)

/-- The first result, columns 0–3 of the result array, is the next position. -/
theorem tail_x :
    (Pipeline.afterTail₀ cfgs (dats m) 0 (V0 m) [hostOps1] c main_v44 : S131072x4.Idx → EReal) = xOut (argsOf m c) := by
  unfold Pipeline.afterTail₀
  show StableHlo.after hostOps1 _ (Proc.devRef .tc main_v44) = _
  after_results
  rw [exit_v43]
  funext i
  obtain ⟨r, k, rfl⟩ : ∃ (r : Fin 131072) (k : Fin 4), i = ix2 r k := ⟨i 0, i 1, eq_ix2 i⟩
  refine (slice2_axis1_apply 0 (outArr (argsOf m c)) _ r k ⟨k.val, by omega⟩ (by simp)).trans ?_
  unfold outArr
  rw [dif_pos (show k.val < 4 from k.isLt)]
  rfl

/-- The second result, columns 4–7 of the result array, is the next velocity. -/
theorem tail_v :
    (Pipeline.afterTail₀ cfgs (dats m) 0 (V0 m) [hostOps1] c main_v45 : S131072x4.Idx → EReal) = vOut (argsOf m c) := by
  unfold Pipeline.afterTail₀
  show StableHlo.after hostOps1 _ (Proc.devRef .tc main_v45) = _
  after_results
  rw [exit_v43]
  funext i
  obtain ⟨r, k, rfl⟩ : ∃ (r : Fin 131072) (k : Fin 4), i = ix2 r k := ⟨i 0, i 1, eq_ix2 i⟩
  refine (slice2_axis1_apply 4 (outArr (argsOf m c)) _ r k ⟨4 + k.val, by omega⟩ rfl).trans ?_
  unfold outArr
  rw [dif_neg (show ¬ (4 + k.val < 4) by omega)]
  show vNext _ _ _ = vNext _ _ _
  congr 1
  exact Fin.ext (by show 4 + k.val - 4 = k.val; omega)

/-- The idealized kernel's run: it terminates, its two results are the next position and the next velocity of its
    own arguments, and its arguments end unchanged. -/
theorem run : θ_run defs (onTc (τ := τ) (main (F := Ideal))) ⟨m, fun _ => 0, ρ⟩ (fun r => ∀ c : Dev nD,
      r.2.mem ((c.tc : Thread nD τ).loc main_v44) = xOut (argsOf m c)
      ∧ r.2.mem ((c.tc : Thread nD τ).loc main_v45) = vOut (argsOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  (θ_run defs _ _).mono (fun r h c =>
      ⟨((h c).2 main_v44 (Pipeline.mem_restRefs_of main_v44 (by decide) (by decide))).trans (tail_x m c),
        ((h c).2 main_v45 (Pipeline.mem_restRefs_of main_v45 (by decide) (by decide))).trans (tail_v m c),
        args_kept m (dats m) (A_eq m) r h c⟩)
    (run_main m ρ)

end Cert.KernelIdeal.Val

end
-- ==== Proof.RefValue.lean ====
/-
  The reference program computes the specification, entry by entry, on the extended reals.

  The reference is a chain of array operations. Read at one index, every operation is a pointwise function of its
  operands at an index, a sum over a contracted axis, or a relabelling of the index. Following the chain from the two
  results back to the argument arrays gives: the concatenated row [h | x | v]; for each of the four heads the rectified
  affine hidden layer and the affine output layer over that row; the logistic and softplus squashings; the Euclidean
  norm of x − mu along a row; the harmonic term; and the integrator step that combines them.
-/
import proofs.«400346_j70085276336407_3_alg».proof.Proof.Gen.ReferenceIdeal.Read
import proofs.«400346_j70085276336407_3_alg».proof.Proof.Spec
import Idealize.ShloMosaic.Lib.Pipeline.Value
import Idealize.ShloMosaic.Lib.ValueIdx
import Idealize.ShloMosaic.PureOps.Ideal.Laws

noncomputable section

namespace Cert.RefValue

open Idealize.ShloMosaic Idealize.ShloMosaic.ValueIdx Cert.ReferenceIdeal Cert.ReferenceIdeal.Read
open Cert.Spec
open scoped BigOperators

/-! ## The concatenated row

Along the joined axis the three pieces span columns 0–1023, 1024–1027 and 1028–1031. A column falls in exactly one
span, and the concatenation reads that piece at the column less the widths of the pieces before it. -/

theorem ref_cat (h : Mat 131072 1024) (x v : Mat 131072 4) (r : Fin 131072) (k : Fin 1032) :
    val_main_v0 (F := Ideal) h x v (ix2 r k) = cat h x v r k := by
  unfold val_main_v0 cat
  split
  · next h1 =>
    exact concatenate_apply_piece _ _ _ (ix2 r k) 0 (by show 0 < 3; omega) S131072x1024 h rfl rfl 0 rfl
      (ix2 r ⟨k.val, h1⟩)
      (fun b hb => by match b with | ⟨0, _⟩ => rfl | ⟨1, _⟩ => exact absurd rfl hb)
      (by show 0 + k.val = k.val; omega)
  · next h1 =>
    split
    · next h2 =>
      exact concatenate_apply_piece _ _ _ (ix2 r k) 1 (by show 1 < 3; omega) S131072x4 x rfl rfl 1024 rfl
        (ix2 r ⟨k.val - 1024, by omega⟩)
        (fun b hb => by match b with | ⟨0, _⟩ => rfl | ⟨1, _⟩ => exact absurd rfl hb)
        (by show 1024 + (k.val - 1024) = k.val; omega)
    · next h2 =>
      exact concatenate_apply_piece _ _ _ (ix2 r k) 2 (by show 2 < 3; omega) S131072x4 v rfl rfl 1028 rfl
        (ix2 r ⟨k.val - 1028, by omega⟩)
        (fun b hb => by match b with | ⟨0, _⟩ => rfl | ⟨1, _⟩ => exact absurd rfl hb)
        (by show 1028 + (k.val - 1028) = k.val; omega)

/-! ## One head

A head reads the concatenated row twice contracted: the hidden layer sums the row against a column of the first
weight matrix, adds that column's bias and rectifies against the zero word; the output layer sums the hidden units
against a column of the second weight matrix and adds that column's bias. The bias rows reach every row of the batch
through two broadcasts, which only relabel the index. -/

/-- Hidden unit q on row r. -/
theorem ref_hidden (A : Args) (w1 : Mat 1032 64) (b1 : Vc 64) (r : Fin 131072) (q : Fin 64) :
    val_main_v5 (F := Ideal) A.h A.x A.v w1 b1 (ix2 r q) = hidden A w1 b1 r q := by
  rw [val_main_v5_apply, val_main_v4_apply, val_main_v1_apply, val_main_v3_apply, val_main_v2_apply,
    val_main_call0_v0_apply, val_main_call0_cst_apply]
  have el : ∀ k : Fin 1032, lidx_main_v1 (ix2 r q) k = ix2 r k := fun k => funext fun a => Fin.ext (by
    match a with | ⟨0, _⟩ => rfl | ⟨1, _⟩ => rfl)
  have er : ∀ k : Fin 1032, ridx_main_v1 (ix2 r q) k = ix2 k q := fun k => funext fun a => Fin.ext (by
    match a with | ⟨0, _⟩ => rfl | ⟨1, _⟩ => rfl)
  have eb : idx_main_v2 (idx_main_v3 (ix2 r q)) = ix1 q := funext fun a => Fin.ext (by
    match a with | ⟨0, _⟩ => rfl)
  rw [eb]
  have es : (∑ k : Fin 1032, val_main_v0 (F := Ideal) A.h A.x A.v (lidx_main_v1 (ix2 r q) k) * w1 (ridx_main_v1 (ix2 r q) k))
      = ∑ k : Fin 1032, cat A.h A.x A.v r k * w1 (ix2 k q) :=
    Finset.sum_congr rfl fun k _ => by rw [el, er, ref_cat]
  rw [es]
  rfl

/-- Output j of a head on row r, before any squashing. -/
theorem ref_head (A : Args) (w1 : Mat 1032 64) (b1 : Vc 64) (w2 : Mat 64 4) (b2 : Vc 4) (r : Fin 131072) (j : Fin 4) :
    val_main_v9 (F := Ideal) A.h A.x A.v w1 b1 w2 b2 (ix2 r j) = head A w1 b1 w2 b2 r j := by
  rw [val_main_v9_apply, val_main_v6_apply, val_main_v8_apply, val_main_v7_apply]
  have el : ∀ q : Fin 64, lidx_main_v6 (ix2 r j) q = ix2 r q := fun q => funext fun a => Fin.ext (by
    match a with | ⟨0, _⟩ => rfl | ⟨1, _⟩ => rfl)
  have er : ∀ q : Fin 64, ridx_main_v6 (ix2 r j) q = ix2 q j := fun q => funext fun a => Fin.ext (by
    match a with | ⟨0, _⟩ => rfl | ⟨1, _⟩ => rfl)
  have eb : idx_main_v7 (idx_main_v8 (ix2 r j)) = ix1 j := funext fun a => Fin.ext (by
    match a with | ⟨0, _⟩ => rfl)
  rw [eb]
  have es : (∑ q : Fin 64, val_main_v5 (F := Ideal) A.h A.x A.v w1 b1 (lidx_main_v6 (ix2 r j) q) * w2 (ridx_main_v6 (ix2 r j) q))
      = ∑ q : Fin 64, hidden A w1 b1 r q * w2 (ix2 q j) :=
    Finset.sum_congr rfl fun q _ => by rw [el, er, ref_hidden]
  rw [es]
  rfl

/-- The other three heads are the same chain of operations over their own weights. -/
theorem ref_head_beta (A : Args) (w1 : Mat 1032 64) (b1 : Vc 64) (w2 : Mat 64 4) (b2 : Vc 4) (r : Fin 131072) (j : Fin 4) :
    val_main_v24 (F := Ideal) A.h A.x A.v w1 b1 w2 b2 (ix2 r j) = head A w1 b1 w2 b2 r j :=
  (show val_main_v24 (F := Ideal) A.h A.x A.v w1 b1 w2 b2 (ix2 r j)
      = val_main_v9 (F := Ideal) A.h A.x A.v w1 b1 w2 b2 (ix2 r j) from rfl).trans (ref_head A w1 b1 w2 b2 r j)

theorem ref_head_gate (A : Args) (w1 : Mat 1032 64) (b1 : Vc 64) (w2 : Mat 64 4) (b2 : Vc 4) (r : Fin 131072) (j : Fin 4) :
    val_main_v34 (F := Ideal) A.h A.x A.v w1 b1 w2 b2 (ix2 r j) = head A w1 b1 w2 b2 r j :=
  (show val_main_v34 (F := Ideal) A.h A.x A.v w1 b1 w2 b2 (ix2 r j)
      = val_main_v9 (F := Ideal) A.h A.x A.v w1 b1 w2 b2 (ix2 r j) from rfl).trans (ref_head A w1 b1 w2 b2 r j)

theorem ref_head_cand (A : Args) (w1 : Mat 1032 64) (b1 : Vc 64) (w2 : Mat 64 4) (b2 : Vc 4) (r : Fin 131072) (j : Fin 4) :
    val_main_v49 (F := Ideal) A.h A.x A.v w1 b1 w2 b2 (ix2 r j) = head A w1 b1 w2 b2 r j :=
  (show val_main_v49 (F := Ideal) A.h A.x A.v w1 b1 w2 b2 (ix2 r j)
      = val_main_v9 (F := Ideal) A.h A.x A.v w1 b1 w2 b2 (ix2 r j) from rfl).trans (ref_head A w1 b1 w2 b2 r j)

/-! ## The two squashings

The logistic function is spelled negate, exponential, add the word for one, divide the word for one by the sum. The
softplus is spelled with a guard: where y − 0 differs from itself it would return y + 0, elsewhere
max(y, 0) + log(1 + e^(−|y − 0|)). An extended real never differs from itself, so the guard never fires. -/

/-- The alpha head's logistic. -/
theorem ref_sigmoid_alpha (h : Mat 131072 1024) (x v : Mat 131072 4) (w1 : Mat 1032 64) (b1 : Vc 64) (w2 : Mat 64 4) (b2 : Vc 4)
    (i : S131072x4.Idx) :
    val_main_v15 (F := Ideal) h x v w1 b1 w2 b2 i = sigmoid (val_main_v9 (F := Ideal) h x v w1 b1 w2 b2 i) := by
  rw [val_main_v15_apply, val_main_v14_apply, val_main_cst_0_apply, val_main_v13_apply, val_main_v12_apply,
    val_main_cst_apply, val_main_v11_apply, val_main_v10_apply]
  rfl

/-- The gate head's logistic: the same chain over the gate head. -/
theorem ref_sigmoid_gate (h : Mat 131072 1024) (x v : Mat 131072 4) (w1 : Mat 1032 64) (b1 : Vc 64) (w2 : Mat 64 4) (b2 : Vc 4)
    (i : S131072x4.Idx) :
    val_main_v40 (F := Ideal) h x v w1 b1 w2 b2 i = sigmoid (val_main_v34 (F := Ideal) h x v w1 b1 w2 b2 i) := by
  rw [val_main_v40_apply, val_main_v39_apply, val_main_cst_2_apply, val_main_v38_apply, val_main_v37_apply,
    val_main_cst_1_apply, val_main_v36_apply, val_main_v35_apply]
  rfl

/-- An extended real is not different from itself: the comparison's bit is clear. -/
theorem cmp_une_self (d : EReal) : FloatOps.cmpf (F := Ideal) (φ := .f32) .une d d = 0#1 := by
  rw [Ideal.cmpf_def]
  unfold Ideal.cmp
  rw [decide_eq_false (not_not_intro rfl)]
  rfl

/-- The beta head's softplus. -/
theorem ref_softplus (h : Mat 131072 1024) (x v : Mat 131072 4) (w1 : Mat 1032 64) (b1 : Vc 64) (w2 : Mat 64 4) (b2 : Vc 4)
    (i : S131072x4.Idx) :
    val_main_v25 (F := Ideal) h x v w1 b1 w2 b2 i = softplus (val_main_v24 (F := Ideal) h x v w1 b1 w2 b2 i) := by
  rw [val_main_v25_apply, val_main_call2_v4_apply, cmp_une_self, select_zero,
    val_main_call2_v11_apply, val_main_call2_v1_apply, val_main_call2_v0_apply, val_main_call2_v10_apply,
    val_main_call2_v9_apply, val_main_call2_v8_apply, val_main_call2_v7_apply, val_main_call2_v3_apply,
    val_main_call2_v2_apply, val_main_call2_cst_apply]
  rfl

/-! ## The norm of x − mu along a row, and the harmonic term

The norm squares x − mu entrywise, sums the four squares of a row starting from the zero word, and takes the square
root; the sum is carried as a column and later spread over the row's four entries, which only relabels the index.
The harmonic term does not depend on the row: it is a length-four vector spread over all rows. -/

/-- x − mu at (r, j). -/
theorem ref_err (A : Args) (r : Fin 131072) (j : Fin 4) :
    val_main_v52 (F := Ideal) A.x A.mu (ix2 r j) = err A r j := by
  rw [val_main_v52_apply, val_main_v51_apply, val_main_v50_apply]
  have eb : idx_main_v50 (idx_main_v51 (ix2 r j)) = ix1 j := funext fun a => Fin.ext (by
    match a with | ⟨0, _⟩ => rfl)
  rw [eb]
  rfl

/-- The norm of row r, held in the column's one entry. -/
theorem ref_imbalance (A : Args) (r : Fin 131072) (u : Fin 1) :
    val_main_v53 (F := Ideal) A.x A.mu (ix2 r u) = imbalance A r := by
  rw [val_main_v53_apply, val_main_call5_v2_apply, val_main_call5_v1_apply, val_main_call5_cst_apply]
  have ei : ∀ k : Fin 4, idx_main_call5_v1 (idx_main_call5_v2 (ix2 r u)) k = ix2 r k := fun k => funext fun a => Fin.ext (by
    match a with | ⟨0, _⟩ => rfl | ⟨1, _⟩ => rfl)
  have es : (∑ k : Fin 4, val_main_call5_v0 (F := Ideal) A.x A.mu (idx_main_call5_v1 (idx_main_call5_v2 (ix2 r u)) k))
      = ∑ k : Fin 4, err A r k * err A r k :=
    Finset.sum_congr rfl fun k _ => by
      rw [ei, val_main_call5_v0_apply, ref_err]
      rfl
  rw [es]
  rfl

/-- e^(−1 · ‖x − mu‖) spread over the row's entries. -/
theorem ref_decay (A : Args) (r : Fin 131072) (j : Fin 4) :
    val_main_v57 (F := Ideal) A.x A.mu (ix2 r j) = Ideal.exp (lit 0xBF800000#32 * imbalance A r) := by
  rw [val_main_v57_apply, val_main_v56_apply, val_main_v55_apply, val_main_v54_apply, val_main_cst_3_apply]
  have ec : idx_main_v57 (ix2 r j) = ix2 r (0 : Fin 1) := funext fun a => Fin.ext (by
    match a with | ⟨0, _⟩ => rfl | ⟨1, _⟩ => rfl)
  rw [ec, ref_imbalance]
  rfl

/-- The harmonic term at (r, j). -/
theorem ref_harmonic (gam phi : Vc 4) (r : Fin 131072) (j : Fin 4) :
    val_main_v73 (F := Ideal) gam phi (ix2 r j) = harmonic gam phi j := by
  rw [val_main_v73_apply, val_main_v72_apply, val_main_v71_apply, val_main_v70_apply, val_main_cst_6_apply,
    val_main_v69_apply, val_main_v68_apply, val_main_v67_apply, val_main_v66_apply, val_main_cst_5_apply]
  have eb : idx_main_v72 (idx_main_v73 (ix2 r j)) = ix1 j := funext fun a => Fin.ext (by
    match a with | ⟨0, _⟩ => rfl)
  rw [eb]
  rfl

/-! ## The integrator step -/

/-- alpha at (r, j): the alpha head's logistic damped by the row's norm. -/
theorem ref_alpha (A : Args) (r : Fin 131072) (j : Fin 4) :
    val_main_v58 (F := Ideal) A.h A.x A.v A.w1a A.b1a A.w2a A.b2a A.mu (ix2 r j) = alpha A r j := by
  rw [val_main_v58_apply, ref_sigmoid_alpha, ref_head, ref_decay]
  rfl

theorem ref_vNext (A : Cert.Spec.Args) (r : Fin 131072) (j : Fin 4) :
    val_main_v74 (F := Ideal) A.h A.x A.v A.w1a A.b1a A.w2a A.b2a A.w1b A.b1b A.w2b A.b2b A.w1v A.b1v A.w2v A.b2v A.mu A.gam A.phi (ix2 r j) = Cert.Spec.vNext A r j := by
  rw [val_main_v74_apply, val_main_v65_apply, val_main_v63_apply, val_main_v59_apply, val_main_v62_apply,
    val_main_v61_apply, val_main_v60_apply, val_main_cst_4_apply, val_main_v64_apply,
    ref_alpha, ref_head_cand, ref_softplus, ref_head_beta, ref_err, ref_harmonic]
  rfl

theorem ref_xNext (A : Cert.Spec.Args) (r : Fin 131072) (j : Fin 4) :
    val_main_v80 (F := Ideal) A.h A.x A.v A.w1a A.b1a A.w2a A.b2a A.w1b A.b1b A.w2b A.b2b A.w1g A.b1g A.w2g A.b2g A.w1v A.b1v A.w2v A.b2v A.mu A.gam A.phi (ix2 r j) = Cert.Spec.xNext A r j := by
  rw [val_main_v80_apply, val_main_v79_apply, val_main_v78_apply, val_main_v77_apply, val_main_cst_8_apply,
    val_main_v76_apply, val_main_v75_apply, val_main_cst_7_apply, ref_sigmoid_gate, ref_head_gate, ref_vNext]
  rfl

end Cert.RefValue

end
-- ==== Proof.RefOut.lean ====
/-
  The reference's two results as whole arrays of its own argument record.
-/
import proofs.«400346_j70085276336407_3_alg».proof.Proof.RefValue
import proofs.«400346_j70085276336407_3_alg».proof.Proof.Results

noncomputable section

namespace Cert.RefValue

open Idealize.ShloMosaic Idealize.ShloMosaic.TcCoe Idealize.ShloMosaic.ValueIdx Idealize.SL.Sem
open Cert.ReferenceIdeal Cert.ReferenceIdeal.Read

/-- The reference's argument arrays as memory m holds them on core c, in the entry point's order. -/
def refArgs (m : (ℓ : Loc nD τ sig) → Buf (Elt Ideal) ℓ) (c : Dev nD) : Cert.Spec.Args where
  h := m ((c.tc : Thread nD τ).loc main_arg0)
  x := m ((c.tc : Thread nD τ).loc main_arg1)
  v := m ((c.tc : Thread nD τ).loc main_arg2)
  w1a := m ((c.tc : Thread nD τ).loc main_arg3)
  b1a := m ((c.tc : Thread nD τ).loc main_arg4)
  w2a := m ((c.tc : Thread nD τ).loc main_arg5)
  b2a := m ((c.tc : Thread nD τ).loc main_arg6)
  w1b := m ((c.tc : Thread nD τ).loc main_arg7)
  b1b := m ((c.tc : Thread nD τ).loc main_arg8)
  w2b := m ((c.tc : Thread nD τ).loc main_arg9)
  b2b := m ((c.tc : Thread nD τ).loc main_arg10)
  w1g := m ((c.tc : Thread nD τ).loc main_arg11)
  b1g := m ((c.tc : Thread nD τ).loc main_arg12)
  w2g := m ((c.tc : Thread nD τ).loc main_arg13)
  b2g := m ((c.tc : Thread nD τ).loc main_arg14)
  w1v := m ((c.tc : Thread nD τ).loc main_arg15)
  b1v := m ((c.tc : Thread nD τ).loc main_arg16)
  w2v := m ((c.tc : Thread nD τ).loc main_arg17)
  b2v := m ((c.tc : Thread nD τ).loc main_arg18)
  mu := m ((c.tc : Thread nD τ).loc main_arg19)
  gam := m ((c.tc : Thread nD τ).loc main_arg20)
  phi := m ((c.tc : Thread nD τ).loc main_arg21)

/-- The reference's first result is the next position. -/
theorem res_x (m : (ℓ : Loc nD τ sig) → Buf (Elt Ideal) ℓ) (c : Dev nD) :
    (Cert.ReferenceIdeal.Value.res_main_v80 m c : S131072x4.Idx → EReal) = Cert.Spec.xOut (refArgs m c) := by
  rw [val_main_v80_eq]
  funext i
  obtain ⟨r, j, rfl⟩ : ∃ (r : Fin 131072) (j : Fin 4), i = ix2 r j := ⟨i 0, i 1, eq_ix2 i⟩
  exact ref_xNext (refArgs m c) r j

/-- The reference's second result is the next velocity. -/
theorem res_v (m : (ℓ : Loc nD τ sig) → Buf (Elt Ideal) ℓ) (c : Dev nD) :
    (Cert.ReferenceIdeal.Value.res_main_v74 m c : S131072x4.Idx → EReal) = Cert.Spec.vOut (refArgs m c) := by
  rw [val_main_v74_eq]
  funext i
  obtain ⟨r, j, rfl⟩ : ∃ (r : Fin 131072) (j : Fin 4), i = ix2 r j := ⟨i 0, i 1, eq_ix2 i⟩
  exact ref_vNext (refArgs m c) r j

end Cert.RefValue

end
-- ==== Proof.lean ====
/-
  The certificate: the three programs run to the end with their arguments unchanged, and the idealized kernel and
  the idealized reference end with equal results on the extended reals.

  The kernel fuses four two-layer networks on the row [h | x | v] and one integrator step into a single launch over
  64 blocks of 2048 rows. Its first layer is one 256-column product split into the h-columns and the (x‖v)-columns,
  its second layer one product against a block-diagonal 256 × 16 matrix; the reference runs the four networks one
  after the other on the concatenated row. On the extended reals the split sum is the whole sum (addition is
  commutative and associative), the off-diagonal zeros drop out (x · 0 = 0 for every extended real), a change of float
  format is the identity, the single logistic operation is 1 / (1 + e^(−y)), and the softplus guard d ≠ d never fires;
  so both programs compute the specification's next position and next velocity entry by entry. No finiteness of the
  inputs is used: the precondition is never opened.

  The frames of the two kernel programs are one text read at the two float instances (the pipeline's launch theorem
  over the body's triple); the reference's frame is its run with the results dropped. The idealization rewrote no
  operation, so there is nothing to preserve.
-/
import proofs.«400346_j70085276336407_3_alg».proof.Defs
import proofs.«400346_j70085276336407_3_alg».proof.Proof.Gen.Kernel
import proofs.«400346_j70085276336407_3_alg».proof.Proof.Gen.KernelIdeal
import proofs.«400346_j70085276336407_3_alg».proof.Proof.Gen.ReferenceIdeal
import proofs.«400346_j70085276336407_3_alg».proof.Proof.Gen.Pre_finite_inputs
import proofs.«400346_j70085276336407_3_alg».proof.Proof.Gen.ReferenceIdeal.Run
import proofs.«400346_j70085276336407_3_alg».proof.Proof.Gen.ReferenceIdeal.Read
import proofs.«400346_j70085276336407_3_alg».proof.Proof.KernelFrame
import proofs.«400346_j70085276336407_3_alg».proof.Proof.KernelIdealFrame
import proofs.«400346_j70085276336407_3_alg».proof.Proof.KernelValue
import proofs.«400346_j70085276336407_3_alg».proof.Proof.RefOut
import Idealize.ShloMosaic.Adequacy
import Idealize.ShloMosaic.Init

noncomputable section

namespace Cert.Proof

open Idealize.ShloMosaic Idealize.ShloMosaic.TcCoe Idealize.SL.Sem

/-- The word-level kernel runs to the end and leaves its arguments unchanged. -/
theorem frame_k : Cert.frame_Kernel := fun m ρ _ => Cert.Kernel.Fr.frame m ρ

/-- So does the idealized kernel. -/
theorem frame_ki : Cert.frame_KernelIdeal := fun m ρ _ => Cert.KernelIdeal.Fr.frame m ρ

/-- The reference's frame is its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote nothing. -/
theorem preserves : Cert.preserves_Kernel_KernelIdeal := trivial

/-- Memories that agree on the twenty-two arguments give the two programs one argument record. -/
theorem args_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) :
    Cert.RefValue.refArgs m' c = Cert.KernelIdeal.Fr.argsOf m c := by
  obtain ⟨h0, h1, h2, h3, h4, h5, h6, h7, h8, h9, h10, h11, h12, h13, h14, h15, h16, h17, h18, h19, h20, h21⟩ := h
  unfold Cert.RefValue.refArgs Cert.KernelIdeal.Fr.argsOf
  rw [h0, h1, h2, h3, h4, h5, h6, h7, h8, h9, h10, h11, h12, h13, h14, h15, h16, h17, h18, h19, h20, h21]

/-- Run from memories that agree on the arguments, the idealized kernel and the idealized reference both end, with the
    next position and the next velocity of that one argument record as their results. -/
theorem algebraic : Cert.algebraic_KernelIdeal_ReferenceIdeal := by
  intro m ρ m' ρ' _ hagree
  refine ⟨fun c => Cert.Spec.xOut (Cert.KernelIdeal.Fr.argsOf m c), fun c => Cert.Spec.vOut (Cert.KernelIdeal.Fr.argsOf m c),
    Cert.KernelIdeal.Val.run m ρ, ?_⟩
  refine (θ_run Cert.ReferenceIdeal.defs _ _).mono (fun r h c => ⟨(h c).1.trans ?_, (h c).2.1.trans ?_, (h c).2.2⟩)
    (Cert.ReferenceIdeal.Value.run (F := Ideal) m' ρ')
  · rw [Cert.RefValue.res_x, args_agree m m' c (hagree c)]
  · rw [Cert.RefValue.res_v, args_agree m m' c (hagree c)]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
